-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x2048x1024 .f32) (main_arg1 : FVec F S1024x1024 .f32) (main_arg2 : FVec F S1024x1024 .f32) (main_arg3 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x2048x1024 : Shape := ⟨3, ![8, 2048, 1024]⟩
abbrev S1024x1024 : Shape := ⟨2, ![1024, 1024]⟩
abbrev S10 : Shape := ⟨1, ![10]⟩
abbrev S1024x3072 : Shape := ⟨2, ![1024, 3072]⟩
abbrev S16384x1024 : Shape := ⟨2, ![16384, 1024]⟩
abbrev S16384x3072 : Shape := ⟨2, ![16384, 3072]⟩
abbrev S512x1024 : Shape := ⟨2, ![512, 1024]⟩
abbrev S512x3072 : Shape := ⟨2, ![512, 3072]⟩
abbrev S8x2048x3072 : Shape := ⟨3, ![8, 2048, 3072]⟩
abbrev S1x512x1024 : Shape := ⟨3, ![1, 512, 1024]⟩
abbrev S1 : Shape := ⟨1, ![1]⟩
abbrev S512x1 : Shape := ⟨2, ![512, 1]⟩
abbrev S1024x512 : Shape := ⟨2, ![1024, 512]⟩
abbrev S512x512 : Shape := ⟨2, ![512, 512]⟩
abbrev S512 : Shape := ⟨1, ![512]⟩

abbrev nBuf : Space → Nat
  | .hbm => 10
  | .vmem => 16
  | .smem => 2
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x3072, .f32⟩
  | .hbm, ⟨5, _⟩ => ⟨S1024x3072, .bf16⟩
  | .hbm, ⟨6, _⟩ => ⟨S16384x1024, .f32⟩
  | .hbm, ⟨7, _⟩ => ⟨S16384x3072, .bf16⟩
  | .hbm, ⟨8, _⟩ => ⟨S8x2048x3072, .bf16⟩
  | .hbm, ⟨9, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .f32⟩
  | .local _ .vmem, ⟨12, _⟩ => ⟨S1x512x1024, .f32⟩
  | .local _ .vmem, ⟨13, _⟩ => ⟨S512x1, .f32⟩
  | .local _ .vmem, ⟨14, _⟩ => ⟨S512x1, .f32⟩
  | .local _ .vmem, ⟨15, _⟩ => ⟨S512x1024, .f32⟩
  | .local _ .smem, ⟨0, _⟩ => ⟨S10, .i32⟩
  | .local _ .smem, ⟨1, _⟩ => ⟨S10, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c1_i32 : BitVec 32 := 1#32
  let c0_i32 : BitVec 32 := 0#32
  ![arg0.toNat, v1.toNat, c1_i32.toNat]

def cc1_transform_2 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c2_i32 : BitVec 32 := 2#32
  let c0_i32 : BitVec 32 := 0#32
  ![arg0.toNat, v1.toNat, c2_i32.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S16384x3072_S8x2048x3072 : S16384x3072.ShapeCasts S8x2048x3072
  numel1_S1 : S1.numel = 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  iota_S512x512_d0_w32 : S512x512.Iotas .tc 32 [0]
  iota_S512x512_d1_w32 : S512x512.Iotas .tc 32 [1]
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S16384x3072.size a
  hwx0_2 : ∀ i : grid0.Coords, EltTy.bits .bf16 = 32 ∨ (Rect.block (s := S16384x3072) S512x3072.size (cc0_transform_2 i) (hinb0_2 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v4) S1x512x1024.size reads1_0 false false 2 stage1_0 sem1_0 nbuf1_0 hstage1_0

abbrev spec1_1 : Pipeline.WinSpec sig grid1.rank :=
  Pipeline.WinSpec.ofSpec (Memref.whole main_v4) S1x512x1024.size reads1_1 false false 2 stage1_1 sem1_1 nbuf1_1 hstage1_1

abbrev spec1_2 : Pipeline.WinSpec sig grid1.rank :=
  Pipeline.WinSpec.ofSpec (Memref.whole main_v4) S1x512x1024.size reads1_2 false false 2 stage1_2 sem1_2 nbuf1_2 hstage1_2

abbrev spec1_3 : Pipeline.WinSpec sig grid1.rank :=
  Pipeline.WinSpec.ofSpec (Memref.whole main_v5) S1x512x1024.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x512x1024.size a ≤ S8x2048x3072.size a), EltTy.bits .bf16 = 32 ∨ (Rect.block (s := S8x2048x3072) S1x512x1024.size (cc1_transform_0 k1_off1_inb numel1_S1 pf i) h).WholeWords (EltTy.packing .bf16)) ∧
  (∀ i : grid1.Coords, ∃ h : (∀ a, (cc1_transform_1 k1_off1_inb numel1_S1 pf i a + 1) * S1x512x1024.size a ≤ S8x2048x3072.size a), EltTy.bits .bf16 = 32 ∨ (Rect.block (s := S8x2048x3072) S1x512x1024.size (cc1_transform_1 k1_off1_inb numel1_S1 pf i) h).WholeWords (EltTy.packing .bf16)) ∧
  (∀ i : grid1.Coords, ∃ h : (∀ a, (cc1_transform_2 k1_off1_inb numel1_S1 pf i a + 1) * S1x512x1024.size a ≤ S8x2048x3072.size a), EltTy.bits .bf16 = 32 ∨ (Rect.block (s := S8x2048x3072) S1x512x1024.size (cc1_transform_2 k1_off1_inb numel1_S1 pf i) h).WholeWords (EltTy.packing .bf16)) ∧
  (∀ i : grid1.Coords, ∃ h : (∀ a, (cc1_transform_3 k1_off1_inb numel1_S1 pf i a + 1) * S1x512x1024.size a ≤ S8x2048x1024.size a), EltTy.bits .f32 = 32 ∨ (Rect.block (s := S8x2048x1024) S1x512x1024.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond3 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .i1⟩
  | .hbm, ⟨13, _⟩ => ⟨S2048x2048, .i1⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .i1⟩
  | .hbm, ⟨21, _⟩ => ⟨S2048x2048, .i1⟩
  | .hbm, ⟨22, _⟩ => ⟨S2048x2048, .i1⟩
  | .hbm, ⟨23, _⟩ => ⟨S1x2048x2048, .i1⟩
  | .hbm, ⟨24, _⟩ => ⟨S_, .f32⟩
  | .hbm, ⟨25, _⟩ => ⟨S_, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.K.Base.lean ====
import proofs.«417288_j44684839747926_3_alg».proof.Proof.Gen.Kernel.Launch
import proofs.«417288_j44684839747926_3_alg».proof.Proof.Gen.Kernel.Skeleton
import proofs.«417288_j44684839747926_3_alg».proof.Proof.Gen.Kernel.Points
import Idealize.ShloMosaic.Lib.Pipeline.Kit
import Idealize.ShloMosaic.PureOps.BitExact
import Idealize.ShloMosaic.PureOps.Ideal

/-! The number instance at which this program's run is stated, and the two schedule tables of the attention
    call as the host constants leave them: step t of the ten visits (query block, key block) = (0,0), (1,0), (1,1),
    (2,0), …, (3,3), the lower triangle row by row. -/

noncomputable section

namespace Cert.Kernel.H

open Idealize.ShloMosaic Idealize.ShloMosaic.TcCoe
open Idealize.SL Idealize.SL.Sem
open Cert.Kernel Cert.Kernel.Gen

/-- The number instance of this program. -/
abbrev FF : FTy → Type := Bits

/-- The two schedule tables: the query-block index and the key-block index of each of the ten steps. -/
def tabs : pre1.Contents (Elt FF) := fun
  | ⟨0, _⟩ => fun i => lit0 (S10.rowMajor i)
  | ⟨1, _⟩ => fun i => lit1 (S10.rowMajor i)

/-- At these tables every block of the attention call lies inside its array. -/
theorem ok_tabs : ok1 (F := FF) tabs := by decide

/-- The tables as admissible contents of the attention call's pipeline. -/
def adm1 : (pcfg1 (F := FF)).Adm := ⟨tabs, ok_tabs⟩

/-- Both calls' tables: the projection call has none. -/
def adm : (p : Fin 2) → (pcfgs (F := FF) p).Adm
  | ⟨0, _⟩ => cfg0.toPCfg_adm
  | ⟨1, _⟩ => adm1

/-- The attention call's pipeline at the tables. -/
abbrev cfgT : Pipeline.Cfg sig Λ₀ := cfg1 (F := FF) adm1

theorem N_T : cfgT.N = 80 := by decide

end Cert.Kernel.H

end
-- ==== Proof.K.R0.lean ====
import proofs.«417288_j44684839747926_3_alg».proof.Proof.Gen.Kernel.Launch
import proofs.«417288_j44684839747926_3_alg».proof.Proof.Gen.Kernel.Skeleton
import proofs.«417288_j44684839747926_3_alg».proof.Proof.Gen.Kernel.Points
import proofs.«417288_j44684839747926_3_alg».proof.Proof.K.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The projection call, at any contents V of the core's buffers on entry.

    Its grid has 32 points. At point t the body finds in its first buffer the t-th block of 512 rows of the
    16384 x 1024 activation array, in its second buffer the whole 1024 x 3072 weight array (the same block at
    every point, so it is brought in once and stays), and leaves in its third buffer the 512 x 3072 block
    "narrow (narrow x · w)" of the two: the rows taken to the narrow format, multiplied into the weights from a
    zero accumulator, and the product taken to the narrow format again. Stated here: each window's block at a
    point, the contents the one whole-buffer store leaves, the body's triple, the pipeline's proof data and the
    body obligation at every point. -/

-- membership in a rectangle of these extents is looked at once per coordinate of the long axes
set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt FF) ℕ (UR sig nD τ) ℕ

-- the core's buffer contents when the call is entered
variable (V : (c : Dev nD) → (b : Ref sig .tc) → Buf (Elt FF) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt FF (cfg0.win w).elt :=
  ((cfg0.win w).blk t).view.read (Elt FF) (V c (Pipeline.arrRef spec0 w))

/-- The activation window's buffer holds its block at every point, for any proof data whose array is V's and
    whose body leaves the block in place. -/
theorem before0_0_of {c : Dev nD} (dat : Dat τ (Elt FF) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight array at every point: it is brought in at the first point,
    its block index never moves, and the body leaves it in place. -/
theorem before0_1_of {c : Dev nD} (dat : Dat τ (Elt FF) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-! ## What the body leaves in the output window's buffer -/

/-- The output buffer after the body, from the two input blocks: its one store, of the narrowed product of the
    narrowed rows and the weights. -/
def out0_2 (x0 : Vec FF S512x1024 .f32) (x1 : Vec FF S1024x3072 .bf16) : Vec FF S512x3072 .bf16 :=
  View.canon [⟨r0_2, k0_pay1 (View.ld x0 r0_0) (View.ld x1 r0_1)⟩]

/-- The one store is of the whole buffer, so it covers it. -/
theorem cover0_2 (p0 : Vec FF S512x3072 .bf16) (y : S512x3072.Idx) :
    ∃ pc ∈ ([⟨r0_2, p0⟩] : List (View.Piece (Elt FF) S512x3072 .bf16)), y ∈ pc.1.set :=
  View.cover_of_tiled [⟨r0_2, p0⟩] S512x3072.size (by rfl) y

/-! ## The body's triple -/

set_option maxHeartbeats 1000000 in
/-- The body on whole buffers, the two inputs' at read contents x0, x1 and the output's at anything, runs to the
    continuation holding the inputs' as they were and the output's at out0_2 of them: its two input loads read
    x0 and x1 whole, its load of the output buffer reads a value that is not used, and its one store overwrites the
    output buffer whole. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .bf16) (harg3 : arg3.IsWhole)
    (x0 : Vec FF S512x1024 .f32) (x1 : Vec FF S1024x3072 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := FF)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the projection call on core c: the arrays as the call finds them; after the body at point t
    each input's buffer at its block and the output's at out0_2 of the two input blocks; the invariant that of a
    call whose body touches its windows only (the scoped rest and the generator register, untouched); nothing owed;
    full shares. -/
def dat0 (c : Dev nD) : Dat τ (Elt FF) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's debts pass through unread. -/
theorem sound_body0 (c : Dev nD) (t : Fin cfg0.N) :
    bodyPre0 V c t ⊢ wp frame (wpE (defs₀ (F := FF)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 V c) (defs₀ (F := FF)) Variants.none () Set.univ := fun t => by
  rw [bigSep_W0, bigSep_W0]
  exact sound_body0 V c t

end Cert.Kernel.H

end
-- ==== Proof.K.R1Defs.lean ====
import proofs.«417288_j44684839747926_3_alg».proof.Proof.K.Base

/-! The attention call's body as pure step functions of what it reads: the carried row maximum, normaliser and
    accumulator (three scratch buffers), the query, key and value blocks of the step, and the step's two table words.
    A step whose key block is the first resets the carried state; a step below the diagonal updates it with the whole
    block; the diagonal step updates it with the causally masked block and stores the quotient. -/

noncomputable section

namespace Cert.Kernel.H

open Idealize.ShloMosaic Idealize.ShloMosaic.TcCoe
open Idealize.SL Idealize.SL.Sem
open Cert.Kernel Cert.Kernel.Gen

/-- The carried state: running row maximum, normaliser, accumulator. -/
structure St where
  m : Vec FF S512x1 .f32
  l : Vec FF S512x1 .f32
  a : Vec FF S512x1024 .f32

/-- The state a first key block starts from: maximum −∞, normaliser 0, accumulator 0. -/
def St.reset : St := ⟨k1_pay1 (F := FF), k1_pay2 (F := FF), k1_pay3 (F := FF)⟩

/-- A step strictly below the diagonal: the whole block of scores enters the running maximum, the normaliser and the
    accumulator, each read at its old contents. -/
def St.upd (q k v : Vec FF S1x512x1024 .bf16) (S : St) : St :=
  ⟨k1_pay5 (k1_pay10 q k S.m), k1_pay13 q k S.m S.l, k1_pay4 (k1_pay14 q k v S.m S.a)⟩

/-- The diagonal step at table words `w1` (query block) and `w3` (key block): the causally masked block enters the
    running state. -/
def St.diag (w1 w3 : BitVec 32) (q k v : Vec FF S1x512x1024 .bf16) (S : St) : St :=
  ⟨k1_pay7 (k1_pay17 w1 w3 q k S.m), k1_pay20 w1 w3 q k S.m S.l,
    k1_pay6 (k1_pay15 v) (k1_pay18 w1 w3 q k S.m) (k1_pay19 w1 w3 q k S.m) S.a⟩

/-- What the diagonal step stores in the output block: the new accumulator over the new normaliser. -/
def St.out (S : St) : Vec FF S1x512x1024 .f32 := k1_pay8 S.a S.l

/-- The three conditions of the body, on the step's table words `w1` (query block) and `w3` (key block). -/
abbrev isFirst (w3 : BitVec 32) : Prop := Scalar.cmpi .ne (Scalar.extui (Scalar.cmpi .eq w3 0#32)) 0#32 = 1#1
abbrev isBelow (w1 w3 : BitVec 32) : Prop := Scalar.cmpi .ne (Scalar.extui (Scalar.cmpi .slt w3 w1)) 0#32 = 1#1
abbrev isDiag (w1 w3 : BitVec 32) : Prop := k1_cond3 w1 w3 = 1#1

/-- The carried scratch buffers and the two tables, as the body is handed them. -/
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev tbQ : Memref sig .tc .smem S10 .i32 := Memref.whole main_c
abbrev tbK : Memref sig .tc .smem S10 .i32 := Memref.whole main_c_0

/-- The step's table words at grid point `i`: entry `i 1` of each table. -/
def wQ (i : grid1.Coords) : BitVec 32 := lit0 ⟨(i 1).val, (i 1).isLt⟩
def wK (i : grid1.Coords) : BitVec 32 := lit1 ⟨(i 1).val, (i 1).isLt⟩

end Cert.Kernel.H

end
-- ==== Proof.K.R1Dat.lean ====
import proofs.«417288_j44684839747926_3_alg».proof.Proof.K.R1Defs
import Idealize.ShloMosaic.Lib.Pipeline.FrameBody
import Idealize.ShloMosaic.Lib.Pipeline.TableIdle
import Idealize.ShloMosaic.Lib.Pipeline.Regions

/-! The attention call's proof data, at the buffer contents `V` the call is entered from: the blocks each step reads,
    the carried state and the output block's contents step by step (each step applies the body's pure step function to
    what the step before left), and the invariant between steps: the three scratch buffers at the carried state, the
    two tables, the other scoped buffers and the generator register untouched. -/

noncomputable section

namespace Cert.Kernel.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt FF) ℕ (UR sig nD τ) ℕ

variable (V : (c : Dev nD) → (b : Ref sig .tc) → Buf (Elt FF) ((c : Thread nD τ).loc b))

/-- Window `w`'s block at step `t`, read off its array as the call finds it. -/
def iblk1 (c : Dev nD) (w : Fin cfgT.W) (t : Fin cfgT.N) : ((cfgT.win w).xblock (cfgT.grid.coords t)).Idx → Elt FF (cfgT.win w).elt :=
  ((cfgT.win w).blk t).view.read (Elt FF) (V c (Pipeline.arrRef spec1 w))

/-- The step's grid point. -/
abbrev crd (t : Fin cfgT.N) : grid1.Coords := cfgT.grid.coords t

/-- A state nothing has determined. -/
def St.junk : St := ⟨fun _ => 0, fun _ => 0, fun _ => 0⟩

/-- ONE STEP: the carried state and the output block's contents after the body at step `t`, from what they were before:
    a first key block starts from the reset state; the diagonal step applies the masked update and stores the quotient;
    a step below the diagonal applies the plain update and leaves the output block as it was. -/
def step1 (c : Dev nD) (t : Fin cfgT.N) (p : St × Vec FF S1x512x1024 .f32) : St × Vec FF S1x512x1024 .f32 :=
  if isDiag (wQ (crd t)) (wK (crd t)) then
    ((if isFirst (wK (crd t)) then St.reset else p.1).diag (wQ (crd t)) (wK (crd t)) (iblk1 V c 0 t) (iblk1 V c 1 t) (iblk1 V c 2 t),
     ((if isFirst (wK (crd t)) then St.reset else p.1).diag (wQ (crd t)) (wK (crd t)) (iblk1 V c 0 t) (iblk1 V c 1 t) (iblk1 V c 2 t)).out)
  else
    ((if isFirst (wK (crd t)) then St.reset else p.1).upd (iblk1 V c 0 t) (iblk1 V c 1 t) (iblk1 V c 2 t), p.2)

/-- THE TRAJECTORY: after step `n`. -/
def traj (c : Dev nD) : ℕ → St × Vec FF S1x512x1024 .f32
  | 0 => step1 V c ⟨0, by decide⟩ (St.junk, fun _ => 0)
  | n + 1 => if h : n + 1 < cfgT.N then step1 V c ⟨n + 1, h⟩ (traj c n) else traj c n

theorem traj_succ (c : Dev nD) (n : ℕ) (h : n + 1 < cfgT.N) : traj V c (n + 1) = step1 V c ⟨n + 1, h⟩ (traj V c n) := by
  rw [traj, dif_pos h]

/-- The three scratch buffers at a carried state. -/
def carried (c : Dev nD) (S : St) : sProp 𝕄 :=
  iprop(owns (c : Thread nD τ) scM fullShare S.m ∗ owns (c : Thread nD τ) scL fullShare S.l ∗ owns (c : Thread nD τ) scA fullShare S.a)

/-- The scoped buffers the attention call never touches: the projection call's staging buffers, at any contents. -/
def idleScoped (c : Dev nD) : sProp 𝕄 :=
  iprop((∃ f : Buf (Elt FF) ((c : Thread nD τ).loc cc0_stg0_0), ((c : Thread nD τ).loc cc0_stg0_0) ↦{fullShare} f) ∗ (∃ f : Buf (Elt FF) ((c : Thread nD τ).loc cc0_stg0_1), ((c : Thread nD τ).loc cc0_stg0_1) ↦{fullShare} f) ∗ (∃ f : Buf (Elt FF) ((c : Thread nD τ).loc cc0_stg1_0), ((c : Thread nD τ).loc cc0_stg1_0) ↦{fullShare} f) ∗ (∃ f : Buf (Elt FF) ((c : Thread nD τ).loc cc0_stg2_0), ((c : Thread nD τ).loc cc0_stg2_0) ↦{fullShare} f) ∗ (∃ f : Buf (Elt FF) ((c : Thread nD τ).loc cc0_stg2_1), ((c : Thread nD τ).loc cc0_stg2_1) ↦{fullShare} f))

/-- THE INVARIANT before step `t`: the scratch buffers at what the step before left (at anything before the first step),
    the two tables at their contents, the untouched scoped buffers, the generator register at some state. -/
def Phi1 (c : Dev nD) (t : Fin (cfgT.N + 1)) : sProp 𝕄 :=
  iprop((∃ S : St, ⌜t.val ≠ 0 → S = (traj V c (t.val - 1)).1⌝ ∗ carried c S)
    ∗ ((((c : Thread nD τ).loc main_c) ↦{fullShare} tabs 0) ∗ (((c : Thread nD τ).loc main_c_0) ↦{fullShare} tabs 1))
    ∗ idleScoped c ∗ ∃ r, prngReg c r)

/-- The proof data of the attention call on core `c`: the arrays as the call finds them; after the body at step `t` each
    input's buffer at its block, the output's at what the trajectory says; the three input windows read ONE array, each
    at a third share of it. -/
def dat1 (c : Dev nD) : Dat τ (Elt FF) Unit ℕ (UR sig nD τ) ℕ cfgT c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (traj V c t.val).2
  Φ t := Phi1 V c t
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfgT.W) : (dat1 V c).A w = V c (Pipeline.arrRef spec1 w) := by
  dsimp only [dat1]
theorem after1_0 (c : Dev nD) (t : Fin cfgT.N) : (dat1 V c).after 0 t = iblk1 V c 0 t := by dsimp only [dat1]
theorem after1_1 (c : Dev nD) (t : Fin cfgT.N) : (dat1 V c).after 1 t = iblk1 V c 1 t := by dsimp only [dat1]
theorem after1_2 (c : Dev nD) (t : Fin cfgT.N) : (dat1 V c).after 2 t = iblk1 V c 2 t := by dsimp only [dat1]
theorem after1_3 (c : Dev nD) (t : Fin cfgT.N) : (dat1 V c).after 3 t = (traj V c t.val).2 := by dsimp only [dat1]

end Cert.Kernel.H

end
-- ==== Proof.K.RunDefs.lean ====
import proofs.«417288_j44684839747926_3_alg».proof.Proof.K.R0
import proofs.«417288_j44684839747926_3_alg».proof.Proof.K.R1Dat
import Idealize.ShloMosaic.Lib.Pipeline.FrameSuffix
import Idealize.ShloMosaic.Lib.Pipeline.RegionsLoop

/-! The buffer contents at every boundary of the program — launch, after the host operations that build the weights
    and reshape the activations, after the projection call, after the reshape of its result, after the attention call —
    and both calls' proof data, each at the contents its call is entered from. -/

noncomputable section

namespace Cert.Kernel.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt FF) ℕ (UR sig nD τ) ℕ

variable (m : (ℓ : Loc nD τ sig) → Buf (Elt FF) ℓ) (ρ : Dev nD → PrngReg)

/-- Core `c`'s buffers at launch. -/
abbrev W0 : Dev nD → Valuation τ sig (Elt FF) := fun c b => m ((c : Dev nD), b)
/-- After the host operations before the projection call. -/
abbrev W1 : Dev nD → Valuation τ sig (Elt FF) := fun c => StableHlo.after (hostOps0 (F := FF)) (W0 m c)
abbrev V1 : (c : Dev nD) → (b : Ref sig .tc) → Buf (Elt FF) ((c : Thread nD τ).loc b) := fun c b => W1 m c b
/-- After the projection call: its output array at what its write-backs leave. -/
def W2 (c : Dev nD) : Valuation τ sig (Elt FF) :=
  Pipeline.withArrays spec0 c (W1 m c) fun w => (dat0 (V1 m) c).arrAt w cfg0.N
abbrev V2 : (c : Dev nD) → (b : Ref sig .tc) → Buf (Elt FF) ((c : Thread nD τ).loc b) := fun c b => W2 m c b
/-- After the reshape between the calls. -/
abbrev W3 : Dev nD → Valuation τ sig (Elt FF) := fun c => StableHlo.after (hostOps1 (F := FF)) (W2 m c)
abbrev V3 : (c : Dev nD) → (b : Ref sig .tc) → Buf (Elt FF) ((c : Thread nD τ).loc b) := fun c b => W3 m c b
/-- After the attention call: its output array at what its write-backs leave, every other buffer as entered. -/
def W4 (c : Dev nD) : Valuation τ sig (Elt FF) :=
  Function.update (W3 m c) (Proc.devRef .tc main_v5) ((dat1 (V3 m) c).arrAt 3 cfgT.N)
abbrev V4 : (c : Dev nD) → (b : Ref sig .tc) → Buf (Elt FF) ((c : Thread nD τ).loc b) := fun c b => W4 m c b

/-- Both calls' proof data, each at its entry contents. -/
def pdats : (p : Fin 2) → (c : Dev nD) → Dat τ (Elt FF) Unit ℕ (UR sig nD τ) ℕ (Pipeline.pin (pcfgs (F := FF)) adm p) c
  | ⟨0, _⟩ => fun c => dat0 (V1 m) c
  | ⟨1, _⟩ => fun c => dat1 (V3 m) c

abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

end Cert.Kernel.H

end
-- ==== Proof.K.Seg0.lean ====
import proofs.«417288_j44684839747926_3_alg».proof.Proof.K.RunDefs

/-! The projection call as a segment of the program: entered from every unscoped buffer at the contents the host
    operations leave, left with its output array at what its write-backs leave and every other buffer as entered. -/

noncomputable section

namespace Cert.Kernel.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt FF) ℕ (UR sig nD τ) ℕ

variable (m : (ℓ : Loc nD τ sig) → Buf (Elt FF) ℓ)

theorem W2_arr (c : Dev nD) (w : Fin cfg0.W) :
    W2 m c (Proc.devRef .tc (Pipeline.arrRef spec0 w)) = (dat0 (V1 m) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

set_option backward.isDefEq.respectTransparency.types false in
/-- The projection call over the thread state: its arrays split out of the unscoped buffers and put back at the exit
    contents; the generator register into the call's invariant and out; nothing owed. -/
def reg0 : Pipeline.RegionSeg (pcfgs (F := FF)) adm (pdats m) () defs₀ 𝒱₀ L lv 0 where
  win := winFacts0.to₀
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := FF)) adm (pdats m) winFacts0 arr_whole0 c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := FF)) adm (Ix := Unit) (Name := ℕ) (U := UR sig nD τ) (Lvl := ℕ)
      winFacts0 arr_whole0 c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Run.lean ====
import proofs.«417288_j44684839747926_3_alg».proof.Proof.K.Seg0

/-! The run of the whole program from the launch to the return, given the attention call as a segment entered from the
    contents after the reshape and left at the final contents: every weakly fair execution terminates, nothing faulting,
    and the final memory holds the result array at what the attention call's write-backs leave and each argument array
    as launched. -/

noncomputable section

namespace Cert.Kernel.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt FF) ℕ (UR sig nD τ) ℕ

variable (m : (ℓ : Loc nD τ sig) → Buf (Elt FF) ℓ) (ρ : Dev nD → PrngReg)

/-- A host stretch as a segment over the unscoped buffers from the contents `W`, `R` riding along. -/
abbrev hseg (ops : List (HloOp τ sig (Elt FF))) (hsub : ops.Forall fun op => op.bufs ⊆ StableHlo.tcRefs τ sig)
    (hfresh : ops.Forall fun op => op.fresh = ∅) (W : Dev nD → Valuation τ sig (Elt FF)) :
    Pipeline.HostSeg (Name := ℕ) (U := UR sig nD τ) (pcfgs (F := FF)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt FF))).Forall fun op => op.fresh = ∅ := by
  simp only [List.Forall]; repeat' constructor
theorem hostOps1_fresh : (hostOps1 : List (HloOp τ sig (Elt FF))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m c) ∗ ∃ r, prngReg c r)

variable (R1 : Pipeline.RegionSeg (pcfgs (F := FF)) adm (pdats m) () defs₀ 𝒱₀ L lv 1)

/-- The program's four segments in order. -/
abbrev segs : List (Pipeline.Seg (pcfgs (F := FF)) adm (pdats m) () defs₀ 𝒱₀ L lv) :=
  [ .host (hseg hostOps0 hostOps0_sub hostOps0_fresh (W0 m)),
    .region (reg0 m),
    .host (hseg hostOps1 hostOps1_sub hostOps1_fresh (W2 m)),
    .region R1 ]

theorem main_run (c : Dev nD) : main (F := FF) c = Pipeline.Seg.run (segs m R1) := (main_chain c).trans (by chain_rfl)

set_option backward.isDefEq.respectTransparency.types false in
/-- THE RUN: every unscoped buffer of the final memory at the last boundary's contents. -/
theorem run_all
    (hpre1 : ∀ c : Dev nD, iprop(StableHlo.held (c : Thread nD τ) (Pipeline.ucRefs τ sig) (W3 m c) ∗ R c) ⊢ R1.pre c)
    (hpost1 : ∀ c : Dev nD, R1.post c ⊢ iprop(Tₙ m c ∗ ∃ W, owes (c : Thread nD τ) (0 : CellTallies nD τ sig Unit) W)) :
    θ_run defs (onTc (τ := τ) (main (F := FF))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := FF)) adm (pdats m) () (cellOf_inj adm) emb₁ defs₀ 𝒱₀ L lv m ρ main (segs m R1)
    (fun c Q => by rw [main_run m R1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := FF)) adm) (cellOf_inj adm)) (Pipeline.launchToks (Pipeline.pin (pcfgs (F := FF)) adm) (cellOf_inj adm)))
    (hu₀ := by
      iintro Hu; imodintro
      isplitl [Hu]
      · iapply (show (ownU (initOf (Pipeline.cells (Pipeline.pin (pcfgs (F := FF)) adm) (cellOf_inj adm)) (Pipeline.launchToks (Pipeline.pin (pcfgs (F := FF)) adm) (cellOf_inj adm))) : sProp 𝕄)
            ⊢ BI.own (emb₁ (initOf (Pipeline.cells (Pipeline.pin (pcfgs (F := FF)) adm) (cellOf_inj adm)) (Pipeline.launchToks (Pipeline.pin (pcfgs (F := FF)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, hpre1, hpost1⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.H

end
-- ==== Proof.K.Main.lean ====
import proofs.«417288_j44684839747926_3_alg».proof.Proof.K.Run

/-! The final contents read back: the result array holds what the attention call's write-backs leave, and no host
    operation and no call writes an argument array. -/

noncomputable section

namespace Cert.Kernel.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt FF) ℕ (UR sig nD τ) ℕ

variable (m : (ℓ : Loc nD τ sig) → Buf (Elt FF) ℓ) (ρ : Dev nD → PrngReg)

theorem W4_main_v5 (c : Dev nD) : W4 m c (Proc.devRef .tc main_v5) = (dat1 (V3 m) c).arrAt 3 cfgT.N := by
  unfold W4; exact Function.update_self ..

/-- A reference no host operation writes and no call's window names keeps its launch contents to the end. -/
theorem W4_of_arg (c : Dev nD) (b : Ref sig .tc)
    (h5 : (Proc.devRef .tc b : DevRef τ sig) ≠ Proc.devRef .tc main_v5)
    (h1 : ∀ op ∈ (hostOps1 : List (HloOp τ sig (Elt FF))), (Proc.devRef .tc b : DevRef τ sig) ∉ op.writes)
    (hw : ∀ w, Pipeline.arrRef spec0 w ≠ b)
    (h0 : ∀ op ∈ (hostOps0 : List (HloOp τ sig (Elt FF))), (Proc.devRef .tc b : DevRef τ sig) ∉ op.writes) :
    W4 m c (Proc.devRef .tc b) = m ((c : Thread nD τ).loc b) :=
  calc W4 m c (Proc.devRef .tc b)
    _ = W3 m c (Proc.devRef .tc b) := by unfold W4; exact Function.update_of_ne h5 ..
    _ = W2 m c (Proc.devRef .tc b) := StableHlo.after_of_forall_not_mem (b := Proc.devRef .tc b) _ _ h1
    _ = W1 m c (Proc.devRef .tc b) := W2_of_ne m c b hw
    _ = W0 m c (Proc.devRef .tc b) := StableHlo.after_of_forall_not_mem (b := Proc.devRef .tc b) _ _ h0
    _ = m ((c : Thread nD τ).loc b) := rfl

theorem notW1 (b : Ref sig .tc) (hb : b ≠ main_v4) :
    ∀ op ∈ (hostOps1 : List (HloOp τ sig (Elt FF))), (Proc.devRef .tc b : DevRef τ sig) ∉ op.writes := by
  refine List.forall_iff_forall_mem.mp ?_
  simp only [hostOps1, List.Forall, StableHlo.reshape_writes, Finset.mem_singleton]
  exact StableHlo.devRef_ne_of_ne hb

theorem notW0 (b : Ref sig .tc) (h1 : b ≠ main_c) (h2 : b ≠ main_c_0) (h3 : b ≠ main_v0) (h4 : b ≠ main_v1) (h5 : b ≠ main_v2) :
    ∀ op ∈ (hostOps0 : List (HloOp τ sig (Elt FF))), (Proc.devRef .tc b : DevRef τ sig) ∉ op.writes := by
  refine List.forall_iff_forall_mem.mp ?_
  simp only [hostOps0, List.Forall, StableHlo.nullary_writes, StableHlo.unary_writes, StableHlo.nary_writes, StableHlo.reshape_writes, Finset.mem_singleton]
  exact ⟨StableHlo.devRef_ne_of_ne h1, StableHlo.devRef_ne_of_ne h2, StableHlo.devRef_ne_of_ne h3, StableHlo.devRef_ne_of_ne h4, StableHlo.devRef_ne_of_ne h5⟩

theorem W4_main_arg0 (c : Dev nD) : W4 m c (Proc.devRef .tc main_arg0) = m ((c : Thread nD τ).loc main_arg0) :=
  W4_of_arg m c main_arg0 (StableHlo.devRef_ne_of_ne (by decide)) (notW1 main_arg0 (by decide)) (by decide) (notW0 main_arg0 (by decide) (by decide) (by decide) (by decide) (by decide))
theorem W4_main_arg1 (c : Dev nD) : W4 m c (Proc.devRef .tc main_arg1) = m ((c : Thread nD τ).loc main_arg1) :=
  W4_of_arg m c main_arg1 (StableHlo.devRef_ne_of_ne (by decide)) (notW1 main_arg1 (by decide)) (by decide) (notW0 main_arg1 (by decide) (by decide) (by decide) (by decide) (by decide))
theorem W4_main_arg2 (c : Dev nD) : W4 m c (Proc.devRef .tc main_arg2) = m ((c : Thread nD τ).loc main_arg2) :=
  W4_of_arg m c main_arg2 (StableHlo.devRef_ne_of_ne (by decide)) (notW1 main_arg2 (by decide)) (by decide) (notW0 main_arg2 (by decide) (by decide) (by decide) (by decide) (by decide))
theorem W4_main_arg3 (c : Dev nD) : W4 m c (Proc.devRef .tc main_arg3) = m ((c : Thread nD τ).loc main_arg3) :=
  W4_of_arg m c main_arg3 (StableHlo.devRef_ne_of_ne (by decide)) (notW1 main_arg3 (by decide)) (by decide) (notW0 main_arg3 (by decide) (by decide) (by decide) (by decide) (by decide))

variable (R1 : Pipeline.RegionSeg (pcfgs (F := FF)) adm (pdats m) () defs₀ 𝒱₀ L lv 1)

/-- THE RUN, read at the result and the arguments. -/
theorem run_main
    (hpre1 : ∀ c : Dev nD, iprop(StableHlo.held (c : Thread nD τ) (Pipeline.ucRefs τ sig) (W3 m c) ∗ R c) ⊢ R1.pre c)
    (hpost1 : ∀ c : Dev nD, R1.post c ⊢ iprop(Tₙ m c ∗ ∃ W, owes (c : Thread nD τ) (0 : CellTallies nD τ sig Unit) W)) :
    θ_run defs (onTc (τ := τ) (main (F := FF))) ⟨m, fun _ => 0, ρ⟩ (fun r => ∀ c : Dev nD,
      r.2.mem ((c.tc : Thread nD τ).loc main_v5) = (dat1 (V3 m) c).arrAt 3 cfgT.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (W4_main_v5 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩)
    (run_all m ρ R1 hpre1 hpost1)

end Cert.Kernel.H

end
-- ==== Proof.K.Seg1.lean ====
import proofs.«417288_j44684839747926_3_alg».proof.Proof.K.RunDefs

/-! The attention call as a segment of the run, its body obligation a parameter.

    The call's three input windows read ONE array, so at entry that array's full points-to is dealt in three shares
    (left half, left quarter of the right half, right quarter of the right half) to the three windows, and at exit the
    three shares, the array unchanged, rejoin. The two schedule tables are held at the contents the host constants
    gave them: no operation and neither call writes them between. The invariant takes in the generator register, the
    tables and the scoped buffers no window stages (the three scratch buffers as the carried state, the projection
    call's staging buffers untouched) and gives them back at the end. -/

noncomputable section

namespace Cert.Kernel.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt FF) ℕ (UR sig nD τ) ℕ

variable (m : (ℓ : Loc nD τ sig) → Buf (Elt FF) ℓ)

/-! ## The tables at entry -/

/-- Neither the reshape between the calls nor the projection call writes a table, and the host constants leave the
    first table at the query-block schedule. -/
theorem V3_tab0 (c : Dev nD) : V3 m c main_c = tabs 0 := by
  have e3 : W3 m c (Proc.devRef .tc main_c) = W2 m c (Proc.devRef .tc main_c) := by
    show StableHlo.after (hostOps1 (F := FF)) (W2 m c) (Proc.devRef .tc main_c) = _
    dsimp only [hostOps1]
    after_results
  have e2 : W2 m c (Proc.devRef .tc main_c) = W1 m c (Proc.devRef .tc main_c) := by
    unfold W2; exact Pipeline.withArrays_of_ne spec0 c _ _ main_c (by decide)
  have e1 : W1 m c (Proc.devRef .tc main_c) = tabs 0 := by
    show StableHlo.after (hostOps0 (F := FF)) (W0 m c) (Proc.devRef .tc main_c) = _
    dsimp only [hostOps0]
    after_results
    rfl
  exact e3.trans (e2.trans e1)

/-- Likewise the second table, at the key-block schedule. -/
theorem V3_tab1 (c : Dev nD) : V3 m c main_c_0 = tabs 1 := by
  have e3 : W3 m c (Proc.devRef .tc main_c_0) = W2 m c (Proc.devRef .tc main_c_0) := by
    show StableHlo.after (hostOps1 (F := FF)) (W2 m c) (Proc.devRef .tc main_c_0) = _
    dsimp only [hostOps1]
    after_results
  have e2 : W2 m c (Proc.devRef .tc main_c_0) = W1 m c (Proc.devRef .tc main_c_0) := by
    unfold W2; exact Pipeline.withArrays_of_ne spec0 c _ _ main_c_0 (by decide)
  have e1 : W1 m c (Proc.devRef .tc main_c_0) = tabs 1 := by
    show StableHlo.after (hostOps0 (F := FF)) (W0 m c) (Proc.devRef .tc main_c_0) = _
    dsimp only [hostOps0]
    after_results
    rfl
  exact e3.trans (e2.trans e1)

/-! ## The invariant at the first and the last point -/

/-- The two tables conjoined one by one. -/
theorem bigSep_K2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- What the invariant gives back at the end beside the scoped buffers: the generator register and both tables whole. -/
def Y1 (c : Dev nD) : sProp 𝕄 :=
  iprop((∃ r, prngReg c r) ∗ (((c : Thread nD τ).loc main_c) ↦{fullShare} tabs 0) ∗ (((c : Thread nD τ).loc main_c_0) ↦{fullShare} tabs 1))

/-- The invariant before the first step: the scratch buffers at whatever they hold (nothing is claimed of the carried
    state before the first step), the tables, the idle staging buffers, the generator register. -/
theorem hin1 (V : (c : Dev nD) → (b : Ref sig .tc) → Buf (Elt FF) ((c : Thread nD τ).loc b)) (c : Dev nD) :
    iprop((∃ r, prngReg c r) ∗ Pipeline.prefHeld pre1 c (fun _ => fullShare) tabs
      ∗ Pipeline.scopedRest (Ix := Unit) (Name := ℕ) (U := UR sig nD τ) (Lvl := ℕ) (Val := Elt FF) spec1 c) ⊢ (Phi1 V c 0 : sProp 𝕄) := by
  rw [scopedRest1_eq]
  unfold Phi1 idleScoped carried Pipeline.prefHeld
  rw [bigSep_K2]
  iintro ⟨Hp, ⟨Ht0, Ht1⟩, H0, H1, H2, H3, H4, ⟨%f5, H5⟩, ⟨%f6, H6⟩, ⟨%f7, H7⟩⟩
  isplitl [H5 H6 H7]
  · iexists (⟨f5, f6, f7⟩ : St)
    isplitr
    · ipureintro; intro h; exact absurd rfl h
    rw [owns_whole, owns_whole, owns_whole]
    isplitl [H5]; · iexact H5
    isplitl [H6]; · iexact H6
    iexact H7
  isplitl [Ht0 Ht1]
  · isplitl [Ht0]; · iexact Ht0
    iexact Ht1
  isplitr [Hp]
  · isplitl [H0]; · iexact H0
    isplitl [H1]; · iexact H1
    isplitl [H2]; · iexact H2
    isplitl [H3]; · iexact H3
    iexact H4
  iexact Hp

/-- The invariant after the last step gives back the generator register, the tables and every scoped buffer it took,
    the carried state forgotten. -/
theorem hout1 (V : (c : Dev nD) → (b : Ref sig .tc) → Buf (Elt FF) ((c : Thread nD τ).loc b)) (c : Dev nD) :
    (Phi1 V c (Fin.last cfgT.N) : sProp 𝕄) ⊢ iprop(Y1 c
      ∗ Pipeline.scopedRest (Ix := Unit) (Name := ℕ) (U := UR sig nD τ) (Lvl := ℕ) (Val := Elt FF) spec1 c) := by
  rw [scopedRest1_eq]
  unfold Phi1 idleScoped carried Y1
  simp only [owns_whole]
  iintro ⟨⟨%S, -, H5, H6, H7⟩, ⟨Ht0, Ht1⟩, ⟨H0, H1, H2, H3, H4⟩, Hp⟩
  isplitl [Hp Ht0 Ht1]
  · isplitl [Hp]; · iexact Hp
    isplitl [Ht0]; · iexact Ht0
    iexact Ht1
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

/-! ## The unscoped buffers and the windows' arrays, spelt out -/

/-- The unscoped buffers, at any valuation: the two arrays of the attention call, its two tables, the rest. -/
theorem held_split1 (c : Dev nD) (W : Valuation τ sig (Elt FF)) :
    (StableHlo.held (c : Thread nD τ) (Pipeline.ucRefs τ sig) W : sProp 𝕄)
      = iprop(((((c : Thread nD τ).loc main_v4) ↦{fullShare} W main_v4) ∗ (((c : Thread nD τ).loc main_v5) ↦{fullShare} W main_v5))
          ∗ Pipeline.prefHeld pre1 c (fun _ => fullShare) (fun k => W (pre1.ref k))
          ∗ Pipeline.unscopedRestP (Ix := Unit) (Name := ℕ) (U := UR sig nD τ) (Lvl := ℕ) pre1 spec1 c (fun b => W b)) := by
  rw [← Pipeline.unscopedBufs_held (Ix := Unit) (Name := ℕ) (U := UR sig nD τ) (Lvl := ℕ) c W,
    Pipeline.unscopedBufs_split₀ (fun _ : Unit => cfgT) () winFacts₀1.arr_unscoped c,
    Pipeline.unscopedRest_split preFacts1]
  unfold Pipeline.arrBufs
  rw [show Finset.univ.image (Pipeline.arrRef spec1) = {main_v4, main_v5} from by decide,
    bigSep_insert (by decide), bigSep_singleton]
  rfl

/-- The attention call's four windows' arrays: the one input array at its three shares, the output array whole. -/
theorem arrays1_eq (V : (c : Dev nD) → (b : Ref sig .tc) → Buf (Elt FF) ((c : Thread nD τ).loc b)) (c : Dev nD)
    (F : (w : Fin cfgT.W) → Buf (Elt FF) ((cfgT.win w).arr.view.loc (c : Thread nD τ))) :
    ((dat1 V c).arrays F : sProp 𝕄)
      = iprop((((c : Thread nD τ).loc main_v4) ↦{fullShare.left} F 0) ∗ (((c : Thread nD τ).loc main_v4) ↦{fullShare.right.left} F 1)
          ∗ (((c : Thread nD τ).loc main_v4) ↦{fullShare.right.right} F 2) ∗ (((c : Thread nD τ).loc main_v5) ↦{fullShare} F 3)) := by
  unfold Dat.arrays
  rw [bigSep_W1]
  have hs : ∀ w : Fin 4, (cfgT.win w).arr.view.set = Finset.univ := fun w => (arr_whole1 w).set_eq_univ
  rw [hs 0, hs 3]
  rfl

/-! ## Entry and exit -/

/-- ENTRY of the attention call: the input array's full points-to dealt in three shares to the three input windows,
    the output array whole, the tables at their contents, the generator register, the rest bypassing the call. -/
theorem hentry1 (c : Dev nD) :
    iprop((StableHlo.held (c : Thread nD τ) (Pipeline.ucRefs τ sig) (W3 m c) ∗ R c) ∗ (BI.emp : sProp 𝕄) ∗ levAts L lv)
      ⊢ |={Set.univ}=> iprop((dat1 (V3 m) c).arrays ((dat1 (V3 m) c).arrAt · 0) ∗ Pipeline.prefHeld pre1 c (fun _ => fullShare) tabs
          ∗ (dat1 (V3 m) c).owesAt () 0 ∗ (∃ r, prngReg c r)
          ∗ Pipeline.unscopedRestP (Ix := Unit) (Name := ℕ) (U := UR sig nD τ) (Lvl := ℕ) pre1 spec1 c (V3 m c)) := by
  have etab : ((fun k => W3 m c (pre1.ref k)) : pre1.Contents (Elt FF)) = tabs := by
    funext k
    match k with
    | ⟨0, _⟩ => exact V3_tab0 m c
    | ⟨1, _⟩ => exact V3_tab1 m c
  rw [held_split1, arrays1_eq, etab]
  iintro ⟨⟨⟨⟨H4, H5⟩, Ht, Hrest⟩, Hp, HO⟩, -, -⟩
  ihave H4' := (pointsTo_share (PosShare.mem_left_op_right fullShare)).1 $$ H4
  icases H4' with ⟨H4l, H4r⟩
  ihave H4r' := (pointsTo_share (PosShare.mem_left_op_right fullShare.right)).1 $$ H4r
  icases H4r' with ⟨H4rl, H4rr⟩
  imodintro
  isplitl [H4l H4rl H4rr H5]
  · isplitl [H4l]; · iexact H4l
    isplitl [H4rl]; · iexact H4rl
    isplitl [H4rr]; · iexact H4rr
    iexact H5
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hrest

/-- The attention call changes the output array alone. -/
theorem W4_of_ne (c : Dev nD) (b : Ref sig .tc) (h : b ≠ main_v5) : W4 m c b = W3 m c b := by
  unfold W4; exact Function.update_of_ne (StableHlo.devRef_ne_of_ne h) _ _

/-- and leaves it at what its write-backs make of it. -/
theorem W4_out (c : Dev nD) : W4 m c main_v5 = (dat1 (V3 m) c).arrAt 3 cfgT.N := by
  unfold W4; exact Function.update_self _ _ _

/-- EXIT of the attention call: the three shares of the input array, unchanged, rejoin; the output array is at what
    the write-backs leave; the tables and every bypassing buffer are as entered. -/
theorem hexit1 (c : Dev nD) :
    iprop((dat1 (V3 m) c).arrays ((dat1 (V3 m) c).arrAt · cfgT.N) ∗ (dat1 (V3 m) c).owesAt () (Fin.last cfgT.N) ∗ Y1 c
        ∗ Pipeline.unscopedRestP (Ix := Unit) (Name := ℕ) (U := UR sig nD τ) (Lvl := ℕ) pre1 spec1 c (V3 m c))
      ⊢ |={Set.univ}=> iprop(StableHlo.held (c : Thread nD τ) (Pipeline.ucRefs τ sig) (W4 m c) ∗ R c) := by
  have etab : ((fun k => W4 m c (pre1.ref k)) : pre1.Contents (Elt FF)) = tabs := by
    funext k
    match k with
    | ⟨0, _⟩ => exact (W4_of_ne m c main_c (by decide)).trans (V3_tab0 m c)
    | ⟨1, _⟩ => exact (W4_of_ne m c main_c_0 (by decide)).trans (V3_tab1 m c)
  have erest : (Pipeline.unscopedRestP (Ix := Unit) (Name := ℕ) (U := UR sig nD τ) (Lvl := ℕ) pre1 spec1 c (fun b => W4 m c b) : sProp 𝕄)
      = Pipeline.unscopedRestP pre1 spec1 c (V3 m c) := by
    unfold Pipeline.unscopedRestP
    refine bigSep_congr fun b hb => ?_
    have hne : b ≠ main_v5 := fun e =>
      (Finset.mem_sdiff.mp (Finset.mem_sdiff.mp hb).1).2 (e ▸ Finset.mem_image.mpr ⟨3, Finset.mem_univ _, rfl⟩)
    show ((c : Thread nD τ).loc b ↦{fullShare} W4 m c b) = ((c : Thread nD τ).loc b ↦{fullShare} W3 m c b)
    rw [W4_of_ne m c b hne]
  have h0 : (dat1 (V3 m) c).arrAt 0 cfgT.N = V3 m c main_v4 := (dat1 (V3 m) c).arrAt_in 0 rfl _
  have h1 : (dat1 (V3 m) c).arrAt 1 cfgT.N = V3 m c main_v4 := (dat1 (V3 m) c).arrAt_in 1 rfl _
  have h2 : (dat1 (V3 m) c).arrAt 2 cfgT.N = V3 m c main_v4 := (dat1 (V3 m) c).arrAt_in 2 rfl _
  rw [held_split1, arrays1_eq, etab, erest, W4_of_ne m c main_v4 (by decide), W4_out, h0, h1, h2]
  unfold Y1
  iintro ⟨⟨H4l, H4rl, H4rr, H5⟩, HO, ⟨Hp, Ht0, Ht1⟩, Hrest⟩
  ihave H4r := (pointsTo_share (PosShare.mem_left_op_right fullShare.right)).2 $$ [H4rl H4rr]
  · isplitl [H4rl]; · iexact H4rl
    iexact H4rr
  ihave H4 := (pointsTo_share (PosShare.mem_left_op_right fullShare)).2 $$ [H4l H4r]
  · isplitl [H4l]; · iexact H4l
    iexact H4r
  imodintro
  isplitr [Hp HO]
  · isplitl [H4 H5]
    · isplitl [H4]; · iexact H4
      iexact H5
    isplitl [Ht0 Ht1]
    · unfold Pipeline.prefHeld; rw [bigSep_K2]
      isplitl [Ht0]; · iexact Ht0
      iexact Ht1
    iexact Hrest
  isplitl [Hp]; · iexact Hp
  unfold Pipeline.Dat.owesAt Pipeline.owesWithin
  icases HO with ⟨%W, -, HO⟩; iexists W; iexact HO

/-! ## The segment -/

set_option backward.isDefEq.respectTransparency.types false in
/-- THE ATTENTION CALL AS A SEGMENT, given its body obligation: entered from every unscoped buffer at `W3`, left at
    `W4`; nothing owed; no semaphore of the kernel's own. -/
def reg1 (hb : ∀ c : Dev nD, Pipeline.BodyObligation (dat1 (V3 m) c) (defs₀ (F := FF)) Variants.none () Set.univ) :
    Pipeline.RegionSeg (pcfgs (F := FF)) adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := Y1 c
  Z c := Pipeline.unscopedRestP (Ix := Unit) (Name := ℕ) (U := UR sig nD τ) (Lvl := ℕ) pre1 spec1 c (V3 m c)
  hentry c := by
    rw [Pipeline.ownSems0_none]
    exact hentry1 m c
  hin c := hin1 (V3 m) c
  hout c := by
    rw [Pipeline.ownSems0_none]
    refine (hout1 (V3 m) c).trans ?_
    iintro ⟨HY, Hr⟩
    isplitl [HY]; · iexact HY
    isplitr; · iempintro
    iexact Hr
  hexit c := hexit1 m c

end Cert.Kernel.H

end
-- ==== Proof.K.R1Sched.lean ====
import proofs.«417288_j44684839747926_3_alg».proof.Proof.K.R1Dat

/-! The attention call's schedule at the tables, decided once over its eighty points, and what each window's staging
    buffer holds when the body runs: an input window its block of the step; the output window, stored only at the
    diagonal steps and written back exactly there, nothing any earlier step has left. -/

noncomputable section

namespace Cert.Kernel.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt FF) ℕ (UR sig nD τ) ℕ

variable (V : (c : Dev nD) → (b : Ref sig .tc) → Buf (Elt FF) ((c : Thread nD τ).loc b))

/-! ## The schedule, decided over the eighty points -/

/-- The output window is idle exactly off the diagonal steps. -/
theorem idle3 : ∀ t : Fin cfgT.N, cfgT.idle 3 (cfgT.grid.coords t) = !(decide (isDiag (wQ (crd t)) (wK (crd t)))) := by
  decide +kernel

/-- The output window is written back exactly at the diagonal steps. -/
theorem flush3 : ∀ t : Fin cfgT.N, (cfgT.win 3).flush t = decide (isDiag (wQ (crd t)) (wK (crd t))) := by
  decide +kernel

/-- The three input windows are idle nowhere. -/
theorem live0 (i : cfgT.grid.Coords) : cfgT.idle 0 i = false := rfl
theorem live1 (i : cfgT.grid.Coords) : cfgT.idle 1 i = false := rfl
theorem live2 (i : cfgT.grid.Coords) : cfgT.idle 2 i = false := rfl

/-- A step is the diagonal one exactly when its key block is not strictly below its query block. -/
theorem diag_iff_not_below : ∀ t : Fin cfgT.N, isDiag (wQ (crd t)) (wK (crd t)) ↔ ¬ isBelow (wQ (crd t)) (wK (crd t)) := by
  decide +kernel

/-- A step whose key block is not the first is not the call's first step. -/
theorem pos_of_not_first : ∀ t : Fin cfgT.N, ¬ isFirst (wK (crd t)) → t.val ≠ 0 := by
  decide +kernel

/-- At a diagonal step the output window is live and written back; -/
theorem sched_diag (t : Fin cfgT.N) (hd : isDiag (wQ (crd t)) (wK (crd t))) :
    cfgT.idle 3 (cfgT.grid.coords t) = false ∧ (cfgT.win 3).flush t = true := by
  rw [idle3, flush3, decide_eq_true hd]; exact ⟨rfl, rfl⟩

/-- off the diagonal it is idle and kept. -/
theorem sched_below (t : Fin cfgT.N) (hd : ¬ isDiag (wQ (crd t)) (wK (crd t))) :
    cfgT.idle 3 (cfgT.grid.coords t) = true ∧ (cfgT.win 3).flush t = false := by
  rw [idle3, flush3, decide_eq_false hd]; exact ⟨rfl, rfl⟩

/-- The freshness table of the output window: every step finds its buffer holding nothing an earlier step stored —
    a store is written back at its own step, and the steps between two stores are idle. -/
theorem fresh3_step : ∀ t : Fin cfgT.N, true = ((cfgT.win 3).flush t || (cfgT.idle 3 (cfgT.grid.coords t) && true)) := by
  intro t
  rw [idle3, flush3]
  cases decide (isDiag (wQ (crd t)) (wK (crd t))) <;> rfl

theorem fresh3 (t : Fin cfgT.N) : cfgT.fresh 3 t.val = true :=
  Pipeline.Cfg.fresh_tab cfgT 3 (fun _ => true) rfl fresh3_step t.val (Nat.le_of_lt t.isLt)

/-! ## The step function, case by case -/

theorem step1_below (c : Dev nD) (t : Fin cfgT.N) (p : St × Vec FF S1x512x1024 .f32)
    (hf : ¬ isFirst (wK (crd t))) (hd : ¬ isDiag (wQ (crd t)) (wK (crd t))) :
    step1 V c t p = (p.1.upd (iblk1 V c 0 t) (iblk1 V c 1 t) (iblk1 V c 2 t), p.2) := by
  unfold step1; simp only [if_neg hd, if_neg hf]

theorem step1_below_first (c : Dev nD) (t : Fin cfgT.N) (p : St × Vec FF S1x512x1024 .f32)
    (hf : isFirst (wK (crd t))) (hd : ¬ isDiag (wQ (crd t)) (wK (crd t))) :
    step1 V c t p = (St.reset.upd (iblk1 V c 0 t) (iblk1 V c 1 t) (iblk1 V c 2 t), p.2) := by
  unfold step1; simp only [if_neg hd, if_pos hf]

theorem step1_diag (c : Dev nD) (t : Fin cfgT.N) (p : St × Vec FF S1x512x1024 .f32)
    (hf : ¬ isFirst (wK (crd t))) (hd : isDiag (wQ (crd t)) (wK (crd t))) :
    step1 V c t p = (p.1.diag (wQ (crd t)) (wK (crd t)) (iblk1 V c 0 t) (iblk1 V c 1 t) (iblk1 V c 2 t),
      (p.1.diag (wQ (crd t)) (wK (crd t)) (iblk1 V c 0 t) (iblk1 V c 1 t) (iblk1 V c 2 t)).out) := by
  unfold step1; simp only [if_pos hd, if_neg hf]

theorem step1_diag_first (c : Dev nD) (t : Fin cfgT.N) (p : St × Vec FF S1x512x1024 .f32)
    (hf : isFirst (wK (crd t))) (hd : isDiag (wQ (crd t)) (wK (crd t))) :
    step1 V c t p = (St.reset.diag (wQ (crd t)) (wK (crd t)) (iblk1 V c 0 t) (iblk1 V c 1 t) (iblk1 V c 2 t),
      (St.reset.diag (wQ (crd t)) (wK (crd t)) (iblk1 V c 0 t) (iblk1 V c 1 t) (iblk1 V c 2 t)).out) := by
  unfold step1; simp only [if_pos hd, if_pos hf]

/-- The trajectory at a step, from what the step before left (anything, at the first step). -/
theorem traj_eq (c : Dev nD) (t : Fin cfgT.N) :
    traj V c t.val = step1 V c t (if t.val = 0 then (St.junk, fun _ => 0) else traj V c (t.val - 1)) := by
  obtain ⟨n, hn⟩ := t
  cases n with
  | zero => rfl
  | succ n => simp only [Nat.add_one_ne_zero, if_false, Nat.add_sub_cancel]; exact traj_succ V c n hn

/-! ## What each window's staging buffer holds when the body runs -/

/-- An input window holds its block of the step, fetched there or not. -/
theorem before1_0 (c : Dev nD) (t : Fin cfgT.N) (d) : (dat1 V c).before 0 t d = iblk1 V c 0 t :=
  ((dat1 V c).before_in_eq_fetched 0 rfl (fun _ => rfl) (fun _ _ _ => rfl) (fun t => by rw [after1_0]; unfold Dat.blockOf iblk1; rfl) t d).trans
    (by unfold Dat.fetched Dat.blockOf iblk1; rfl)
theorem before1_1 (c : Dev nD) (t : Fin cfgT.N) (d) : (dat1 V c).before 1 t d = iblk1 V c 1 t :=
  ((dat1 V c).before_in_eq_fetched 1 rfl (fun _ => rfl) (fun _ _ _ => rfl) (fun t => by rw [after1_1]; unfold Dat.blockOf iblk1; rfl) t d).trans
    (by unfold Dat.fetched Dat.blockOf iblk1; rfl)
theorem before1_2 (c : Dev nD) (t : Fin cfgT.N) (d) : (dat1 V c).before 2 t d = iblk1 V c 2 t :=
  ((dat1 V c).before_in_eq_fetched 2 rfl (fun _ => rfl) (fun _ _ _ => rfl) (fun t => by rw [after1_2]; unfold Dat.blockOf iblk1; rfl) t d).trans
    (by unfold Dat.fetched Dat.blockOf iblk1; rfl)

/-- The output block's contents carry through the steps that leave it idle. -/
theorem hcarry1_3 (c : Dev nD) : ∀ (t : Fin cfgT.N) (ht : t.val ≠ 0), cfgT.idle 3 (cfgT.grid.coords t) = true → cfgT.fresh 3 t.val = false →
    (dat1 V c).after 3 t = (dat1 V c).after 3 ⟨t.val - 1, by omega⟩ := by
  intro t ht hi _
  have hd : ¬ isDiag (wQ (crd t)) (wK (crd t)) := fun hd => by
    rw [(sched_diag t hd).1] at hi; exact absurd hi (by decide)
  rw [after1_3, after1_3, traj_eq, if_neg ht]
  unfold step1; rw [if_neg hd]

/-- The output window holds, when the body runs: what nothing has determined where no store is left in it, else what
    the step before left. -/
theorem before1_3 (c : Dev nD) (t : Fin cfgT.N) (d) :
    (dat1 V c).before 3 t d = if cfgT.fresh 3 t.val then d else (traj V c (t.val - 1)).2 := by
  rw [(dat1 V c).before_out_traj 3 rfl (fun _ _ => rfl) (hcarry1_3 V c) t.val t rfl d, after1_3]

/-- Nothing is ever left in it: the body finds it at contents nothing has determined. -/
theorem before1_3' (c : Dev nD) (t : Fin cfgT.N) (d) : (dat1 V c).before 3 t d = d := by
  rw [before1_3, fresh3, if_pos rfl]

end Cert.Kernel.H

end
-- ==== Proof.K.R1BodyB.lean ====
import proofs.«417288_j44684839747926_3_alg».proof.Proof.K.R1Defs
import Idealize.ShloMosaic.Lib.Pipeline.FrameBody
import Idealize.ShloMosaic.Lib.WholeRead
import Idealize.ShloMosaic.Lib.Ring
import Idealize.ShloMosaic.Lib.Tactic

/-! The attention call's body at a step strictly below the diagonal (key block < query block), as Hoare triples.

    The body loads the step's two table words, which are the schedule's entries `wQ i`, `wK i` (`wordQ`, `wordK`:
    the tables hold ten words each, every grid point is evaluated). Below the diagonal the third conditional (the
    diagonal's masked update and output store) is not taken, and the second (the update with the whole block of
    scores) is. The update reads the query, key and value blocks and the three carried buffers, each whole, and
    stores the new normaliser, accumulator and row maximum, each whole: what the buffers hold afterwards is
    `St.upd` of what they held. When the key block is the first of its row the first conditional stores the reset
    state beforehand, so the update reads `St.reset` instead of what the buffers held on entry. The blocks and the
    tables are handed back as they were. -/

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt FF) ℕ (UR sig nD τ) ℕ

namespace BodyB

/-- The word the body loads from the query-block table at a grid point is that step's table entry. -/
theorem wordQ : ∀ i : grid1.Coords,
    (View.readAt (Elt FF) tbQ.view (Rect.unit (s := S10) (k1_off1 i) S1.size (k1_off1_inb i)).toLoadRect (tabs 0)
      (Shape.Idx.first (numel1_S1.symm ▸ Nat.one_pos)) : BitVec 32) = wQ i := by
  decide +kernel

/-- The word the body loads from the key-block table at a grid point is that step's table entry. -/
theorem wordK : ∀ i : grid1.Coords,
    (View.readAt (Elt FF) tbK.view (Rect.unit (s := S10) (k1_off1 i) S1.size (k1_off1_inb i)).toLoadRect (tabs 1)
      (Shape.Idx.first (numel1_S1.symm ▸ Nat.one_pos)) : BitVec 32) = wK i := by
  decide +kernel

/-- The zero offsets of a whole-buffer access, as the program spells them. -/
theorem zz2 : (![0, 0] : Fin 2 → ℕ) = fun _ => 0 := by funext a; fin_cases a <;> rfl
theorem zz3 : (![0, 0, 0] : Fin 3 → ℕ) = fun _ => 0 := by funext a; fin_cases a <;> rfl

/-- A load of the whole shape through a whole memref held at the contents that read `X` reads `X`. -/
theorem readAt_full_unread {s : Shape} {e : EltTy} {m : Memref sig .tc .vmem s e} (h : m.IsWhole) (X : s.Idx → Elt FF e)
    {off : Fin s.rank → ℕ} (ho : off = fun _ => 0) (inb : ∀ a, off a + s.size a ≤ s.size a) :
    View.readAt (Elt FF) m.view (Rect.unit (s := s) off s.size inb).toLoadRect (h.unread X) = X := by
  funext x; rw [h.readAt_unread]; exact congrFun (View.ld_unit_zero ho inb X) x

/-- A store of the whole shape, the last of a run, leaves its payload, whatever the buffer held and whatever was
    stored before. -/
theorem read_writes_full {κ : Kind} {sp : Space} {s : Shape} {e : EltTy} (v : View sig κ sp s e) (f : v.ty.Contents (Elt FF))
    {off : Fin s.rank → ℕ} (ho : off = fun _ => 0) (inb : ∀ a, off a + s.size a ≤ s.size a) (x : s.Idx → Elt FF e)
    (L : List (View.Piece (Elt FF) s e)) :
    v.read (Elt FF) (v.writes (Elt FF) f ((⟨Rect.unit (s := s) off s.size inb, x⟩ : View.Piece (Elt FF) s e) :: L)) = x := by
  rw [View.read_writes_eq_canon _ _ _ (fun y => ⟨_, List.mem_cons_self, View.mem_set_unit_zero ho inb y⟩),
    View.canon_cons_unit_zero ho]

/-- A load of the whole shape after one store of the whole shape reads the stored payload. -/
theorem readCov_full {κ : Kind} {sp : Space} {s : Shape} {e : EltTy} (v : View sig κ sp s e)
    {off : Fin s.rank → ℕ} (ho : off = fun _ => 0) (inb : ∀ a, off a + s.size a ≤ s.size a) (w : s.Idx → Elt FF e) :
    v.readCov [(⟨Rect.unit (s := s) off s.size inb, w⟩ : View.Piece (Elt FF) s e)] (Rect.unit (s := s) off s.size inb).toLoadRect = w :=
  View.readCov_unit_zero v ho inb w

/-- A whole-shape load of a carried scratch buffer reads its contents. -/
theorem rdM (X : Vec FF S512x1 .f32) :
    View.readAt (Elt FF) scM.view (Rect.unit (s := S512x1) ![0, 0] S512x1.size inb_S512x1_S512x1_0_0).toLoadRect X = X :=
  Memref.readAt_unit_zero (Elt FF) cc1_scratch0 zz2 _ X
theorem rdL (X : Vec FF S512x1 .f32) :
    View.readAt (Elt FF) scL.view (Rect.unit (s := S512x1) ![0, 0] S512x1.size inb_S512x1_S512x1_0_0).toLoadRect X = X :=
  Memref.readAt_unit_zero (Elt FF) cc1_scratch1 zz2 _ X
theorem rdA (X : Vec FF S512x1024 .f32) :
    View.readAt (Elt FF) scA.view (Rect.unit (s := S512x1024) ![0, 0] S512x1024.size inb_S512x1024_S512x1024_0_0).toLoadRect X = X :=
  Memref.readAt_unit_zero (Elt FF) cc1_scratch2 zz2 _ X

end BodyB

open BodyB

set_option maxHeartbeats 400000 in
/-- A step strictly below the diagonal whose key block is not the first of its row: from the carried buffers at `S`
    the body leaves them at `S.upd` of the step's query, key and value blocks; the blocks, the output window's
    buffer and the tables are untouched. -/
theorem body_below (c : Dev nD) (E : Set ℕ) (i : grid1.Coords)
    (arg4 arg5 arg6 : Memref sig .tc .vmem S1x512x1024 .bf16) (h4 : arg4.IsWhole) (h5 : arg5.IsWhole) (h6 : arg6.IsWhole)
    (arg7 : Memref sig .tc .vmem S1x512x1024 .f32) (h7 : arg7.IsWhole)
    (x4 x5 x6 : Vec FF S1x512x1024 .bf16) (d7 : Vec FF S1x512x1024 .f32) (S : St) (qt : PosShare TreeShare)
    (hf : ¬ isFirst (wK i)) (hb : isBelow (wQ i) (wK i)) (hd : ¬ isDiag (wQ i) (wK i)) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare d7
        ∗ owns (c : Thread nD τ) scM fullShare S.m ∗ owns (c : Thread nD τ) scL fullShare S.l ∗ owns (c : Thread nD τ) scA fullShare S.a
        ∗ (((c : Thread nD τ).loc main_c) ↦{qt} tabs 0) ∗ (((c : Thread nD τ).loc main_c_0) ↦{qt} tabs 1)
        ∗ (iprop(owns (c : Thread nD τ) arg4 fullShare x4 ∗ owns (c : Thread nD τ) arg5 fullShare x5 ∗ owns (c : Thread nD τ) arg6 fullShare x6 ∗ owns (c : Thread nD τ) arg7 fullShare d7
              ∗ owns (c : Thread nD τ) scM fullShare (S.upd x4 x5 x6).m ∗ owns (c : Thread nD τ) scL fullShare (S.upd x4 x5 x6).l ∗ owns (c : Thread nD τ) scA fullShare (S.upd x4 x5 x6).a
              ∗ (((c : Thread nD τ).loc main_c) ↦{qt} tabs 0) ∗ (((c : Thread nD τ).loc main_c_0) ↦{qt} tabs 1)) -∗ K ⟨⟩))
      ⊢ wp frame (wpE (defs₀ (F := FF)) Variants.none c none) E
          (cc1_kernel (F := FF) i tbQ (Memref.isWhole_whole _) tbK (Memref.isWhole_whole _) arg4 h4 arg5 h5 arg6 h6 arg7 h7 scM (Memref.isWhole_whole _) scL (Memref.isWhole_whole _) scA (Memref.isWhole_whole _)) K := by
  simp only [cc1_kernel_eq_skeleton]; unfold cc1_kernel_skel
  simp only [k1_part1_eq_skeleton, k1_part2_eq_skeleton]
  unfold owns
  iintro ⟨⟨%f4, %hf4, H4⟩, ⟨%f5, %hf5, H5⟩, ⟨%f6, %hf6, H6⟩, ⟨%f7, %hf7, H7⟩, ⟨%fM, %hfM, HM⟩, ⟨%fL, %hfL, HL⟩, ⟨%fA, %hfA, HA⟩, HT0, HT1, Hk⟩
  obtain rfl := h4.eq_unread hf4; obtain rfl := h5.eq_unread hf5; obtain rfl := h6.eq_unread hf6; obtain rfl := h7.eq_unread hf7
  have hfM' : fM = S.m := hfM
  have hfL' : fL = S.l := hfL
  have hfA' : fA = S.a := hfA
  subst hfM' hfL' hfA'
  have hTQ : tbQ.IsWhole := Memref.isWhole_whole _
  have hTK : tbK.IsWhole := Memref.isWhole_whole _
  have hSM : scM.IsWhole := Memref.isWhole_whole _
  have hSL : scL.IsWhole := Memref.isWhole_whole _
  have hSA : scA.IsWhole := Memref.isWhole_whole _
  ihave HQ : (tbQ.view.loc (c : Thread nD τ) ↦{qt} tabs 0) $$ [HT0]
  · iexact HT0
  ihave HK : (tbK.view.loc (c : Thread nD τ) ↦{qt} tabs 1) $$ [HT1]
  · iexact HT1
  have hf' := hf; have hb' := hb; have hd' := hd
  rw [← wordK i] at hf'
  rw [← wordQ i, ← wordK i] at hb' hd'
  clear hf hb hd hf4 hf5 hf6 hf7 hfM hfL hfA
  sl_exec (disch := first | sl_exact hf' | sl_exact hb' | sl_exact hd')
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [HM]
  · iexists _; isplitr; swap; · iexact HM
    ipureintro
    refine (read_writes_full _ _ zz2 _ _ _).trans ?_
    unfold body_below.sl.r_2
    rw [readAt_full_unread h4 x4 zz3, readAt_full_unread h5 x5 zz3, rdM]
    rfl
  isplitl [HL]
  · iexists _; isplitr; swap; · iexact HL
    ipureintro
    refine (read_writes_full _ _ zz2 _ _ _).trans ?_
    rw [readAt_full_unread h4 x4 zz3, readAt_full_unread h5 x5 zz3, rdM, rdL]
    rfl
  isplitl [HA]
  · iexists _; isplitr; swap; · iexact HA
    ipureintro
    refine (read_writes_full _ _ zz2 _ _ _).trans ?_
    unfold body_below.sl.r_3
    rw [readAt_full_unread h4 x4 zz3, readAt_full_unread h5 x5 zz3, readAt_full_unread h6 x6 zz3, rdM, rdA]
    rfl
  isplitl [HQ]; · iexact HQ
  iexact HK

set_option maxHeartbeats 400000 in
set_option sl_exec.pinEarly false in
/-- A step strictly below the diagonal whose key block is the first of its row: the body first stores the reset state
    over whatever the carried buffers held (`S` is arbitrary), then updates it: it leaves the buffers at
    `St.reset.upd` of the step's query, key and value blocks. -/
theorem body_below_first (c : Dev nD) (E : Set ℕ) (i : grid1.Coords)
    (arg4 arg5 arg6 : Memref sig .tc .vmem S1x512x1024 .bf16) (h4 : arg4.IsWhole) (h5 : arg5.IsWhole) (h6 : arg6.IsWhole)
    (arg7 : Memref sig .tc .vmem S1x512x1024 .f32) (h7 : arg7.IsWhole)
    (x4 x5 x6 : Vec FF S1x512x1024 .bf16) (d7 : Vec FF S1x512x1024 .f32) (S : St) (qt : PosShare TreeShare)
    (hf : isFirst (wK i)) (hb : isBelow (wQ i) (wK i)) (hd : ¬ isDiag (wQ i) (wK i)) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare d7
        ∗ owns (c : Thread nD τ) scM fullShare S.m ∗ owns (c : Thread nD τ) scL fullShare S.l ∗ owns (c : Thread nD τ) scA fullShare S.a
        ∗ (((c : Thread nD τ).loc main_c) ↦{qt} tabs 0) ∗ (((c : Thread nD τ).loc main_c_0) ↦{qt} tabs 1)
        ∗ (iprop(owns (c : Thread nD τ) arg4 fullShare x4 ∗ owns (c : Thread nD τ) arg5 fullShare x5 ∗ owns (c : Thread nD τ) arg6 fullShare x6 ∗ owns (c : Thread nD τ) arg7 fullShare d7
              ∗ owns (c : Thread nD τ) scM fullShare (St.reset.upd x4 x5 x6).m ∗ owns (c : Thread nD τ) scL fullShare (St.reset.upd x4 x5 x6).l ∗ owns (c : Thread nD τ) scA fullShare (St.reset.upd x4 x5 x6).a
              ∗ (((c : Thread nD τ).loc main_c) ↦{qt} tabs 0) ∗ (((c : Thread nD τ).loc main_c_0) ↦{qt} tabs 1)) -∗ K ⟨⟩))
      ⊢ wp frame (wpE (defs₀ (F := FF)) Variants.none c none) E
          (cc1_kernel (F := FF) i tbQ (Memref.isWhole_whole _) tbK (Memref.isWhole_whole _) arg4 h4 arg5 h5 arg6 h6 arg7 h7 scM (Memref.isWhole_whole _) scL (Memref.isWhole_whole _) scA (Memref.isWhole_whole _)) K := by
  simp only [cc1_kernel_eq_skeleton]; unfold cc1_kernel_skel
  simp only [k1_part1_eq_skeleton, k1_part2_eq_skeleton]
  unfold owns
  iintro ⟨⟨%f4, %hf4, H4⟩, ⟨%f5, %hf5, H5⟩, ⟨%f6, %hf6, H6⟩, ⟨%f7, %hf7, H7⟩, ⟨%fM, %hfM, HM⟩, ⟨%fL, %hfL, HL⟩, ⟨%fA, %hfA, HA⟩, HT0, HT1, Hk⟩
  obtain rfl := h4.eq_unread hf4; obtain rfl := h5.eq_unread hf5; obtain rfl := h6.eq_unread hf6; obtain rfl := h7.eq_unread hf7
  have hfM' : fM = S.m := hfM
  have hfL' : fL = S.l := hfL
  have hfA' : fA = S.a := hfA
  subst hfM' hfL' hfA'
  have hTQ : tbQ.IsWhole := Memref.isWhole_whole _
  have hTK : tbK.IsWhole := Memref.isWhole_whole _
  have hSM : scM.IsWhole := Memref.isWhole_whole _
  have hSL : scL.IsWhole := Memref.isWhole_whole _
  have hSA : scA.IsWhole := Memref.isWhole_whole _
  ihave HQ : (tbQ.view.loc (c : Thread nD τ) ↦{qt} tabs 0) $$ [HT0]
  · iexact HT0
  ihave HK : (tbK.view.loc (c : Thread nD τ) ↦{qt} tabs 1) $$ [HT1]
  · iexact HT1
  have hf' := hf; have hb' := hb; have hd' := hd
  rw [← wordK i] at hf'
  rw [← wordQ i, ← wordK i] at hb' hd'
  clear hf hb hd hf4 hf5 hf6 hf7 hfM hfL hfA
  sl_exec (disch := first | sl_exact hf' | sl_exact hb' | sl_exact hd')
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [HM]
  · iexists _; isplitr; swap; · iexact HM
    ipureintro
    refine (read_writes_full _ _ zz2 _ _ _).trans ?_
    unfold body_below_first.sl.r_2 body_below_first.sl.v23 body_below_first.sl.HM_1
    rw [readAt_full_unread h4 x4 zz3, readAt_full_unread h5 x5 zz3, readCov_full _ zz2]
    rfl
  isplitl [HL]
  · iexists _; isplitr; swap; · iexact HL
    ipureintro
    refine (read_writes_full _ _ zz2 _ _ _).trans ?_
    unfold body_below_first.sl.v23 body_below_first.sl.v32 body_below_first.sl.HM_1 body_below_first.sl.HL_1
    rw [readAt_full_unread h4 x4 zz3, readAt_full_unread h5 x5 zz3, readCov_full _ zz2, readCov_full _ zz2]
    rfl
  isplitl [HA]
  · iexists _; isplitr; swap; · iexact HA
    ipureintro
    refine (read_writes_full _ _ zz2 _ _ _).trans ?_
    unfold body_below_first.sl.r_3 body_below_first.sl.v23 body_below_first.sl.v40 body_below_first.sl.HM_1 body_below_first.sl.HA_1
    rw [readAt_full_unread h4 x4 zz3, readAt_full_unread h5 x5 zz3, readAt_full_unread h6 x6 zz3, readCov_full _ zz2, readCov_full _ zz2]
    rfl
  isplitl [HQ]; · iexact HQ
  iexact HK

end Cert.Kernel.H

end
-- ==== Proof.K.R1BodyD.lean ====
import proofs.«417288_j44684839747926_3_alg».proof.Proof.K.R1Defs
import Idealize.ShloMosaic.Lib.Pipeline.FrameBody
import Idealize.ShloMosaic.Lib.Pipeline.Value
import Idealize.ShloMosaic.Lib.Tactic
import Idealize.ShloMosaic.Lib.Exec

/-! The attention call's body on the diagonal of the causal schedule (key block = query block), as Hoare triples over
    whole staging memrefs. The body loads its two table words, which at grid point `i` are entry `i 1` of each table;
    on the diagonal the masked block enters the carried state (normaliser, then accumulator, then maximum are stored,
    each computed from the state as it was read) and the quotient of the NEW accumulator by the NEW normaliser is stored
    in the output block. When the key block is also the first, the carried state is reset before that, so the step
    starts from the reset state whatever the scratch held. -/

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt FF) ℕ (UR sig nD τ) ℕ

/-- The query-block word the body loads at grid point `i` is entry `i 1` of the first table. -/
theorem rdQ (i : grid1.Coords) :
    View.readAt (Elt FF) tbQ.view (Rect.unit (s := S10) (k1_off1 i) S1.size (k1_off1_inb i)).toLoadRect (tabs 0)
      (Shape.Idx.first (numel1_S1.symm ▸ Nat.one_pos)) = wQ i := by
  revert i; decide +kernel

/-- The key-block word the body loads at grid point `i` is entry `i 1` of the second table. -/
theorem rdK (i : grid1.Coords) :
    View.readAt (Elt FF) tbK.view (Rect.unit (s := S10) (k1_off1 i) S1.size (k1_off1_inb i)).toLoadRect (tabs 1)
      (Shape.Idx.first (numel1_S1.symm ▸ Nat.one_pos)) = wK i := by
  revert i; decide +kernel

/-- A load through the whole-shape rectangle at zero offsets, of a whole memref held at the contents that read `X`,
    reads `X`. -/
theorem readAt_unread_whole {κ : Kind} {sp : Space} {s : Shape} {e : EltTy} {m : Memref sig κ sp s e} (h : m.IsWhole)
    (X : s.Idx → Elt FF e) {off : Fin s.rank → Nat} (ho : off = fun _ => 0) (inb : ∀ a, off a + s.size a ≤ s.size a) :
    View.readAt (Elt FF) m.view (Rect.unit (s := s) off s.size inb).toLoadRect (h.unread X) = X := by
  rw [View.readAt_eq_ld, h.read_unread, View.ld_unit_zero ho]

/-- A last store through the whole-shape rectangle at zero offsets leaves its payload, whatever the earlier stores and
    the contents before them. -/
theorem read_writes_whole_cons {κ : Kind} {sp : Space} {s : Shape} {e : EltTy} (v : View sig κ sp s e) (f : v.ty.Contents (Elt FF))
    {off : Fin s.rank → Nat} (ho : off = fun _ => 0) (inb : ∀ a, off a + s.size a ≤ s.size a) (w : s.Idx → Elt FF e)
    (L : List (View.Piece (Elt FF) s e)) :
    v.read (Elt FF) (v.writes (Elt FF) f ((⟨Rect.unit (s := s) off s.size inb, w⟩ : View.Piece (Elt FF) s e) :: L)) = w := by
  rw [View.read_writes_eq_canon _ _ _ (fun y => ⟨_, List.mem_cons_self, View.mem_set_unit_zero ho inb y⟩),
    View.canon_cons_unit_zero ho]

/-- A load through that rectangle after such a store reads the payload. -/
theorem readCov_whole_cons {κ : Kind} {sp : Space} {s : Shape} {e : EltTy} (v : View sig κ sp s e)
    {off : Fin s.rank → Nat} (ho : off = fun _ => 0) (inb : ∀ a, off a + s.size a ≤ s.size a) (w : s.Idx → Elt FF e)
    (L : List (View.Piece (Elt FF) s e)) :
    v.readCov ((⟨Rect.unit (s := s) off s.size inb, w⟩ : View.Piece (Elt FF) s e) :: L) (Rect.unit (s := s) off s.size inb).toLoadRect = w := by
  rw [View.readCov_eq_canon_ld _ _ _ (fun y => ⟨_, List.mem_cons_self, View.mem_set_unit_zero ho inb y⟩),
    View.canon_cons_unit_zero ho, View.ld_unit_zero ho]

theorem z3 : (![0, 0, 0] : Fin 3 → Nat) = fun _ => 0 := by decide
theorem z2 : (![0, 0] : Fin 2 → Nat) = fun _ => 0 := by decide

set_option sl_exec.pinEarly false in
set_option maxHeartbeats 1000000 in
/-- The diagonal step that is not the first of its row: from the carried state `S` the body leaves `S.diag` of the
    step's words and blocks in the scratch buffers and its quotient in the output block; the inputs and the tables are
    as they were. -/
theorem body_diag (c : Dev nD) (E : Set ℕ) (i : grid1.Coords)
    (arg4 arg5 arg6 : Memref sig .tc .vmem S1x512x1024 .bf16) (h4 : arg4.IsWhole) (h5 : arg5.IsWhole) (h6 : arg6.IsWhole)
    (arg7 : Memref sig .tc .vmem S1x512x1024 .f32) (h7 : arg7.IsWhole)
    (x4 x5 x6 : Vec FF S1x512x1024 .bf16) (d7 : Vec FF S1x512x1024 .f32) (S : St) (qt : PosShare TreeShare)
    (hf : ¬ isFirst (wK i)) (hb : ¬ isBelow (wQ i) (wK i)) (hd : isDiag (wQ i) (wK i)) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare d7
        ∗ owns (c : Thread nD τ) scM fullShare S.m ∗ owns (c : Thread nD τ) scL fullShare S.l ∗ owns (c : Thread nD τ) scA fullShare S.a
        ∗ (((c : Thread nD τ).loc main_c) ↦{qt} tabs 0) ∗ (((c : Thread nD τ).loc main_c_0) ↦{qt} tabs 1)
        ∗ (iprop(owns (c : Thread nD τ) arg4 fullShare x4 ∗ owns (c : Thread nD τ) arg5 fullShare x5 ∗ owns (c : Thread nD τ) arg6 fullShare x6
              ∗ owns (c : Thread nD τ) arg7 fullShare (S.diag (wQ i) (wK i) x4 x5 x6).out
              ∗ owns (c : Thread nD τ) scM fullShare (S.diag (wQ i) (wK i) x4 x5 x6).m ∗ owns (c : Thread nD τ) scL fullShare (S.diag (wQ i) (wK i) x4 x5 x6).l ∗ owns (c : Thread nD τ) scA fullShare (S.diag (wQ i) (wK i) x4 x5 x6).a
              ∗ (((c : Thread nD τ).loc main_c) ↦{qt} tabs 0) ∗ (((c : Thread nD τ).loc main_c_0) ↦{qt} tabs 1)) -∗ K ⟨⟩))
      ⊢ wp frame (wpE (defs₀ (F := FF)) Variants.none c none) E
          (cc1_kernel (F := FF) i tbQ (Memref.isWhole_whole _) tbK (Memref.isWhole_whole _) arg4 h4 arg5 h5 arg6 h6 arg7 h7 scM (Memref.isWhole_whole _) scL (Memref.isWhole_whole _) scA (Memref.isWhole_whole _)) K := by
  have eQ : (((c : Thread nD τ).loc main_c) ↦{qt} tabs 0 : sProp 𝕄) = (tbQ.view.loc (c : Thread nD τ) ↦{qt} tabs 0) := rfl
  have eK : (((c : Thread nD τ).loc main_c_0) ↦{qt} tabs 1 : sProp 𝕄) = (tbK.view.loc (c : Thread nD τ) ↦{qt} tabs 1) := rfl
  rw [eQ, eK]; clear eQ eK
  unfold owns
  rw [cc1_kernel_eq_skeleton]; unfold cc1_kernel_skel
  iintro ⟨⟨%f4, %hf4, H4⟩, ⟨%f5, %hf5, H5⟩, ⟨%f6, %hf6, H6⟩, ⟨%f7, %hf7, H7⟩, ⟨%fm, %hfm, HM⟩, ⟨%fl, %hfl, HL⟩, ⟨%fa, %hfa, HA⟩, HTQ, HTK, Hk⟩
  obtain rfl := h4.eq_unread hf4; obtain rfl := h5.eq_unread hf5; obtain rfl := h6.eq_unread hf6; obtain rfl := h7.eq_unread hf7
  obtain rfl := (Memref.isWhole_whole _).eq_unread hfm; obtain rfl := (Memref.isWhole_whole _).eq_unread hfl; obtain rfl := (Memref.isWhole_whole _).eq_unread hfa
  clear hf4 hf5 hf6 hf7 hfm hfl hfa
  rw [← rdK i] at hf; rw [← rdQ i, ← rdK i] at hb hd
  sl_exec (disch := first | sl_exact hf | sl_exact hb | sl_exact hd)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    rw [read_writes_whole_cons _ _ z3]
    unfold body_diag.sl.v63 body_diag.sl.v64 body_diag.sl.HA_1 body_diag.sl.HL_1
    rw [readCov_whole_cons _ z2, readCov_whole_cons _ z2]
    unfold body_diag.sl.r_2 body_diag.sl.r_4 body_diag.sl.r_5 body_diag.sl.r_6 body_diag.sl.v51 body_diag.sl.v34 body_diag.sl.v43 body_diag.sl.r body_diag.sl.r_1
    rw [rdQ, rdK, readAt_unread_whole h4 x4 z3, readAt_unread_whole h5 x5 z3, readAt_unread_whole h6 x6 z3,
      readAt_unread_whole _ S.m z2, readAt_unread_whole _ S.l z2, readAt_unread_whole _ S.a z2]
    rfl
  isplitl [HM]
  · iexists _; isplitr; swap; · iexact HM
    ipureintro
    rw [read_writes_whole_cons _ _ z2]
    unfold body_diag.sl.r_3 body_diag.sl.v34 body_diag.sl.r body_diag.sl.r_1
    rw [rdQ, rdK, readAt_unread_whole h4 x4 z3, readAt_unread_whole h5 x5 z3, readAt_unread_whole _ S.m z2]
    rfl
  isplitl [HL]
  · iexists _; isplitr; swap; · iexact HL
    ipureintro
    unfold body_diag.sl.HL_1
    rw [read_writes_whole_cons _ _ z2]
    unfold body_diag.sl.r_6 body_diag.sl.v34 body_diag.sl.v43 body_diag.sl.r body_diag.sl.r_1
    rw [rdQ, rdK, readAt_unread_whole h4 x4 z3, readAt_unread_whole h5 x5 z3, readAt_unread_whole _ S.m z2,
      readAt_unread_whole _ S.l z2]
    rfl
  isplitl [HA]
  · iexists _; isplitr; swap; · iexact HA
    ipureintro
    unfold body_diag.sl.HA_1
    rw [read_writes_whole_cons _ _ z2]
    unfold body_diag.sl.r_2 body_diag.sl.r_4 body_diag.sl.r_5 body_diag.sl.v51 body_diag.sl.v34 body_diag.sl.r body_diag.sl.r_1
    rw [rdQ, rdK, readAt_unread_whole h4 x4 z3, readAt_unread_whole h5 x5 z3, readAt_unread_whole h6 x6 z3,
      readAt_unread_whole _ S.m z2, readAt_unread_whole _ S.a z2]
    rfl
  isplitl [HTQ]; · iexact HTQ
  iexact HTK

set_option sl_exec.pinEarly false in
set_option maxHeartbeats 1000000 in
/-- The diagonal step that is also the first of its row (query block 0): the carried state is reset first, so whatever
    the scratch buffers held the body leaves `St.reset.diag` of the step's words and blocks in them and its quotient in
    the output block. -/
theorem body_diag_first (c : Dev nD) (E : Set ℕ) (i : grid1.Coords)
    (arg4 arg5 arg6 : Memref sig .tc .vmem S1x512x1024 .bf16) (h4 : arg4.IsWhole) (h5 : arg5.IsWhole) (h6 : arg6.IsWhole)
    (arg7 : Memref sig .tc .vmem S1x512x1024 .f32) (h7 : arg7.IsWhole)
    (x4 x5 x6 : Vec FF S1x512x1024 .bf16) (d7 : Vec FF S1x512x1024 .f32) (S : St) (qt : PosShare TreeShare)
    (hf : isFirst (wK i)) (hb : ¬ isBelow (wQ i) (wK i)) (hd : isDiag (wQ i) (wK i)) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare d7
        ∗ owns (c : Thread nD τ) scM fullShare S.m ∗ owns (c : Thread nD τ) scL fullShare S.l ∗ owns (c : Thread nD τ) scA fullShare S.a
        ∗ (((c : Thread nD τ).loc main_c) ↦{qt} tabs 0) ∗ (((c : Thread nD τ).loc main_c_0) ↦{qt} tabs 1)
        ∗ (iprop(owns (c : Thread nD τ) arg4 fullShare x4 ∗ owns (c : Thread nD τ) arg5 fullShare x5 ∗ owns (c : Thread nD τ) arg6 fullShare x6
              ∗ owns (c : Thread nD τ) arg7 fullShare (St.reset.diag (wQ i) (wK i) x4 x5 x6).out
              ∗ owns (c : Thread nD τ) scM fullShare (St.reset.diag (wQ i) (wK i) x4 x5 x6).m ∗ owns (c : Thread nD τ) scL fullShare (St.reset.diag (wQ i) (wK i) x4 x5 x6).l ∗ owns (c : Thread nD τ) scA fullShare (St.reset.diag (wQ i) (wK i) x4 x5 x6).a
              ∗ (((c : Thread nD τ).loc main_c) ↦{qt} tabs 0) ∗ (((c : Thread nD τ).loc main_c_0) ↦{qt} tabs 1)) -∗ K ⟨⟩))
      ⊢ wp frame (wpE (defs₀ (F := FF)) Variants.none c none) E
          (cc1_kernel (F := FF) i tbQ (Memref.isWhole_whole _) tbK (Memref.isWhole_whole _) arg4 h4 arg5 h5 arg6 h6 arg7 h7 scM (Memref.isWhole_whole _) scL (Memref.isWhole_whole _) scA (Memref.isWhole_whole _)) K := by
  have eQ : (((c : Thread nD τ).loc main_c) ↦{qt} tabs 0 : sProp 𝕄) = (tbQ.view.loc (c : Thread nD τ) ↦{qt} tabs 0) := rfl
  have eK : (((c : Thread nD τ).loc main_c_0) ↦{qt} tabs 1 : sProp 𝕄) = (tbK.view.loc (c : Thread nD τ) ↦{qt} tabs 1) := rfl
  rw [eQ, eK]; clear eQ eK
  unfold owns
  rw [cc1_kernel_eq_skeleton]; unfold cc1_kernel_skel
  iintro ⟨⟨%f4, %hf4, H4⟩, ⟨%f5, %hf5, H5⟩, ⟨%f6, %hf6, H6⟩, ⟨%f7, %hf7, H7⟩, ⟨%fm, %hfm, HM⟩, ⟨%fl, %hfl, HL⟩, ⟨%fa, %hfa, HA⟩, HTQ, HTK, Hk⟩
  obtain rfl := h4.eq_unread hf4; obtain rfl := h5.eq_unread hf5; obtain rfl := h6.eq_unread hf6; obtain rfl := h7.eq_unread hf7
  obtain rfl := (Memref.isWhole_whole _).eq_unread hfm; obtain rfl := (Memref.isWhole_whole _).eq_unread hfl; obtain rfl := (Memref.isWhole_whole _).eq_unread hfa
  clear hf4 hf5 hf6 hf7 hfm hfl hfa
  rw [← rdK i] at hf; rw [← rdQ i, ← rdK i] at hb hd
  sl_exec (disch := first | sl_exact hf | sl_exact hb | sl_exact hd)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    rw [read_writes_whole_cons _ _ z3]
    unfold body_diag_first.sl.v63 body_diag_first.sl.v64 body_diag_first.sl.HA_2 body_diag_first.sl.HL_2
    rw [readCov_whole_cons _ z2, readCov_whole_cons _ z2]
    unfold body_diag_first.sl.r_2 body_diag_first.sl.r_4 body_diag_first.sl.r_5 body_diag_first.sl.r_6 body_diag_first.sl.v51 body_diag_first.sl.v34 body_diag_first.sl.v43 body_diag_first.sl.HA_1 body_diag_first.sl.HL_1 body_diag_first.sl.HM_1 body_diag_first.sl.r body_diag_first.sl.r_1
    rw [rdQ, rdK, readAt_unread_whole h4 x4 z3, readAt_unread_whole h5 x5 z3, readAt_unread_whole h6 x6 z3,
      readCov_whole_cons _ z2, readCov_whole_cons _ z2, readCov_whole_cons _ z2]
    rfl
  isplitl [HM]
  · iexists _; isplitr; swap; · iexact HM
    ipureintro
    rw [read_writes_whole_cons _ _ z2]
    unfold body_diag_first.sl.r_3 body_diag_first.sl.v34 body_diag_first.sl.HM_1 body_diag_first.sl.r body_diag_first.sl.r_1
    rw [rdQ, rdK, readAt_unread_whole h4 x4 z3, readAt_unread_whole h5 x5 z3, readCov_whole_cons _ z2]
    rfl
  isplitl [HL]
  · iexists _; isplitr; swap; · iexact HL
    ipureintro
    unfold body_diag_first.sl.HL_2
    rw [read_writes_whole_cons _ _ z2]
    unfold body_diag_first.sl.r_6 body_diag_first.sl.v34 body_diag_first.sl.v43 body_diag_first.sl.HM_1 body_diag_first.sl.HL_1 body_diag_first.sl.r body_diag_first.sl.r_1
    rw [rdQ, rdK, readAt_unread_whole h4 x4 z3, readAt_unread_whole h5 x5 z3, readCov_whole_cons _ z2,
      readCov_whole_cons _ z2]
    rfl
  isplitl [HA]
  · iexists _; isplitr; swap; · iexact HA
    ipureintro
    unfold body_diag_first.sl.HA_2
    rw [read_writes_whole_cons _ _ z2]
    unfold body_diag_first.sl.r_2 body_diag_first.sl.r_4 body_diag_first.sl.r_5 body_diag_first.sl.v51 body_diag_first.sl.v34 body_diag_first.sl.HM_1 body_diag_first.sl.HA_1 body_diag_first.sl.r body_diag_first.sl.r_1
    rw [rdQ, rdK, readAt_unread_whole h4 x4 z3, readAt_unread_whole h5 x5 z3, readAt_unread_whole h6 x6 z3,
      readCov_whole_cons _ z2, readCov_whole_cons _ z2]
    rfl
  isplitl [HTQ]; · iexact HTQ
  iexact HTK

end Cert.Kernel.H

end
-- ==== Proof.K.R1Obl.lean ====
import proofs.«417288_j44684839747926_3_alg».proof.Proof.K.R1Sched
import proofs.«417288_j44684839747926_3_alg».proof.Proof.K.R1BodyB
import proofs.«417288_j44684839747926_3_alg».proof.Proof.K.R1BodyD

/-! The attention call's body obligation: at every step, from the invariant and each window's staging buffer at what it
    then holds, the body runs to the invariant at the next step and each buffer at what the step leaves. The step's two
    table words tell which of the body's four triples applies — the diagonal step or one strictly below it, at the first
    key block or a later one —; the step function's case equation names what that triple leaves in the scratch buffers
    and the output block; the decided idle and write-back tables of the output window reduce the post. -/

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝕄" => MT nD τ sig Unit (Elt FF) ℕ (UR sig nD τ) ℕ

variable (V : (c : Dev nD) → (b : Ref sig .tc) → Buf (Elt FF) ((c : Thread nD τ).loc b))

/-! ## The body at a step, as the pipeline calls it -/

/-- Each window's current staging memref at step t, and its wholeness. -/
abbrev ms0 (t : Fin cfgT.N) : Memref sig .tc .vmem S1x512x1024 .bf16 := spec1_0.stage (cfgT.slots t 0)
abbrev hs0 (t : Fin cfgT.N) : (ms0 t).IsWhole := hstage1_0 ((cfgT.slots t 0).cast nbuf1_0)
abbrev ms1 (t : Fin cfgT.N) : Memref sig .tc .vmem S1x512x1024 .bf16 := spec1_1.stage (cfgT.slots t 1)
abbrev hs1 (t : Fin cfgT.N) : (ms1 t).IsWhole := hstage1_1 ((cfgT.slots t 1).cast nbuf1_1)
abbrev ms2 (t : Fin cfgT.N) : Memref sig .tc .vmem S1x512x1024 .bf16 := spec1_2.stage (cfgT.slots t 2)
abbrev hs2 (t : Fin cfgT.N) : (ms2 t).IsWhole := hstage1_2 ((cfgT.slots t 2).cast nbuf1_2)
abbrev ms3 (t : Fin cfgT.N) : Memref sig .tc .vmem S1x512x1024 .f32 := spec1_3.stage (cfgT.slots t 3)
abbrev hs3 (t : Fin cfgT.N) : (ms3 t).IsWhole := hstage1_3 ((cfgT.slots t 3).cast nbuf1_3)

/-- The body at step t on its staging memrefs, the two tables and the three scratch buffers. -/
abbrev bodyAt1 (t : Fin cfgT.N) : Prog (TpuEff nD τ sig (Elt FF) Λ₀ .tc) PUnit :=
  cc1_kernel (F := FF) (crd t) tbQ (Memref.isWhole_whole _) tbK (Memref.isWhole_whole _) (ms0 t) (hs0 t) (ms1 t) (hs1 t) (ms2 t) (hs2 t) (ms3 t) (hs3 t)
    scM (Memref.isWhole_whole _) scL (Memref.isWhole_whole _) scA (Memref.isWhole_whole _)

/-! ## The body obligation -/

set_option maxHeartbeats 4000000 in
/-- THE BODY OBLIGATION at step t: the step's two table words tell the case (the diagonal step or one strictly below
    it; the first key block or a later one); the inputs hold their blocks, the output buffer anything, the scratch
    buffers what the step before left (anything, where the step resets them); the case's triple applies; the step
    function's case equation names what it leaves, and the decided idle and write-back tables reduce the post. -/
theorem sound_body1 (c : Dev nD) (t : Fin cfgT.N) :
    iprop((dat1 V c).Φ t.castSucc ∗ (dat1 V c).owesAt () t.castSucc
        ∗ (∃ d, owns (c : Thread nD τ) (ms0 t) fullShare ((dat1 V c).before 0 t d))
        ∗ (∃ d, owns (c : Thread nD τ) (ms1 t) fullShare ((dat1 V c).before 1 t d))
        ∗ (∃ d, owns (c : Thread nD τ) (ms2 t) fullShare ((dat1 V c).before 2 t d))
        ∗ (∃ d, owns (c : Thread nD τ) (ms3 t) fullShare ((dat1 V c).before 3 t d)))
      ⊢ wp frame (wpE (defs₀ (F := FF)) Variants.none c none) Set.univ (bodyAt1 t) fun _ =>
          iprop((dat1 V c).Φ t.succ ∗ (dat1 V c).owesAt () t.succ
            ∗ bigSep Finset.univ fun w : Fin cfgT.W =>
                match cfgT.idle w (cfgT.grid.coords t) with
                | true =>
                  match (cfgT.win w).flush t with
                  | false => iprop(∃ d, owns (c : Thread nD τ) ((cfgT.win w).stage (cfgT.slots t w)) fullShare ((dat1 V c).before w t d))
                  | true => owns (c : Thread nD τ) ((cfgT.win w).stage (cfgT.slots t w)) fullShare ((dat1 V c).after w t)
                | false => owns (c : Thread nD τ) ((cfgT.win w).stage (cfgT.slots t w)) fullShare ((dat1 V c).after w t)) := by
  rw [bigSep_W1]
  by_cases hd : isDiag (wQ (crd t)) (wK (crd t))
  · -- THE DIAGONAL STEP: the output window is live and written back
    have hb : ¬ isBelow (wQ (crd t)) (wK (crd t)) := (diag_iff_not_below t).mp hd
    obtain ⟨i3, f3⟩ := sched_diag t hd
    by_cases hf : isFirst (wK (crd t))
    · -- its key block is the first: the carried state is reset, whatever it was
      rewrite [i3]
      simp only [before1_0, before1_1, before1_2, before1_3', after1_0, after1_1, after1_2, after1_3]
      rewrite [show (dat1 V c).Φ t.succ = Phi1 V c t.succ from rfl, show (dat1 V c).Φ t.castSucc = Phi1 V c t.castSucc from rfl,
        show (dat1 V c).owesAt () t.succ = (dat1 V c).owesAt () t.castSucc from rfl]
      unfold Phi1
      simp only [Fin.val_castSucc, Fin.val_succ, Nat.add_sub_cancel, traj_eq V c t, step1_diag_first V c t _ hf hd]
      unfold carried
      iintro ⟨⟨⟨%S, -, HM, HL, HA⟩, ⟨HT0, HT1⟩, HI, HR⟩, Ho, ⟨%d0, H0⟩, ⟨%d1, H1⟩, ⟨%d2, H2⟩, ⟨%d3, H3⟩⟩
      iapply (body_diag_first c Set.univ (crd t) (ms0 t) (ms1 t) (ms2 t) (hs0 t) (hs1 t) (hs2 t) (ms3 t) (hs3 t) _ _ _ d3 S fullShare hf hb hd _)
      isplitl [H0]; · iexact H0
      isplitl [H1]; · iexact H1
      isplitl [H2]; · iexact H2
      isplitl [H3]; · iexact H3
      isplitl [HM]; · iexact HM
      isplitl [HL]; · iexact HL
      isplitl [HA]; · iexact HA
      isplitl [HT0]; · iexact HT0
      isplitl [HT1]; · iexact HT1
      iintro ⟨H0, H1, H2, H3, HM, HL, HA, HT0, HT1⟩
      isplitl [HM HL HA HT0 HT1 HI HR]
      · isplitl [HM HL HA]
        · iexists _; isplitr; swap
          · isplitl [HM]; · iexact HM
            isplitl [HL]; · iexact HL
            iexact HA
          · ipureintro; intro _; rfl
        isplitl [HT0 HT1]
        · isplitl [HT0]; · iexact HT0
          iexact HT1
        isplitl [HI]; · iexact HI
        iexact HR
      isplitl [Ho]; · iexact Ho
      isplitl [H0]; · iexact H0
      isplitl [H1]; · iexact H1
      isplitl [H2]; · iexact H2
      iexact H3
    · -- a later key block: the carried state is what the step before left
      have h0 := pos_of_not_first t hf
      rewrite [i3]
      simp only [before1_0, before1_1, before1_2, before1_3', after1_0, after1_1, after1_2, after1_3]
      rewrite [show (dat1 V c).Φ t.succ = Phi1 V c t.succ from rfl, show (dat1 V c).Φ t.castSucc = Phi1 V c t.castSucc from rfl,
        show (dat1 V c).owesAt () t.succ = (dat1 V c).owesAt () t.castSucc from rfl]
      unfold Phi1
      simp only [Fin.val_castSucc, Fin.val_succ, Nat.add_sub_cancel, traj_eq V c t, if_neg h0, step1_diag V c t _ hf hd]
      simp only [exists_held h0]
      unfold carried
      iintro ⟨⟨⟨HM, HL, HA⟩, ⟨HT0, HT1⟩, HI, HR⟩, Ho, ⟨%d0, H0⟩, ⟨%d1, H1⟩, ⟨%d2, H2⟩, ⟨%d3, H3⟩⟩
      iapply (body_diag c Set.univ (crd t) (ms0 t) (ms1 t) (ms2 t) (hs0 t) (hs1 t) (hs2 t) (ms3 t) (hs3 t) _ _ _ d3 _ fullShare hf hb hd _)
      isplitl [H0]; · iexact H0
      isplitl [H1]; · iexact H1
      isplitl [H2]; · iexact H2
      isplitl [H3]; · iexact H3
      isplitl [HM]; · iexact HM
      isplitl [HL]; · iexact HL
      isplitl [HA]; · iexact HA
      isplitl [HT0]; · iexact HT0
      isplitl [HT1]; · iexact HT1
      iintro ⟨H0, H1, H2, H3, HM, HL, HA, HT0, HT1⟩
      isplitl [HM HL HA HT0 HT1 HI HR]
      · isplitl [HM HL HA]
        · iexists _; isplitr; swap
          · isplitl [HM]; · iexact HM
            isplitl [HL]; · iexact HL
            iexact HA
          · ipureintro; intro _; rfl
        isplitl [HT0 HT1]
        · isplitl [HT0]; · iexact HT0
          iexact HT1
        isplitl [HI]; · iexact HI
        iexact HR
      isplitl [Ho]; · iexact Ho
      isplitl [H0]; · iexact H0
      isplitl [H1]; · iexact H1
      isplitl [H2]; · iexact H2
      iexact H3
  · -- A STEP STRICTLY BELOW THE DIAGONAL: the output window is idle and kept
    have hb : isBelow (wQ (crd t)) (wK (crd t)) := Classical.not_not.mp fun h => hd ((diag_iff_not_below t).mpr h)
    obtain ⟨i3, f3⟩ := sched_below t hd
    by_cases hf : isFirst (wK (crd t))
    · -- its key block is the first: the carried state is reset, whatever it was
      rewrite [i3]
      simp only [f3, before1_0, before1_1, before1_2, before1_3', after1_0, after1_1, after1_2]
      rewrite [show (dat1 V c).Φ t.succ = Phi1 V c t.succ from rfl, show (dat1 V c).Φ t.castSucc = Phi1 V c t.castSucc from rfl,
        show (dat1 V c).owesAt () t.succ = (dat1 V c).owesAt () t.castSucc from rfl]
      unfold Phi1
      simp only [Fin.val_castSucc, Fin.val_succ, Nat.add_sub_cancel, traj_eq V c t, step1_below_first V c t _ hf hd]
      unfold carried
      iintro ⟨⟨⟨%S, -, HM, HL, HA⟩, ⟨HT0, HT1⟩, HI, HR⟩, Ho, ⟨%d0, H0⟩, ⟨%d1, H1⟩, ⟨%d2, H2⟩, ⟨%d3, H3⟩⟩
      iapply (body_below_first c Set.univ (crd t) (ms0 t) (ms1 t) (ms2 t) (hs0 t) (hs1 t) (hs2 t) (ms3 t) (hs3 t) _ _ _ d3 S fullShare hf hb hd _)
      isplitl [H0]; · iexact H0
      isplitl [H1]; · iexact H1
      isplitl [H2]; · iexact H2
      isplitl [H3]; · iexact H3
      isplitl [HM]; · iexact HM
      isplitl [HL]; · iexact HL
      isplitl [HA]; · iexact HA
      isplitl [HT0]; · iexact HT0
      isplitl [HT1]; · iexact HT1
      iintro ⟨H0, H1, H2, H3, HM, HL, HA, HT0, HT1⟩
      isplitl [HM HL HA HT0 HT1 HI HR]
      · isplitl [HM HL HA]
        · iexists _; isplitr; swap
          · isplitl [HM]; · iexact HM
            isplitl [HL]; · iexact HL
            iexact HA
          · ipureintro; intro _; rfl
        isplitl [HT0 HT1]
        · isplitl [HT0]; · iexact HT0
          iexact HT1
        isplitl [HI]; · iexact HI
        iexact HR
      isplitl [Ho]; · iexact Ho
      isplitl [H0]; · iexact H0
      isplitl [H1]; · iexact H1
      isplitl [H2]; · iexact H2
      iexists d3; iexact H3
    · -- a later key block: the carried state is what the step before left
      have h0 := pos_of_not_first t hf
      rewrite [i3]
      simp only [f3, before1_0, before1_1, before1_2, before1_3', after1_0, after1_1, after1_2]
      rewrite [show (dat1 V c).Φ t.succ = Phi1 V c t.succ from rfl, show (dat1 V c).Φ t.castSucc = Phi1 V c t.castSucc from rfl,
        show (dat1 V c).owesAt () t.succ = (dat1 V c).owesAt () t.castSucc from rfl]
      unfold Phi1
      simp only [Fin.val_castSucc, Fin.val_succ, Nat.add_sub_cancel, traj_eq V c t, if_neg h0, step1_below V c t _ hf hd]
      simp only [exists_held h0]
      unfold carried
      iintro ⟨⟨⟨HM, HL, HA⟩, ⟨HT0, HT1⟩, HI, HR⟩, Ho, ⟨%d0, H0⟩, ⟨%d1, H1⟩, ⟨%d2, H2⟩, ⟨%d3, H3⟩⟩
      iapply (body_below c Set.univ (crd t) (ms0 t) (ms1 t) (ms2 t) (hs0 t) (hs1 t) (hs2 t) (ms3 t) (hs3 t) _ _ _ d3 _ fullShare hf hb hd _)
      isplitl [H0]; · iexact H0
      isplitl [H1]; · iexact H1
      isplitl [H2]; · iexact H2
      isplitl [H3]; · iexact H3
      isplitl [HM]; · iexact HM
      isplitl [HL]; · iexact HL
      isplitl [HA]; · iexact HA
      isplitl [HT0]; · iexact HT0
      isplitl [HT1]; · iexact HT1
      iintro ⟨H0, H1, H2, H3, HM, HL, HA, HT0, HT1⟩
      isplitl [HM HL HA HT0 HT1 HI HR]
      · isplitl [HM HL HA]
        · iexists _; isplitr; swap
          · isplitl [HM]; · iexact HM
            isplitl [HL]; · iexact HL
            iexact HA
          · ipureintro; intro _; rfl
        isplitl [HT0 HT1]
        · isplitl [HT0]; · iexact HT0
          iexact HT1
        isplitl [HI]; · iexact HI
        iexact HR
      isplitl [Ho]; · iexact Ho
      isplitl [H0]; · iexact H0
      isplitl [H1]; · iexact H1
      isplitl [H2]; · iexact H2
      iexists d3; iexact H3

/-- The library's body obligation of the attention call, at every step. -/
theorem body_obligation1 (c : Dev nD) : Pipeline.BodyObligation (dat1 V c) (defs₀ (F := FF)) Variants.none () Set.univ := fun t => by
  rw [bigSep_W1]
  exact sound_body1 V c t

end Cert.Kernel.H

end
-- ==== Proof.K.Fin.lean ====
import proofs.«417288_j44684839747926_3_alg».proof.Proof.K.Main
import proofs.«417288_j44684839747926_3_alg».proof.Proof.K.Seg1
import proofs.«417288_j44684839747926_3_alg».proof.Proof.K.R1Obl

/-! The program's run with both calls in place: it terminates, nothing faulting; the result array ends at what the
    attention call's write-backs leave and each argument array as launched. -/

noncomputable section

namespace Cert.Kernel.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

local notation "𝕄" => MT nD τ sig Unit (Elt FF) ℕ (UR sig nD τ) ℕ

variable (m : (ℓ : Loc nD τ sig) → Buf (Elt FF) ℓ) (ρ : Dev nD → PrngReg)

theorem run_final :
    θ_run defs (onTc (τ := τ) (main (F := FF))) ⟨m, fun _ => 0, ρ⟩ (fun r => ∀ c : Dev nD,
      r.2.mem ((c.tc : Thread nD τ).loc main_v5) = (dat1 (V3 m) c).arrAt 3 cfgT.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main m ρ (reg1 m (body_obligation1 (V3 m))) (fun _ => .rfl) (fun c => by
    show iprop(StableHlo.held (c : Thread nD τ) (Pipeline.ucRefs τ sig) (W4 m c) ∗ R c) ⊢ _
    iintro ⟨Hh, ⟨Hp, HO⟩⟩
    isplitl [Hh Hp]
    · isplitl [Hh]; · iexact Hh
      iexact Hp
    iexact HO)

end Cert.Kernel.H

end
-- ==== Proof.KI.Base.lean ====
import proofs.«417288_j44684839747926_3_alg».proof.Proof.Gen.KernelIdeal.Launch
import proofs.«417288_j44684839747926_3_alg».proof.Proof.Gen.KernelIdeal.Skeleton
import proofs.«417288_j44684839747926_3_alg».proof.Proof.Gen.KernelIdeal.Points
import Idealize.ShloMosaic.Lib.Pipeline.Kit
import Idealize.ShloMosaic.PureOps.BitExact
import Idealize.ShloMosaic.PureOps.Ideal

/-! The number instance at which this program's run is stated, and the two schedule tables of the attention
    call as the host constants leave them: step t of the ten visits (query block, key block) = (0,0), (1,0), (1,1),
    (2,0), …, (3,3), the lower triangle row by row. -/

noncomputable section

namespace Cert.KernelIdeal.H

open Idealize.ShloMosaic Idealize.ShloMosaic.TcCoe
open Idealize.SL Idealize.SL.Sem
open Cert.KernelIdeal Cert.KernelIdeal.Gen

/-- The number instance of this program. -/
abbrev FF : FTy → Type := Ideal

/-- The two schedule tables: the query-block index and the key-block index of each of the ten steps. -/
def tabs : pre1.Contents (Elt FF) := fun
  | ⟨0, _⟩ => fun i => lit0 (S10.rowMajor i)
  | ⟨1, _⟩ => fun i => lit1 (S10.rowMajor i)

/-- At these tables every block of the attention call lies inside its array. -/
theorem ok_tabs : ok1 (F := FF) tabs := by decide

/-- The tables as admissible contents of the attention call's pipeline. -/
def adm1 : (pcfg1 (F := FF)).Adm := ⟨tabs, ok_tabs⟩

/-- Both calls' tables: the projection call has none. -/
def adm : (p : Fin 2) → (pcfgs (F := FF) p).Adm
  | ⟨0, _⟩ => cfg0.toPCfg_adm
  | ⟨1, _⟩ => adm1

/-- The attention call's pipeline at the tables. -/
abbrev cfgT : Pipeline.Cfg sig Λ₀ := cfg1 (F := FF) adm1

theorem N_T : cfgT.N = 80 := by decide

end Cert.KernelIdeal.H

end
-- ==== Proof.KI.R0.lean ====
import proofs.«417288_j44684839747926_3_alg».proof.Proof.Gen.KernelIdeal.Launch
import proofs.«417288_j44684839747926_3_alg».proof.Proof.Gen.KernelIdeal.Skeleton
import proofs.«417288_j44684839747926_3_alg».proof.Proof.Gen.KernelIdeal.Points
import proofs.«417288_j44684839747926_3_alg».proof.Proof.KI.Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The projection call, at any contents V of the core's buffers on entry.

    Its grid has 32 points. At point t the body finds in its first buffer the t-th block of 512 rows of the
    16384 x 1024 activation array, in its second buffer the whole 1024 x 3072 weight array (the same block at
    every point, so it is brought in once and stays), and leaves in its third buffer the 512 x 3072 block
    "narrow (narrow x · w)" of the two: the rows taken to the narrow format, multiplied into the weights from a
    zero accumulator, and the product taken to the narrow format again. Stated here: each window's block at a
    point, the contents the one whole-buffer store leaves, the body's triple, the pipeline's proof data and the
    body obligation at every point. -/

-- membership in a rectangle of these extents is looked at once per coordinate of the long axes
set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt FF) ℕ (UR sig nD τ) ℕ

-- the core's buffer contents when the call is entered
variable (V : (c : Dev nD) → (b : Ref sig .tc) → Buf (Elt FF) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt FF (cfg0.win w).elt :=
  ((cfg0.win w).blk t).view.read (Elt FF) (V c (Pipeline.arrRef spec0 w))

/-- The activation window's buffer holds its block at every point, for any proof data whose array is V's and
    whose body leaves the block in place. -/
theorem before0_0_of {c : Dev nD} (dat : Dat τ (Elt FF) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight array at every point: it is brought in at the first point,
    its block index never moves, and the body leaves it in place. -/
theorem before0_1_of {c : Dev nD} (dat : Dat τ (Elt FF) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-! ## What the body leaves in the output window's buffer -/

/-- The output buffer after the body, from the two input blocks: its one store, of the narrowed product of the
    narrowed rows and the weights. -/
def out0_2 (x0 : Vec FF S512x1024 .f32) (x1 : Vec FF S1024x3072 .bf16) : Vec FF S512x3072 .bf16 :=
  View.canon [⟨r0_2, k0_pay1 (View.ld x0 r0_0) (View.ld x1 r0_1)⟩]

/-- The one store is of the whole buffer, so it covers it. -/
theorem cover0_2 (p0 : Vec FF S512x3072 .bf16) (y : S512x3072.Idx) :
    ∃ pc ∈ ([⟨r0_2, p0⟩] : List (View.Piece (Elt FF) S512x3072 .bf16)), y ∈ pc.1.set :=
  View.cover_of_tiled [⟨r0_2, p0⟩] S512x3072.size (by rfl) y

/-! ## The body's triple -/

set_option maxHeartbeats 1000000 in
/-- The body on whole buffers, the two inputs' at read contents x0, x1 and the output's at anything, runs to the
    continuation holding the inputs' as they were and the output's at out0_2 of them: its two input loads read
    x0 and x1 whole, its load of the output buffer reads a value that is not used, and its one store overwrites the
    output buffer whole. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .bf16) (harg3 : arg3.IsWhole)
    (x0 : Vec FF S512x1024 .f32) (x1 : Vec FF S1024x3072 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := FF)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the projection call on core c: the arrays as the call finds them; after the body at point t
    each input's buffer at its block and the output's at out0_2 of the two input blocks; the invariant that of a
    call whose body touches its windows only (the scoped rest and the generator register, untouched); nothing owed;
    full shares. -/
def dat0 (c : Dev nD) : Dat τ (Elt FF) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's debts pass through unread. -/
theorem sound_body0 (c : Dev nD) (t : Fin cfg0.N) :
    bodyPre0 V c t ⊢ wp frame (wpE (defs₀ (F := FF)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 V c) (defs₀ (F := FF)) Variants.none () Set.univ := fun t => by
  rw [bigSep_W0, bigSep_W0]
  exact sound_body0 V c t

end Cert.KernelIdeal.H

end
-- ==== Proof.KI.R1Defs.lean ====
import proofs.«417288_j44684839747926_3_alg».proof.Proof.KI.Base

/-! The attention call's body as pure step functions of what it reads: the carried row maximum, normaliser and
    accumulator (three scratch buffers), the query, key and value blocks of the step, and the step's two table words.
    A step whose key block is the first resets the carried state; a step below the diagonal updates it with the whole
    block; the diagonal step updates it with the causally masked block and stores the quotient. -/

noncomputable section

namespace Cert.KernelIdeal.H

open Idealize.ShloMosaic Idealize.ShloMosaic.TcCoe
open Idealize.SL Idealize.SL.Sem
open Cert.KernelIdeal Cert.KernelIdeal.Gen

/-- The carried state: running row maximum, normaliser, accumulator. -/
structure St where
  m : Vec FF S512x1 .f32
  l : Vec FF S512x1 .f32
  a : Vec FF S512x1024 .f32

/-- The state a first key block starts from: maximum −∞, normaliser 0, accumulator 0. -/
def St.reset : St := ⟨k1_pay1 (F := FF), k1_pay2 (F := FF), k1_pay3 (F := FF)⟩

/-- A step strictly below the diagonal: the whole block of scores enters the running maximum, the normaliser and the
    accumulator, each read at its old contents. -/
def St.upd (q k v : Vec FF S1x512x1024 .bf16) (S : St) : St :=
  ⟨k1_pay5 (k1_pay10 q k S.m), k1_pay13 q k S.m S.l, k1_pay4 (k1_pay14 q k v S.m S.a)⟩

/-- The diagonal step at table words `w1` (query block) and `w3` (key block): the causally masked block enters the
    running state. -/
def St.diag (w1 w3 : BitVec 32) (q k v : Vec FF S1x512x1024 .bf16) (S : St) : St :=
  ⟨k1_pay7 (k1_pay17 w1 w3 q k S.m), k1_pay20 w1 w3 q k S.m S.l,
    k1_pay6 (k1_pay15 v) (k1_pay18 w1 w3 q k S.m) (k1_pay19 w1 w3 q k S.m) S.a⟩

/-- What the diagonal step stores in the output block: the new accumulator over the new normaliser. -/
def St.out (S : St) : Vec FF S1x512x1024 .f32 := k1_pay8 S.a S.l

/-- The three conditions of the body, on the step's table words `w1` (query block) and `w3` (key block). -/
abbrev isFirst (w3 : BitVec 32) : Prop := Scalar.cmpi .ne (Scalar.extui (Scalar.cmpi .eq w3 0#32)) 0#32 = 1#1
abbrev isBelow (w1 w3 : BitVec 32) : Prop := Scalar.cmpi .ne (Scalar.extui (Scalar.cmpi .slt w3 w1)) 0#32 = 1#1
abbrev isDiag (w1 w3 : BitVec 32) : Prop := k1_cond3 w1 w3 = 1#1

/-- The carried scratch buffers and the two tables, as the body is handed them. -/
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev tbQ : Memref sig .tc .smem S10 .i32 := Memref.whole main_c
abbrev tbK : Memref sig .tc .smem S10 .i32 := Memref.whole main_c_0

/-- The step's table words at grid point `i`: entry `i 1` of each table. -/
def wQ (i : grid1.Coords) : BitVec 32 := lit0 ⟨(i 1).val, (i 1).isLt⟩
def wK (i : grid1.Coords) : BitVec 32 := lit1 ⟨(i 1).val, (i 1).isLt⟩

end Cert.KernelIdeal.H

end
-- ==== Proof.KI.R1Dat.lean ====
import proofs.«417288_j44684839747926_3_alg».proof.Proof.KI.R1Defs
import Idealize.ShloMosaic.Lib.Pipeline.FrameBody
import Idealize.ShloMosaic.Lib.Pipeline.TableIdle
import Idealize.ShloMosaic.Lib.Pipeline.Regions

/-! The attention call's proof data, at the buffer contents `V` the call is entered from: the blocks each step reads,
    the carried state and the output block's contents step by step (each step applies the body's pure step function to
    what the step before left), and the invariant between steps: the three scratch buffers at the carried state, the
    two tables, the other scoped buffers and the generator register untouched. -/

noncomputable section

namespace Cert.KernelIdeal.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt FF) ℕ (UR sig nD τ) ℕ

variable (V : (c : Dev nD) → (b : Ref sig .tc) → Buf (Elt FF) ((c : Thread nD τ).loc b))

/-- Window `w`'s block at step `t`, read off its array as the call finds it. -/
def iblk1 (c : Dev nD) (w : Fin cfgT.W) (t : Fin cfgT.N) : ((cfgT.win w).xblock (cfgT.grid.coords t)).Idx → Elt FF (cfgT.win w).elt :=
  ((cfgT.win w).blk t).view.read (Elt FF) (V c (Pipeline.arrRef spec1 w))

/-- The step's grid point. -/
abbrev crd (t : Fin cfgT.N) : grid1.Coords := cfgT.grid.coords t

/-- A state nothing has determined. -/
def St.junk : St := ⟨fun _ => 0, fun _ => 0, fun _ => 0⟩

/-- ONE STEP: the carried state and the output block's contents after the body at step `t`, from what they were before:
    a first key block starts from the reset state; the diagonal step applies the masked update and stores the quotient;
    a step below the diagonal applies the plain update and leaves the output block as it was. -/
def step1 (c : Dev nD) (t : Fin cfgT.N) (p : St × Vec FF S1x512x1024 .f32) : St × Vec FF S1x512x1024 .f32 :=
  if isDiag (wQ (crd t)) (wK (crd t)) then
    ((if isFirst (wK (crd t)) then St.reset else p.1).diag (wQ (crd t)) (wK (crd t)) (iblk1 V c 0 t) (iblk1 V c 1 t) (iblk1 V c 2 t),
     ((if isFirst (wK (crd t)) then St.reset else p.1).diag (wQ (crd t)) (wK (crd t)) (iblk1 V c 0 t) (iblk1 V c 1 t) (iblk1 V c 2 t)).out)
  else
    ((if isFirst (wK (crd t)) then St.reset else p.1).upd (iblk1 V c 0 t) (iblk1 V c 1 t) (iblk1 V c 2 t), p.2)

/-- THE TRAJECTORY: after step `n`. -/
def traj (c : Dev nD) : ℕ → St × Vec FF S1x512x1024 .f32
  | 0 => step1 V c ⟨0, by decide⟩ (St.junk, fun _ => 0)
  | n + 1 => if h : n + 1 < cfgT.N then step1 V c ⟨n + 1, h⟩ (traj c n) else traj c n

theorem traj_succ (c : Dev nD) (n : ℕ) (h : n + 1 < cfgT.N) : traj V c (n + 1) = step1 V c ⟨n + 1, h⟩ (traj V c n) := by
  rw [traj, dif_pos h]

/-- The three scratch buffers at a carried state. -/
def carried (c : Dev nD) (S : St) : sProp 𝕄 :=
  iprop(owns (c : Thread nD τ) scM fullShare S.m ∗ owns (c : Thread nD τ) scL fullShare S.l ∗ owns (c : Thread nD τ) scA fullShare S.a)

/-- The scoped buffers the attention call never touches: the projection call's staging buffers, at any contents. -/
def idleScoped (c : Dev nD) : sProp 𝕄 :=
  iprop((∃ f : Buf (Elt FF) ((c : Thread nD τ).loc cc0_stg0_0), ((c : Thread nD τ).loc cc0_stg0_0) ↦{fullShare} f) ∗ (∃ f : Buf (Elt FF) ((c : Thread nD τ).loc cc0_stg0_1), ((c : Thread nD τ).loc cc0_stg0_1) ↦{fullShare} f) ∗ (∃ f : Buf (Elt FF) ((c : Thread nD τ).loc cc0_stg1_0), ((c : Thread nD τ).loc cc0_stg1_0) ↦{fullShare} f) ∗ (∃ f : Buf (Elt FF) ((c : Thread nD τ).loc cc0_stg2_0), ((c : Thread nD τ).loc cc0_stg2_0) ↦{fullShare} f) ∗ (∃ f : Buf (Elt FF) ((c : Thread nD τ).loc cc0_stg2_1), ((c : Thread nD τ).loc cc0_stg2_1) ↦{fullShare} f))

/-- THE INVARIANT before step `t`: the scratch buffers at what the step before left (at anything before the first step),
    the two tables at their contents, the untouched scoped buffers, the generator register at some state. -/
def Phi1 (c : Dev nD) (t : Fin (cfgT.N + 1)) : sProp 𝕄 :=
  iprop((∃ S : St, ⌜t.val ≠ 0 → S = (traj V c (t.val - 1)).1⌝ ∗ carried c S)
    ∗ ((((c : Thread nD τ).loc main_c) ↦{fullShare} tabs 0) ∗ (((c : Thread nD τ).loc main_c_0) ↦{fullShare} tabs 1))
    ∗ idleScoped c ∗ ∃ r, prngReg c r)

/-- The proof data of the attention call on core `c`: the arrays as the call finds them; after the body at step `t` each
    input's buffer at its block, the output's at what the trajectory says; the three input windows read ONE array, each
    at a third share of it. -/
def dat1 (c : Dev nD) : Dat τ (Elt FF) Unit ℕ (UR sig nD τ) ℕ cfgT c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (traj V c t.val).2
  Φ t := Phi1 V c t
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfgT.W) : (dat1 V c).A w = V c (Pipeline.arrRef spec1 w) := by
  dsimp only [dat1]
theorem after1_0 (c : Dev nD) (t : Fin cfgT.N) : (dat1 V c).after 0 t = iblk1 V c 0 t := by dsimp only [dat1]
theorem after1_1 (c : Dev nD) (t : Fin cfgT.N) : (dat1 V c).after 1 t = iblk1 V c 1 t := by dsimp only [dat1]
theorem after1_2 (c : Dev nD) (t : Fin cfgT.N) : (dat1 V c).after 2 t = iblk1 V c 2 t := by dsimp only [dat1]
theorem after1_3 (c : Dev nD) (t : Fin cfgT.N) : (dat1 V c).after 3 t = (traj V c t.val).2 := by dsimp only [dat1]

end Cert.KernelIdeal.H

end
-- ==== Proof.KI.RunDefs.lean ====
import proofs.«417288_j44684839747926_3_alg».proof.Proof.KI.R0
import proofs.«417288_j44684839747926_3_alg».proof.Proof.KI.R1Dat
import Idealize.ShloMosaic.Lib.Pipeline.FrameSuffix
import Idealize.ShloMosaic.Lib.Pipeline.RegionsLoop

/-! The buffer contents at every boundary of the program — launch, after the host operations that build the weights
    and reshape the activations, after the projection call, after the reshape of its result, after the attention call —
    and both calls' proof data, each at the contents its call is entered from. -/

noncomputable section

namespace Cert.KernelIdeal.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt FF) ℕ (UR sig nD τ) ℕ

variable (m : (ℓ : Loc nD τ sig) → Buf (Elt FF) ℓ) (ρ : Dev nD → PrngReg)

/-- Core `c`'s buffers at launch. -/
abbrev W0 : Dev nD → Valuation τ sig (Elt FF) := fun c b => m ((c : Dev nD), b)
/-- After the host operations before the projection call. -/
abbrev W1 : Dev nD → Valuation τ sig (Elt FF) := fun c => StableHlo.after (hostOps0 (F := FF)) (W0 m c)
abbrev V1 : (c : Dev nD) → (b : Ref sig .tc) → Buf (Elt FF) ((c : Thread nD τ).loc b) := fun c b => W1 m c b
/-- After the projection call: its output array at what its write-backs leave. -/
def W2 (c : Dev nD) : Valuation τ sig (Elt FF) :=
  Pipeline.withArrays spec0 c (W1 m c) fun w => (dat0 (V1 m) c).arrAt w cfg0.N
abbrev V2 : (c : Dev nD) → (b : Ref sig .tc) → Buf (Elt FF) ((c : Thread nD τ).loc b) := fun c b => W2 m c b
/-- After the reshape between the calls. -/
abbrev W3 : Dev nD → Valuation τ sig (Elt FF) := fun c => StableHlo.after (hostOps1 (F := FF)) (W2 m c)
abbrev V3 : (c : Dev nD) → (b : Ref sig .tc) → Buf (Elt FF) ((c : Thread nD τ).loc b) := fun c b => W3 m c b
/-- After the attention call: its output array at what its write-backs leave, every other buffer as entered. -/
def W4 (c : Dev nD) : Valuation τ sig (Elt FF) :=
  Function.update (W3 m c) (Proc.devRef .tc main_v5) ((dat1 (V3 m) c).arrAt 3 cfgT.N)
abbrev V4 : (c : Dev nD) → (b : Ref sig .tc) → Buf (Elt FF) ((c : Thread nD τ).loc b) := fun c b => W4 m c b

/-- Both calls' proof data, each at its entry contents. -/
def pdats : (p : Fin 2) → (c : Dev nD) → Dat τ (Elt FF) Unit ℕ (UR sig nD τ) ℕ (Pipeline.pin (pcfgs (F := FF)) adm p) c
  | ⟨0, _⟩ => fun c => dat0 (V1 m) c
  | ⟨1, _⟩ => fun c => dat1 (V3 m) c

abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

end Cert.KernelIdeal.H

end
-- ==== Proof.KI.Seg0.lean ====
import proofs.«417288_j44684839747926_3_alg».proof.Proof.KI.RunDefs

/-! The projection call as a segment of the program: entered from every unscoped buffer at the contents the host
    operations leave, left with its output array at what its write-backs leave and every other buffer as entered. -/

noncomputable section

namespace Cert.KernelIdeal.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt FF) ℕ (UR sig nD τ) ℕ

variable (m : (ℓ : Loc nD τ sig) → Buf (Elt FF) ℓ)

theorem W2_arr (c : Dev nD) (w : Fin cfg0.W) :
    W2 m c (Proc.devRef .tc (Pipeline.arrRef spec0 w)) = (dat0 (V1 m) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

set_option backward.isDefEq.respectTransparency.types false in
/-- The projection call over the thread state: its arrays split out of the unscoped buffers and put back at the exit
    contents; the generator register into the call's invariant and out; nothing owed. -/
def reg0 : Pipeline.RegionSeg (pcfgs (F := FF)) adm (pdats m) () defs₀ 𝒱₀ L lv 0 where
  win := winFacts0.to₀
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := FF)) adm (pdats m) winFacts0 arr_whole0 c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := FF)) adm (Ix := Unit) (Name := ℕ) (U := UR sig nD τ) (Lvl := ℕ)
      winFacts0 arr_whole0 c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Run.lean ====
import proofs.«417288_j44684839747926_3_alg».proof.Proof.KI.Seg0

/-! The run of the whole program from the launch to the return, given the attention call as a segment entered from the
    contents after the reshape and left at the final contents: every weakly fair execution terminates, nothing faulting,
    and the final memory holds the result array at what the attention call's write-backs leave and each argument array
    as launched. -/

noncomputable section

namespace Cert.KernelIdeal.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt FF) ℕ (UR sig nD τ) ℕ

variable (m : (ℓ : Loc nD τ sig) → Buf (Elt FF) ℓ) (ρ : Dev nD → PrngReg)

/-- A host stretch as a segment over the unscoped buffers from the contents `W`, `R` riding along. -/
abbrev hseg (ops : List (HloOp τ sig (Elt FF))) (hsub : ops.Forall fun op => op.bufs ⊆ StableHlo.tcRefs τ sig)
    (hfresh : ops.Forall fun op => op.fresh = ∅) (W : Dev nD → Valuation τ sig (Elt FF)) :
    Pipeline.HostSeg (Name := ℕ) (U := UR sig nD τ) (pcfgs (F := FF)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt FF))).Forall fun op => op.fresh = ∅ := by
  simp only [List.Forall]; repeat' constructor
theorem hostOps1_fresh : (hostOps1 : List (HloOp τ sig (Elt FF))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m c) ∗ ∃ r, prngReg c r)

variable (R1 : Pipeline.RegionSeg (pcfgs (F := FF)) adm (pdats m) () defs₀ 𝒱₀ L lv 1)

/-- The program's four segments in order. -/
abbrev segs : List (Pipeline.Seg (pcfgs (F := FF)) adm (pdats m) () defs₀ 𝒱₀ L lv) :=
  [ .host (hseg hostOps0 hostOps0_sub hostOps0_fresh (W0 m)),
    .region (reg0 m),
    .host (hseg hostOps1 hostOps1_sub hostOps1_fresh (W2 m)),
    .region R1 ]

theorem main_run (c : Dev nD) : main (F := FF) c = Pipeline.Seg.run (segs m R1) := (main_chain c).trans (by chain_rfl)

set_option backward.isDefEq.respectTransparency.types false in
/-- THE RUN: every unscoped buffer of the final memory at the last boundary's contents. -/
theorem run_all
    (hpre1 : ∀ c : Dev nD, iprop(StableHlo.held (c : Thread nD τ) (Pipeline.ucRefs τ sig) (W3 m c) ∗ R c) ⊢ R1.pre c)
    (hpost1 : ∀ c : Dev nD, R1.post c ⊢ iprop(Tₙ m c ∗ ∃ W, owes (c : Thread nD τ) (0 : CellTallies nD τ sig Unit) W)) :
    θ_run defs (onTc (τ := τ) (main (F := FF))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := FF)) adm (pdats m) () (cellOf_inj adm) emb₁ defs₀ 𝒱₀ L lv m ρ main (segs m R1)
    (fun c Q => by rw [main_run m R1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := FF)) adm) (cellOf_inj adm)) (Pipeline.launchToks (Pipeline.pin (pcfgs (F := FF)) adm) (cellOf_inj adm)))
    (hu₀ := by
      iintro Hu; imodintro
      isplitl [Hu]
      · iapply (show (ownU (initOf (Pipeline.cells (Pipeline.pin (pcfgs (F := FF)) adm) (cellOf_inj adm)) (Pipeline.launchToks (Pipeline.pin (pcfgs (F := FF)) adm) (cellOf_inj adm))) : sProp 𝕄)
            ⊢ BI.own (emb₁ (initOf (Pipeline.cells (Pipeline.pin (pcfgs (F := FF)) adm) (cellOf_inj adm)) (Pipeline.launchToks (Pipeline.pin (pcfgs (F := FF)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, hpre1, hpost1⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.H

end
-- ==== Proof.KI.Main.lean ====
import proofs.«417288_j44684839747926_3_alg».proof.Proof.KI.Run

/-! The final contents read back: the result array holds what the attention call's write-backs leave, and no host
    operation and no call writes an argument array. -/

noncomputable section

namespace Cert.KernelIdeal.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt FF) ℕ (UR sig nD τ) ℕ

variable (m : (ℓ : Loc nD τ sig) → Buf (Elt FF) ℓ) (ρ : Dev nD → PrngReg)

theorem W4_main_v5 (c : Dev nD) : W4 m c (Proc.devRef .tc main_v5) = (dat1 (V3 m) c).arrAt 3 cfgT.N := by
  unfold W4; exact Function.update_self ..

/-- A reference no host operation writes and no call's window names keeps its launch contents to the end. -/
theorem W4_of_arg (c : Dev nD) (b : Ref sig .tc)
    (h5 : (Proc.devRef .tc b : DevRef τ sig) ≠ Proc.devRef .tc main_v5)
    (h1 : ∀ op ∈ (hostOps1 : List (HloOp τ sig (Elt FF))), (Proc.devRef .tc b : DevRef τ sig) ∉ op.writes)
    (hw : ∀ w, Pipeline.arrRef spec0 w ≠ b)
    (h0 : ∀ op ∈ (hostOps0 : List (HloOp τ sig (Elt FF))), (Proc.devRef .tc b : DevRef τ sig) ∉ op.writes) :
    W4 m c (Proc.devRef .tc b) = m ((c : Thread nD τ).loc b) :=
  calc W4 m c (Proc.devRef .tc b)
    _ = W3 m c (Proc.devRef .tc b) := by unfold W4; exact Function.update_of_ne h5 ..
    _ = W2 m c (Proc.devRef .tc b) := StableHlo.after_of_forall_not_mem (b := Proc.devRef .tc b) _ _ h1
    _ = W1 m c (Proc.devRef .tc b) := W2_of_ne m c b hw
    _ = W0 m c (Proc.devRef .tc b) := StableHlo.after_of_forall_not_mem (b := Proc.devRef .tc b) _ _ h0
    _ = m ((c : Thread nD τ).loc b) := rfl

theorem notW1 (b : Ref sig .tc) (hb : b ≠ main_v4) :
    ∀ op ∈ (hostOps1 : List (HloOp τ sig (Elt FF))), (Proc.devRef .tc b : DevRef τ sig) ∉ op.writes := by
  refine List.forall_iff_forall_mem.mp ?_
  simp only [hostOps1, List.Forall, StableHlo.reshape_writes, Finset.mem_singleton]
  exact StableHlo.devRef_ne_of_ne hb

theorem notW0 (b : Ref sig .tc) (h1 : b ≠ main_c) (h2 : b ≠ main_c_0) (h3 : b ≠ main_v0) (h4 : b ≠ main_v1) (h5 : b ≠ main_v2) :
    ∀ op ∈ (hostOps0 : List (HloOp τ sig (Elt FF))), (Proc.devRef .tc b : DevRef τ sig) ∉ op.writes := by
  refine List.forall_iff_forall_mem.mp ?_
  simp only [hostOps0, List.Forall, StableHlo.nullary_writes, StableHlo.unary_writes, StableHlo.nary_writes, StableHlo.reshape_writes, Finset.mem_singleton]
  exact ⟨StableHlo.devRef_ne_of_ne h1, StableHlo.devRef_ne_of_ne h2, StableHlo.devRef_ne_of_ne h3, StableHlo.devRef_ne_of_ne h4, StableHlo.devRef_ne_of_ne h5⟩

theorem W4_main_arg0 (c : Dev nD) : W4 m c (Proc.devRef .tc main_arg0) = m ((c : Thread nD τ).loc main_arg0) :=
  W4_of_arg m c main_arg0 (StableHlo.devRef_ne_of_ne (by decide)) (notW1 main_arg0 (by decide)) (by decide) (notW0 main_arg0 (by decide) (by decide) (by decide) (by decide) (by decide))
theorem W4_main_arg1 (c : Dev nD) : W4 m c (Proc.devRef .tc main_arg1) = m ((c : Thread nD τ).loc main_arg1) :=
  W4_of_arg m c main_arg1 (StableHlo.devRef_ne_of_ne (by decide)) (notW1 main_arg1 (by decide)) (by decide) (notW0 main_arg1 (by decide) (by decide) (by decide) (by decide) (by decide))
theorem W4_main_arg2 (c : Dev nD) : W4 m c (Proc.devRef .tc main_arg2) = m ((c : Thread nD τ).loc main_arg2) :=
  W4_of_arg m c main_arg2 (StableHlo.devRef_ne_of_ne (by decide)) (notW1 main_arg2 (by decide)) (by decide) (notW0 main_arg2 (by decide) (by decide) (by decide) (by decide) (by decide))
theorem W4_main_arg3 (c : Dev nD) : W4 m c (Proc.devRef .tc main_arg3) = m ((c : Thread nD τ).loc main_arg3) :=
  W4_of_arg m c main_arg3 (StableHlo.devRef_ne_of_ne (by decide)) (notW1 main_arg3 (by decide)) (by decide) (notW0 main_arg3 (by decide) (by decide) (by decide) (by decide) (by decide))

variable (R1 : Pipeline.RegionSeg (pcfgs (F := FF)) adm (pdats m) () defs₀ 𝒱₀ L lv 1)

/-- THE RUN, read at the result and the arguments. -/
theorem run_main
    (hpre1 : ∀ c : Dev nD, iprop(StableHlo.held (c : Thread nD τ) (Pipeline.ucRefs τ sig) (W3 m c) ∗ R c) ⊢ R1.pre c)
    (hpost1 : ∀ c : Dev nD, R1.post c ⊢ iprop(Tₙ m c ∗ ∃ W, owes (c : Thread nD τ) (0 : CellTallies nD τ sig Unit) W)) :
    θ_run defs (onTc (τ := τ) (main (F := FF))) ⟨m, fun _ => 0, ρ⟩ (fun r => ∀ c : Dev nD,
      r.2.mem ((c.tc : Thread nD τ).loc main_v5) = (dat1 (V3 m) c).arrAt 3 cfgT.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (W4_main_v5 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩)
    (run_all m ρ R1 hpre1 hpost1)

end Cert.KernelIdeal.H

end
-- ==== Proof.KI.Seg1.lean ====
import proofs.«417288_j44684839747926_3_alg».proof.Proof.KI.RunDefs

/-! The attention call as a segment of the run, its body obligation a parameter.

    The call's three input windows read ONE array, so at entry that array's full points-to is dealt in three shares
    (left half, left quarter of the right half, right quarter of the right half) to the three windows, and at exit the
    three shares, the array unchanged, rejoin. The two schedule tables are held at the contents the host constants
    gave them: no operation and neither call writes them between. The invariant takes in the generator register, the
    tables and the scoped buffers no window stages (the three scratch buffers as the carried state, the projection
    call's staging buffers untouched) and gives them back at the end. -/

noncomputable section

namespace Cert.KernelIdeal.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt FF) ℕ (UR sig nD τ) ℕ

variable (m : (ℓ : Loc nD τ sig) → Buf (Elt FF) ℓ)

/-! ## The tables at entry -/

/-- Neither the reshape between the calls nor the projection call writes a table, and the host constants leave the
    first table at the query-block schedule. -/
theorem V3_tab0 (c : Dev nD) : V3 m c main_c = tabs 0 := by
  have e3 : W3 m c (Proc.devRef .tc main_c) = W2 m c (Proc.devRef .tc main_c) := by
    show StableHlo.after (hostOps1 (F := FF)) (W2 m c) (Proc.devRef .tc main_c) = _
    dsimp only [hostOps1]
    after_results
  have e2 : W2 m c (Proc.devRef .tc main_c) = W1 m c (Proc.devRef .tc main_c) := by
    unfold W2; exact Pipeline.withArrays_of_ne spec0 c _ _ main_c (by decide)
  have e1 : W1 m c (Proc.devRef .tc main_c) = tabs 0 := by
    show StableHlo.after (hostOps0 (F := FF)) (W0 m c) (Proc.devRef .tc main_c) = _
    dsimp only [hostOps0]
    after_results
    rfl
  exact e3.trans (e2.trans e1)

/-- Likewise the second table, at the key-block schedule. -/
theorem V3_tab1 (c : Dev nD) : V3 m c main_c_0 = tabs 1 := by
  have e3 : W3 m c (Proc.devRef .tc main_c_0) = W2 m c (Proc.devRef .tc main_c_0) := by
    show StableHlo.after (hostOps1 (F := FF)) (W2 m c) (Proc.devRef .tc main_c_0) = _
    dsimp only [hostOps1]
    after_results
  have e2 : W2 m c (Proc.devRef .tc main_c_0) = W1 m c (Proc.devRef .tc main_c_0) := by
    unfold W2; exact Pipeline.withArrays_of_ne spec0 c _ _ main_c_0 (by decide)
  have e1 : W1 m c (Proc.devRef .tc main_c_0) = tabs 1 := by
    show StableHlo.after (hostOps0 (F := FF)) (W0 m c) (Proc.devRef .tc main_c_0) = _
    dsimp only [hostOps0]
    after_results
    rfl
  exact e3.trans (e2.trans e1)

/-! ## The invariant at the first and the last point -/

/-- The two tables conjoined one by one. -/
theorem bigSep_K2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- What the invariant gives back at the end beside the scoped buffers: the generator register and both tables whole. -/
def Y1 (c : Dev nD) : sProp 𝕄 :=
  iprop((∃ r, prngReg c r) ∗ (((c : Thread nD τ).loc main_c) ↦{fullShare} tabs 0) ∗ (((c : Thread nD τ).loc main_c_0) ↦{fullShare} tabs 1))

/-- The invariant before the first step: the scratch buffers at whatever they hold (nothing is claimed of the carried
    state before the first step), the tables, the idle staging buffers, the generator register. -/
theorem hin1 (V : (c : Dev nD) → (b : Ref sig .tc) → Buf (Elt FF) ((c : Thread nD τ).loc b)) (c : Dev nD) :
    iprop((∃ r, prngReg c r) ∗ Pipeline.prefHeld pre1 c (fun _ => fullShare) tabs
      ∗ Pipeline.scopedRest (Ix := Unit) (Name := ℕ) (U := UR sig nD τ) (Lvl := ℕ) (Val := Elt FF) spec1 c) ⊢ (Phi1 V c 0 : sProp 𝕄) := by
  rw [scopedRest1_eq]
  unfold Phi1 idleScoped carried Pipeline.prefHeld
  rw [bigSep_K2]
  iintro ⟨Hp, ⟨Ht0, Ht1⟩, H0, H1, H2, H3, H4, ⟨%f5, H5⟩, ⟨%f6, H6⟩, ⟨%f7, H7⟩⟩
  isplitl [H5 H6 H7]
  · iexists (⟨f5, f6, f7⟩ : St)
    isplitr
    · ipureintro; intro h; exact absurd rfl h
    rw [owns_whole, owns_whole, owns_whole]
    isplitl [H5]; · iexact H5
    isplitl [H6]; · iexact H6
    iexact H7
  isplitl [Ht0 Ht1]
  · isplitl [Ht0]; · iexact Ht0
    iexact Ht1
  isplitr [Hp]
  · isplitl [H0]; · iexact H0
    isplitl [H1]; · iexact H1
    isplitl [H2]; · iexact H2
    isplitl [H3]; · iexact H3
    iexact H4
  iexact Hp

/-- The invariant after the last step gives back the generator register, the tables and every scoped buffer it took,
    the carried state forgotten. -/
theorem hout1 (V : (c : Dev nD) → (b : Ref sig .tc) → Buf (Elt FF) ((c : Thread nD τ).loc b)) (c : Dev nD) :
    (Phi1 V c (Fin.last cfgT.N) : sProp 𝕄) ⊢ iprop(Y1 c
      ∗ Pipeline.scopedRest (Ix := Unit) (Name := ℕ) (U := UR sig nD τ) (Lvl := ℕ) (Val := Elt FF) spec1 c) := by
  rw [scopedRest1_eq]
  unfold Phi1 idleScoped carried Y1
  simp only [owns_whole]
  iintro ⟨⟨%S, -, H5, H6, H7⟩, ⟨Ht0, Ht1⟩, ⟨H0, H1, H2, H3, H4⟩, Hp⟩
  isplitl [Hp Ht0 Ht1]
  · isplitl [Hp]; · iexact Hp
    isplitl [Ht0]; · iexact Ht0
    iexact Ht1
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

/-! ## The unscoped buffers and the windows' arrays, spelt out -/

/-- The unscoped buffers, at any valuation: the two arrays of the attention call, its two tables, the rest. -/
theorem held_split1 (c : Dev nD) (W : Valuation τ sig (Elt FF)) :
    (StableHlo.held (c : Thread nD τ) (Pipeline.ucRefs τ sig) W : sProp 𝕄)
      = iprop(((((c : Thread nD τ).loc main_v4) ↦{fullShare} W main_v4) ∗ (((c : Thread nD τ).loc main_v5) ↦{fullShare} W main_v5))
          ∗ Pipeline.prefHeld pre1 c (fun _ => fullShare) (fun k => W (pre1.ref k))
          ∗ Pipeline.unscopedRestP (Ix := Unit) (Name := ℕ) (U := UR sig nD τ) (Lvl := ℕ) pre1 spec1 c (fun b => W b)) := by
  rw [← Pipeline.unscopedBufs_held (Ix := Unit) (Name := ℕ) (U := UR sig nD τ) (Lvl := ℕ) c W,
    Pipeline.unscopedBufs_split₀ (fun _ : Unit => cfgT) () winFacts₀1.arr_unscoped c,
    Pipeline.unscopedRest_split preFacts1]
  unfold Pipeline.arrBufs
  rw [show Finset.univ.image (Pipeline.arrRef spec1) = {main_v4, main_v5} from by decide,
    bigSep_insert (by decide), bigSep_singleton]
  rfl

/-- The attention call's four windows' arrays: the one input array at its three shares, the output array whole. -/
theorem arrays1_eq (V : (c : Dev nD) → (b : Ref sig .tc) → Buf (Elt FF) ((c : Thread nD τ).loc b)) (c : Dev nD)
    (F : (w : Fin cfgT.W) → Buf (Elt FF) ((cfgT.win w).arr.view.loc (c : Thread nD τ))) :
    ((dat1 V c).arrays F : sProp 𝕄)
      = iprop((((c : Thread nD τ).loc main_v4) ↦{fullShare.left} F 0) ∗ (((c : Thread nD τ).loc main_v4) ↦{fullShare.right.left} F 1)
          ∗ (((c : Thread nD τ).loc main_v4) ↦{fullShare.right.right} F 2) ∗ (((c : Thread nD τ).loc main_v5) ↦{fullShare} F 3)) := by
  unfold Dat.arrays
  rw [bigSep_W1]
  have hs : ∀ w : Fin 4, (cfgT.win w).arr.view.set = Finset.univ := fun w => (arr_whole1 w).set_eq_univ
  rw [hs 0, hs 3]
  rfl

/-! ## Entry and exit -/

/-- ENTRY of the attention call: the input array's full points-to dealt in three shares to the three input windows,
    the output array whole, the tables at their contents, the generator register, the rest bypassing the call. -/
theorem hentry1 (c : Dev nD) :
    iprop((StableHlo.held (c : Thread nD τ) (Pipeline.ucRefs τ sig) (W3 m c) ∗ R c) ∗ (BI.emp : sProp 𝕄) ∗ levAts L lv)
      ⊢ |={Set.univ}=> iprop((dat1 (V3 m) c).arrays ((dat1 (V3 m) c).arrAt · 0) ∗ Pipeline.prefHeld pre1 c (fun _ => fullShare) tabs
          ∗ (dat1 (V3 m) c).owesAt () 0 ∗ (∃ r, prngReg c r)
          ∗ Pipeline.unscopedRestP (Ix := Unit) (Name := ℕ) (U := UR sig nD τ) (Lvl := ℕ) pre1 spec1 c (V3 m c)) := by
  have etab : ((fun k => W3 m c (pre1.ref k)) : pre1.Contents (Elt FF)) = tabs := by
    funext k
    match k with
    | ⟨0, _⟩ => exact V3_tab0 m c
    | ⟨1, _⟩ => exact V3_tab1 m c
  rw [held_split1, arrays1_eq, etab]
  iintro ⟨⟨⟨⟨H4, H5⟩, Ht, Hrest⟩, Hp, HO⟩, -, -⟩
  ihave H4' := (pointsTo_share (PosShare.mem_left_op_right fullShare)).1 $$ H4
  icases H4' with ⟨H4l, H4r⟩
  ihave H4r' := (pointsTo_share (PosShare.mem_left_op_right fullShare.right)).1 $$ H4r
  icases H4r' with ⟨H4rl, H4rr⟩
  imodintro
  isplitl [H4l H4rl H4rr H5]
  · isplitl [H4l]; · iexact H4l
    isplitl [H4rl]; · iexact H4rl
    isplitl [H4rr]; · iexact H4rr
    iexact H5
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hrest

/-- The attention call changes the output array alone. -/
theorem W4_of_ne (c : Dev nD) (b : Ref sig .tc) (h : b ≠ main_v5) : W4 m c b = W3 m c b := by
  unfold W4; exact Function.update_of_ne (StableHlo.devRef_ne_of_ne h) _ _

/-- and leaves it at what its write-backs make of it. -/
theorem W4_out (c : Dev nD) : W4 m c main_v5 = (dat1 (V3 m) c).arrAt 3 cfgT.N := by
  unfold W4; exact Function.update_self _ _ _

/-- EXIT of the attention call: the three shares of the input array, unchanged, rejoin; the output array is at what
    the write-backs leave; the tables and every bypassing buffer are as entered. -/
theorem hexit1 (c : Dev nD) :
    iprop((dat1 (V3 m) c).arrays ((dat1 (V3 m) c).arrAt · cfgT.N) ∗ (dat1 (V3 m) c).owesAt () (Fin.last cfgT.N) ∗ Y1 c
        ∗ Pipeline.unscopedRestP (Ix := Unit) (Name := ℕ) (U := UR sig nD τ) (Lvl := ℕ) pre1 spec1 c (V3 m c))
      ⊢ |={Set.univ}=> iprop(StableHlo.held (c : Thread nD τ) (Pipeline.ucRefs τ sig) (W4 m c) ∗ R c) := by
  have etab : ((fun k => W4 m c (pre1.ref k)) : pre1.Contents (Elt FF)) = tabs := by
    funext k
    match k with
    | ⟨0, _⟩ => exact (W4_of_ne m c main_c (by decide)).trans (V3_tab0 m c)
    | ⟨1, _⟩ => exact (W4_of_ne m c main_c_0 (by decide)).trans (V3_tab1 m c)
  have erest : (Pipeline.unscopedRestP (Ix := Unit) (Name := ℕ) (U := UR sig nD τ) (Lvl := ℕ) pre1 spec1 c (fun b => W4 m c b) : sProp 𝕄)
      = Pipeline.unscopedRestP pre1 spec1 c (V3 m c) := by
    unfold Pipeline.unscopedRestP
    refine bigSep_congr fun b hb => ?_
    have hne : b ≠ main_v5 := fun e =>
      (Finset.mem_sdiff.mp (Finset.mem_sdiff.mp hb).1).2 (e ▸ Finset.mem_image.mpr ⟨3, Finset.mem_univ _, rfl⟩)
    show ((c : Thread nD τ).loc b ↦{fullShare} W4 m c b) = ((c : Thread nD τ).loc b ↦{fullShare} W3 m c b)
    rw [W4_of_ne m c b hne]
  have h0 : (dat1 (V3 m) c).arrAt 0 cfgT.N = V3 m c main_v4 := (dat1 (V3 m) c).arrAt_in 0 rfl _
  have h1 : (dat1 (V3 m) c).arrAt 1 cfgT.N = V3 m c main_v4 := (dat1 (V3 m) c).arrAt_in 1 rfl _
  have h2 : (dat1 (V3 m) c).arrAt 2 cfgT.N = V3 m c main_v4 := (dat1 (V3 m) c).arrAt_in 2 rfl _
  rw [held_split1, arrays1_eq, etab, erest, W4_of_ne m c main_v4 (by decide), W4_out, h0, h1, h2]
  unfold Y1
  iintro ⟨⟨H4l, H4rl, H4rr, H5⟩, HO, ⟨Hp, Ht0, Ht1⟩, Hrest⟩
  ihave H4r := (pointsTo_share (PosShare.mem_left_op_right fullShare.right)).2 $$ [H4rl H4rr]
  · isplitl [H4rl]; · iexact H4rl
    iexact H4rr
  ihave H4 := (pointsTo_share (PosShare.mem_left_op_right fullShare)).2 $$ [H4l H4r]
  · isplitl [H4l]; · iexact H4l
    iexact H4r
  imodintro
  isplitr [Hp HO]
  · isplitl [H4 H5]
    · isplitl [H4]; · iexact H4
      iexact H5
    isplitl [Ht0 Ht1]
    · unfold Pipeline.prefHeld; rw [bigSep_K2]
      isplitl [Ht0]; · iexact Ht0
      iexact Ht1
    iexact Hrest
  isplitl [Hp]; · iexact Hp
  unfold Pipeline.Dat.owesAt Pipeline.owesWithin
  icases HO with ⟨%W, -, HO⟩; iexists W; iexact HO

/-! ## The segment -/

set_option backward.isDefEq.respectTransparency.types false in
/-- THE ATTENTION CALL AS A SEGMENT, given its body obligation: entered from every unscoped buffer at `W3`, left at
    `W4`; nothing owed; no semaphore of the kernel's own. -/
def reg1 (hb : ∀ c : Dev nD, Pipeline.BodyObligation (dat1 (V3 m) c) (defs₀ (F := FF)) Variants.none () Set.univ) :
    Pipeline.RegionSeg (pcfgs (F := FF)) adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := Y1 c
  Z c := Pipeline.unscopedRestP (Ix := Unit) (Name := ℕ) (U := UR sig nD τ) (Lvl := ℕ) pre1 spec1 c (V3 m c)
  hentry c := by
    rw [Pipeline.ownSems0_none]
    exact hentry1 m c
  hin c := hin1 (V3 m) c
  hout c := by
    rw [Pipeline.ownSems0_none]
    refine (hout1 (V3 m) c).trans ?_
    iintro ⟨HY, Hr⟩
    isplitl [HY]; · iexact HY
    isplitr; · iempintro
    iexact Hr
  hexit c := hexit1 m c

end Cert.KernelIdeal.H

end
-- ==== Proof.KI.R1Sched.lean ====
import proofs.«417288_j44684839747926_3_alg».proof.Proof.KI.R1Dat

/-! The attention call's schedule at the tables, decided once over its eighty points, and what each window's staging
    buffer holds when the body runs: an input window its block of the step; the output window, stored only at the
    diagonal steps and written back exactly there, nothing any earlier step has left. -/

noncomputable section

namespace Cert.KernelIdeal.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt FF) ℕ (UR sig nD τ) ℕ

variable (V : (c : Dev nD) → (b : Ref sig .tc) → Buf (Elt FF) ((c : Thread nD τ).loc b))

/-! ## The schedule, decided over the eighty points -/

/-- The output window is idle exactly off the diagonal steps. -/
theorem idle3 : ∀ t : Fin cfgT.N, cfgT.idle 3 (cfgT.grid.coords t) = !(decide (isDiag (wQ (crd t)) (wK (crd t)))) := by
  decide +kernel

/-- The output window is written back exactly at the diagonal steps. -/
theorem flush3 : ∀ t : Fin cfgT.N, (cfgT.win 3).flush t = decide (isDiag (wQ (crd t)) (wK (crd t))) := by
  decide +kernel

/-- The three input windows are idle nowhere. -/
theorem live0 (i : cfgT.grid.Coords) : cfgT.idle 0 i = false := rfl
theorem live1 (i : cfgT.grid.Coords) : cfgT.idle 1 i = false := rfl
theorem live2 (i : cfgT.grid.Coords) : cfgT.idle 2 i = false := rfl

/-- A step is the diagonal one exactly when its key block is not strictly below its query block. -/
theorem diag_iff_not_below : ∀ t : Fin cfgT.N, isDiag (wQ (crd t)) (wK (crd t)) ↔ ¬ isBelow (wQ (crd t)) (wK (crd t)) := by
  decide +kernel

/-- A step whose key block is not the first is not the call's first step. -/
theorem pos_of_not_first : ∀ t : Fin cfgT.N, ¬ isFirst (wK (crd t)) → t.val ≠ 0 := by
  decide +kernel

/-- At a diagonal step the output window is live and written back; -/
theorem sched_diag (t : Fin cfgT.N) (hd : isDiag (wQ (crd t)) (wK (crd t))) :
    cfgT.idle 3 (cfgT.grid.coords t) = false ∧ (cfgT.win 3).flush t = true := by
  rw [idle3, flush3, decide_eq_true hd]; exact ⟨rfl, rfl⟩

/-- off the diagonal it is idle and kept. -/
theorem sched_below (t : Fin cfgT.N) (hd : ¬ isDiag (wQ (crd t)) (wK (crd t))) :
    cfgT.idle 3 (cfgT.grid.coords t) = true ∧ (cfgT.win 3).flush t = false := by
  rw [idle3, flush3, decide_eq_false hd]; exact ⟨rfl, rfl⟩

/-- The freshness table of the output window: every step finds its buffer holding nothing an earlier step stored —
    a store is written back at its own step, and the steps between two stores are idle. -/
theorem fresh3_step : ∀ t : Fin cfgT.N, true = ((cfgT.win 3).flush t || (cfgT.idle 3 (cfgT.grid.coords t) && true)) := by
  intro t
  rw [idle3, flush3]
  cases decide (isDiag (wQ (crd t)) (wK (crd t))) <;> rfl

theorem fresh3 (t : Fin cfgT.N) : cfgT.fresh 3 t.val = true :=
  Pipeline.Cfg.fresh_tab cfgT 3 (fun _ => true) rfl fresh3_step t.val (Nat.le_of_lt t.isLt)

/-! ## The step function, case by case -/

theorem step1_below (c : Dev nD) (t : Fin cfgT.N) (p : St × Vec FF S1x512x1024 .f32)
    (hf : ¬ isFirst (wK (crd t))) (hd : ¬ isDiag (wQ (crd t)) (wK (crd t))) :
    step1 V c t p = (p.1.upd (iblk1 V c 0 t) (iblk1 V c 1 t) (iblk1 V c 2 t), p.2) := by
  unfold step1; simp only [if_neg hd, if_neg hf]

theorem step1_below_first (c : Dev nD) (t : Fin cfgT.N) (p : St × Vec FF S1x512x1024 .f32)
    (hf : isFirst (wK (crd t))) (hd : ¬ isDiag (wQ (crd t)) (wK (crd t))) :
    step1 V c t p = (St.reset.upd (iblk1 V c 0 t) (iblk1 V c 1 t) (iblk1 V c 2 t), p.2) := by
  unfold step1; simp only [if_neg hd, if_pos hf]

theorem step1_diag (c : Dev nD) (t : Fin cfgT.N) (p : St × Vec FF S1x512x1024 .f32)
    (hf : ¬ isFirst (wK (crd t))) (hd : isDiag (wQ (crd t)) (wK (crd t))) :
    step1 V c t p = (p.1.diag (wQ (crd t)) (wK (crd t)) (iblk1 V c 0 t) (iblk1 V c 1 t) (iblk1 V c 2 t),
      (p.1.diag (wQ (crd t)) (wK (crd t)) (iblk1 V c 0 t) (iblk1 V c 1 t) (iblk1 V c 2 t)).out) := by
  unfold step1; simp only [if_pos hd, if_neg hf]

theorem step1_diag_first (c : Dev nD) (t : Fin cfgT.N) (p : St × Vec FF S1x512x1024 .f32)
    (hf : isFirst (wK (crd t))) (hd : isDiag (wQ (crd t)) (wK (crd t))) :
    step1 V c t p = (St.reset.diag (wQ (crd t)) (wK (crd t)) (iblk1 V c 0 t) (iblk1 V c 1 t) (iblk1 V c 2 t),
      (St.reset.diag (wQ (crd t)) (wK (crd t)) (iblk1 V c 0 t) (iblk1 V c 1 t) (iblk1 V c 2 t)).out) := by
  unfold step1; simp only [if_pos hd, if_pos hf]

/-- The trajectory at a step, from what the step before left (anything, at the first step). -/
theorem traj_eq (c : Dev nD) (t : Fin cfgT.N) :
    traj V c t.val = step1 V c t (if t.val = 0 then (St.junk, fun _ => 0) else traj V c (t.val - 1)) := by
  obtain ⟨n, hn⟩ := t
  cases n with
  | zero => rfl
  | succ n => simp only [Nat.add_one_ne_zero, if_false, Nat.add_sub_cancel]; exact traj_succ V c n hn

/-! ## What each window's staging buffer holds when the body runs -/

/-- An input window holds its block of the step, fetched there or not. -/
theorem before1_0 (c : Dev nD) (t : Fin cfgT.N) (d) : (dat1 V c).before 0 t d = iblk1 V c 0 t :=
  ((dat1 V c).before_in_eq_fetched 0 rfl (fun _ => rfl) (fun _ _ _ => rfl) (fun t => by rw [after1_0]; unfold Dat.blockOf iblk1; rfl) t d).trans
    (by unfold Dat.fetched Dat.blockOf iblk1; rfl)
theorem before1_1 (c : Dev nD) (t : Fin cfgT.N) (d) : (dat1 V c).before 1 t d = iblk1 V c 1 t :=
  ((dat1 V c).before_in_eq_fetched 1 rfl (fun _ => rfl) (fun _ _ _ => rfl) (fun t => by rw [after1_1]; unfold Dat.blockOf iblk1; rfl) t d).trans
    (by unfold Dat.fetched Dat.blockOf iblk1; rfl)
theorem before1_2 (c : Dev nD) (t : Fin cfgT.N) (d) : (dat1 V c).before 2 t d = iblk1 V c 2 t :=
  ((dat1 V c).before_in_eq_fetched 2 rfl (fun _ => rfl) (fun _ _ _ => rfl) (fun t => by rw [after1_2]; unfold Dat.blockOf iblk1; rfl) t d).trans
    (by unfold Dat.fetched Dat.blockOf iblk1; rfl)

/-- The output block's contents carry through the steps that leave it idle. -/
theorem hcarry1_3 (c : Dev nD) : ∀ (t : Fin cfgT.N) (ht : t.val ≠ 0), cfgT.idle 3 (cfgT.grid.coords t) = true → cfgT.fresh 3 t.val = false →
    (dat1 V c).after 3 t = (dat1 V c).after 3 ⟨t.val - 1, by omega⟩ := by
  intro t ht hi _
  have hd : ¬ isDiag (wQ (crd t)) (wK (crd t)) := fun hd => by
    rw [(sched_diag t hd).1] at hi; exact absurd hi (by decide)
  rw [after1_3, after1_3, traj_eq, if_neg ht]
  unfold step1; rw [if_neg hd]

/-- The output window holds, when the body runs: what nothing has determined where no store is left in it, else what
    the step before left. -/
theorem before1_3 (c : Dev nD) (t : Fin cfgT.N) (d) :
    (dat1 V c).before 3 t d = if cfgT.fresh 3 t.val then d else (traj V c (t.val - 1)).2 := by
  rw [(dat1 V c).before_out_traj 3 rfl (fun _ _ => rfl) (hcarry1_3 V c) t.val t rfl d, after1_3]

/-- Nothing is ever left in it: the body finds it at contents nothing has determined. -/
theorem before1_3' (c : Dev nD) (t : Fin cfgT.N) (d) : (dat1 V c).before 3 t d = d := by
  rw [before1_3, fresh3, if_pos rfl]

end Cert.KernelIdeal.H

end
-- ==== Proof.KI.R1BodyB.lean ====
import proofs.«417288_j44684839747926_3_alg».proof.Proof.KI.R1Defs
import Idealize.ShloMosaic.Lib.Pipeline.FrameBody
import Idealize.ShloMosaic.Lib.WholeRead
import Idealize.ShloMosaic.Lib.Ring
import Idealize.ShloMosaic.Lib.Tactic

/-! The attention call's body at a step strictly below the diagonal (key block < query block), as Hoare triples.

    The body loads the step's two table words, which are the schedule's entries `wQ i`, `wK i` (`wordQ`, `wordK`:
    the tables hold ten words each, every grid point is evaluated). Below the diagonal the third conditional (the
    diagonal's masked update and output store) is not taken, and the second (the update with the whole block of
    scores) is. The update reads the query, key and value blocks and the three carried buffers, each whole, and
    stores the new normaliser, accumulator and row maximum, each whole: what the buffers hold afterwards is
    `St.upd` of what they held. When the key block is the first of its row the first conditional stores the reset
    state beforehand, so the update reads `St.reset` instead of what the buffers held on entry. The blocks and the
    tables are handed back as they were. -/

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt FF) ℕ (UR sig nD τ) ℕ

namespace BodyB

/-- The word the body loads from the query-block table at a grid point is that step's table entry. -/
theorem wordQ : ∀ i : grid1.Coords,
    (View.readAt (Elt FF) tbQ.view (Rect.unit (s := S10) (k1_off1 i) S1.size (k1_off1_inb i)).toLoadRect (tabs 0)
      (Shape.Idx.first (numel1_S1.symm ▸ Nat.one_pos)) : BitVec 32) = wQ i := by
  decide +kernel

/-- The word the body loads from the key-block table at a grid point is that step's table entry. -/
theorem wordK : ∀ i : grid1.Coords,
    (View.readAt (Elt FF) tbK.view (Rect.unit (s := S10) (k1_off1 i) S1.size (k1_off1_inb i)).toLoadRect (tabs 1)
      (Shape.Idx.first (numel1_S1.symm ▸ Nat.one_pos)) : BitVec 32) = wK i := by
  decide +kernel

/-- The zero offsets of a whole-buffer access, as the program spells them. -/
theorem zz2 : (![0, 0] : Fin 2 → ℕ) = fun _ => 0 := by funext a; fin_cases a <;> rfl
theorem zz3 : (![0, 0, 0] : Fin 3 → ℕ) = fun _ => 0 := by funext a; fin_cases a <;> rfl

/-- A load of the whole shape through a whole memref held at the contents that read `X` reads `X`. -/
theorem readAt_full_unread {s : Shape} {e : EltTy} {m : Memref sig .tc .vmem s e} (h : m.IsWhole) (X : s.Idx → Elt FF e)
    {off : Fin s.rank → ℕ} (ho : off = fun _ => 0) (inb : ∀ a, off a + s.size a ≤ s.size a) :
    View.readAt (Elt FF) m.view (Rect.unit (s := s) off s.size inb).toLoadRect (h.unread X) = X := by
  funext x; rw [h.readAt_unread]; exact congrFun (View.ld_unit_zero ho inb X) x

/-- A store of the whole shape, the last of a run, leaves its payload, whatever the buffer held and whatever was
    stored before. -/
theorem read_writes_full {κ : Kind} {sp : Space} {s : Shape} {e : EltTy} (v : View sig κ sp s e) (f : v.ty.Contents (Elt FF))
    {off : Fin s.rank → ℕ} (ho : off = fun _ => 0) (inb : ∀ a, off a + s.size a ≤ s.size a) (x : s.Idx → Elt FF e)
    (L : List (View.Piece (Elt FF) s e)) :
    v.read (Elt FF) (v.writes (Elt FF) f ((⟨Rect.unit (s := s) off s.size inb, x⟩ : View.Piece (Elt FF) s e) :: L)) = x := by
  rw [View.read_writes_eq_canon _ _ _ (fun y => ⟨_, List.mem_cons_self, View.mem_set_unit_zero ho inb y⟩),
    View.canon_cons_unit_zero ho]

/-- A load of the whole shape after one store of the whole shape reads the stored payload. -/
theorem readCov_full {κ : Kind} {sp : Space} {s : Shape} {e : EltTy} (v : View sig κ sp s e)
    {off : Fin s.rank → ℕ} (ho : off = fun _ => 0) (inb : ∀ a, off a + s.size a ≤ s.size a) (w : s.Idx → Elt FF e) :
    v.readCov [(⟨Rect.unit (s := s) off s.size inb, w⟩ : View.Piece (Elt FF) s e)] (Rect.unit (s := s) off s.size inb).toLoadRect = w :=
  View.readCov_unit_zero v ho inb w

/-- A whole-shape load of a carried scratch buffer reads its contents. -/
theorem rdM (X : Vec FF S512x1 .f32) :
    View.readAt (Elt FF) scM.view (Rect.unit (s := S512x1) ![0, 0] S512x1.size inb_S512x1_S512x1_0_0).toLoadRect X = X :=
  Memref.readAt_unit_zero (Elt FF) cc1_scratch0 zz2 _ X
theorem rdL (X : Vec FF S512x1 .f32) :
    View.readAt (Elt FF) scL.view (Rect.unit (s := S512x1) ![0, 0] S512x1.size inb_S512x1_S512x1_0_0).toLoadRect X = X :=
  Memref.readAt_unit_zero (Elt FF) cc1_scratch1 zz2 _ X
theorem rdA (X : Vec FF S512x1024 .f32) :
    View.readAt (Elt FF) scA.view (Rect.unit (s := S512x1024) ![0, 0] S512x1024.size inb_S512x1024_S512x1024_0_0).toLoadRect X = X :=
  Memref.readAt_unit_zero (Elt FF) cc1_scratch2 zz2 _ X

end BodyB

open BodyB

set_option maxHeartbeats 400000 in
/-- A step strictly below the diagonal whose key block is not the first of its row: from the carried buffers at `S`
    the body leaves them at `S.upd` of the step's query, key and value blocks; the blocks, the output window's
    buffer and the tables are untouched. -/
theorem body_below (c : Dev nD) (E : Set ℕ) (i : grid1.Coords)
    (arg4 arg5 arg6 : Memref sig .tc .vmem S1x512x1024 .bf16) (h4 : arg4.IsWhole) (h5 : arg5.IsWhole) (h6 : arg6.IsWhole)
    (arg7 : Memref sig .tc .vmem S1x512x1024 .f32) (h7 : arg7.IsWhole)
    (x4 x5 x6 : Vec FF S1x512x1024 .bf16) (d7 : Vec FF S1x512x1024 .f32) (S : St) (qt : PosShare TreeShare)
    (hf : ¬ isFirst (wK i)) (hb : isBelow (wQ i) (wK i)) (hd : ¬ isDiag (wQ i) (wK i)) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare d7
        ∗ owns (c : Thread nD τ) scM fullShare S.m ∗ owns (c : Thread nD τ) scL fullShare S.l ∗ owns (c : Thread nD τ) scA fullShare S.a
        ∗ (((c : Thread nD τ).loc main_c) ↦{qt} tabs 0) ∗ (((c : Thread nD τ).loc main_c_0) ↦{qt} tabs 1)
        ∗ (iprop(owns (c : Thread nD τ) arg4 fullShare x4 ∗ owns (c : Thread nD τ) arg5 fullShare x5 ∗ owns (c : Thread nD τ) arg6 fullShare x6 ∗ owns (c : Thread nD τ) arg7 fullShare d7
              ∗ owns (c : Thread nD τ) scM fullShare (S.upd x4 x5 x6).m ∗ owns (c : Thread nD τ) scL fullShare (S.upd x4 x5 x6).l ∗ owns (c : Thread nD τ) scA fullShare (S.upd x4 x5 x6).a
              ∗ (((c : Thread nD τ).loc main_c) ↦{qt} tabs 0) ∗ (((c : Thread nD τ).loc main_c_0) ↦{qt} tabs 1)) -∗ K ⟨⟩))
      ⊢ wp frame (wpE (defs₀ (F := FF)) Variants.none c none) E
          (cc1_kernel (F := FF) i tbQ (Memref.isWhole_whole _) tbK (Memref.isWhole_whole _) arg4 h4 arg5 h5 arg6 h6 arg7 h7 scM (Memref.isWhole_whole _) scL (Memref.isWhole_whole _) scA (Memref.isWhole_whole _)) K := by
  simp only [cc1_kernel_eq_skeleton]; unfold cc1_kernel_skel
  simp only [k1_part1_eq_skeleton, k1_part2_eq_skeleton]
  unfold owns
  iintro ⟨⟨%f4, %hf4, H4⟩, ⟨%f5, %hf5, H5⟩, ⟨%f6, %hf6, H6⟩, ⟨%f7, %hf7, H7⟩, ⟨%fM, %hfM, HM⟩, ⟨%fL, %hfL, HL⟩, ⟨%fA, %hfA, HA⟩, HT0, HT1, Hk⟩
  obtain rfl := h4.eq_unread hf4; obtain rfl := h5.eq_unread hf5; obtain rfl := h6.eq_unread hf6; obtain rfl := h7.eq_unread hf7
  have hfM' : fM = S.m := hfM
  have hfL' : fL = S.l := hfL
  have hfA' : fA = S.a := hfA
  subst hfM' hfL' hfA'
  have hTQ : tbQ.IsWhole := Memref.isWhole_whole _
  have hTK : tbK.IsWhole := Memref.isWhole_whole _
  have hSM : scM.IsWhole := Memref.isWhole_whole _
  have hSL : scL.IsWhole := Memref.isWhole_whole _
  have hSA : scA.IsWhole := Memref.isWhole_whole _
  ihave HQ : (tbQ.view.loc (c : Thread nD τ) ↦{qt} tabs 0) $$ [HT0]
  · iexact HT0
  ihave HK : (tbK.view.loc (c : Thread nD τ) ↦{qt} tabs 1) $$ [HT1]
  · iexact HT1
  have hf' := hf; have hb' := hb; have hd' := hd
  rw [← wordK i] at hf'
  rw [← wordQ i, ← wordK i] at hb' hd'
  clear hf hb hd hf4 hf5 hf6 hf7 hfM hfL hfA
  sl_exec (disch := first | sl_exact hf' | sl_exact hb' | sl_exact hd')
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [HM]
  · iexists _; isplitr; swap; · iexact HM
    ipureintro
    refine (read_writes_full _ _ zz2 _ _ _).trans ?_
    unfold body_below.sl.r_2
    rw [readAt_full_unread h4 x4 zz3, readAt_full_unread h5 x5 zz3, rdM]
    rfl
  isplitl [HL]
  · iexists _; isplitr; swap; · iexact HL
    ipureintro
    refine (read_writes_full _ _ zz2 _ _ _).trans ?_
    rw [readAt_full_unread h4 x4 zz3, readAt_full_unread h5 x5 zz3, rdM, rdL]
    rfl
  isplitl [HA]
  · iexists _; isplitr; swap; · iexact HA
    ipureintro
    refine (read_writes_full _ _ zz2 _ _ _).trans ?_
    unfold body_below.sl.r_3
    rw [readAt_full_unread h4 x4 zz3, readAt_full_unread h5 x5 zz3, readAt_full_unread h6 x6 zz3, rdM, rdA]
    rfl
  isplitl [HQ]; · iexact HQ
  iexact HK

set_option maxHeartbeats 400000 in
set_option sl_exec.pinEarly false in
/-- A step strictly below the diagonal whose key block is the first of its row: the body first stores the reset state
    over whatever the carried buffers held (`S` is arbitrary), then updates it: it leaves the buffers at
    `St.reset.upd` of the step's query, key and value blocks. -/
theorem body_below_first (c : Dev nD) (E : Set ℕ) (i : grid1.Coords)
    (arg4 arg5 arg6 : Memref sig .tc .vmem S1x512x1024 .bf16) (h4 : arg4.IsWhole) (h5 : arg5.IsWhole) (h6 : arg6.IsWhole)
    (arg7 : Memref sig .tc .vmem S1x512x1024 .f32) (h7 : arg7.IsWhole)
    (x4 x5 x6 : Vec FF S1x512x1024 .bf16) (d7 : Vec FF S1x512x1024 .f32) (S : St) (qt : PosShare TreeShare)
    (hf : isFirst (wK i)) (hb : isBelow (wQ i) (wK i)) (hd : ¬ isDiag (wQ i) (wK i)) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare d7
        ∗ owns (c : Thread nD τ) scM fullShare S.m ∗ owns (c : Thread nD τ) scL fullShare S.l ∗ owns (c : Thread nD τ) scA fullShare S.a
        ∗ (((c : Thread nD τ).loc main_c) ↦{qt} tabs 0) ∗ (((c : Thread nD τ).loc main_c_0) ↦{qt} tabs 1)
        ∗ (iprop(owns (c : Thread nD τ) arg4 fullShare x4 ∗ owns (c : Thread nD τ) arg5 fullShare x5 ∗ owns (c : Thread nD τ) arg6 fullShare x6 ∗ owns (c : Thread nD τ) arg7 fullShare d7
              ∗ owns (c : Thread nD τ) scM fullShare (St.reset.upd x4 x5 x6).m ∗ owns (c : Thread nD τ) scL fullShare (St.reset.upd x4 x5 x6).l ∗ owns (c : Thread nD τ) scA fullShare (St.reset.upd x4 x5 x6).a
              ∗ (((c : Thread nD τ).loc main_c) ↦{qt} tabs 0) ∗ (((c : Thread nD τ).loc main_c_0) ↦{qt} tabs 1)) -∗ K ⟨⟩))
      ⊢ wp frame (wpE (defs₀ (F := FF)) Variants.none c none) E
          (cc1_kernel (F := FF) i tbQ (Memref.isWhole_whole _) tbK (Memref.isWhole_whole _) arg4 h4 arg5 h5 arg6 h6 arg7 h7 scM (Memref.isWhole_whole _) scL (Memref.isWhole_whole _) scA (Memref.isWhole_whole _)) K := by
  simp only [cc1_kernel_eq_skeleton]; unfold cc1_kernel_skel
  simp only [k1_part1_eq_skeleton, k1_part2_eq_skeleton]
  unfold owns
  iintro ⟨⟨%f4, %hf4, H4⟩, ⟨%f5, %hf5, H5⟩, ⟨%f6, %hf6, H6⟩, ⟨%f7, %hf7, H7⟩, ⟨%fM, %hfM, HM⟩, ⟨%fL, %hfL, HL⟩, ⟨%fA, %hfA, HA⟩, HT0, HT1, Hk⟩
  obtain rfl := h4.eq_unread hf4; obtain rfl := h5.eq_unread hf5; obtain rfl := h6.eq_unread hf6; obtain rfl := h7.eq_unread hf7
  have hfM' : fM = S.m := hfM
  have hfL' : fL = S.l := hfL
  have hfA' : fA = S.a := hfA
  subst hfM' hfL' hfA'
  have hTQ : tbQ.IsWhole := Memref.isWhole_whole _
  have hTK : tbK.IsWhole := Memref.isWhole_whole _
  have hSM : scM.IsWhole := Memref.isWhole_whole _
  have hSL : scL.IsWhole := Memref.isWhole_whole _
  have hSA : scA.IsWhole := Memref.isWhole_whole _
  ihave HQ : (tbQ.view.loc (c : Thread nD τ) ↦{qt} tabs 0) $$ [HT0]
  · iexact HT0
  ihave HK : (tbK.view.loc (c : Thread nD τ) ↦{qt} tabs 1) $$ [HT1]
  · iexact HT1
  have hf' := hf; have hb' := hb; have hd' := hd
  rw [← wordK i] at hf'
  rw [← wordQ i, ← wordK i] at hb' hd'
  clear hf hb hd hf4 hf5 hf6 hf7 hfM hfL hfA
  sl_exec (disch := first | sl_exact hf' | sl_exact hb' | sl_exact hd')
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [HM]
  · iexists _; isplitr; swap; · iexact HM
    ipureintro
    refine (read_writes_full _ _ zz2 _ _ _).trans ?_
    unfold body_below_first.sl.r_2 body_below_first.sl.v23 body_below_first.sl.HM_1
    rw [readAt_full_unread h4 x4 zz3, readAt_full_unread h5 x5 zz3, readCov_full _ zz2]
    rfl
  isplitl [HL]
  · iexists _; isplitr; swap; · iexact HL
    ipureintro
    refine (read_writes_full _ _ zz2 _ _ _).trans ?_
    unfold body_below_first.sl.v23 body_below_first.sl.v32 body_below_first.sl.HM_1 body_below_first.sl.HL_1
    rw [readAt_full_unread h4 x4 zz3, readAt_full_unread h5 x5 zz3, readCov_full _ zz2, readCov_full _ zz2]
    rfl
  isplitl [HA]
  · iexists _; isplitr; swap; · iexact HA
    ipureintro
    refine (read_writes_full _ _ zz2 _ _ _).trans ?_
    unfold body_below_first.sl.r_3 body_below_first.sl.v23 body_below_first.sl.v40 body_below_first.sl.HM_1 body_below_first.sl.HA_1
    rw [readAt_full_unread h4 x4 zz3, readAt_full_unread h5 x5 zz3, readAt_full_unread h6 x6 zz3, readCov_full _ zz2, readCov_full _ zz2]
    rfl
  isplitl [HQ]; · iexact HQ
  iexact HK

end Cert.KernelIdeal.H

end
-- ==== Proof.KI.R1BodyD.lean ====
import proofs.«417288_j44684839747926_3_alg».proof.Proof.KI.R1Defs
import Idealize.ShloMosaic.Lib.Pipeline.FrameBody
import Idealize.ShloMosaic.Lib.Pipeline.Value
import Idealize.ShloMosaic.Lib.Tactic
import Idealize.ShloMosaic.Lib.Exec

/-! The attention call's body on the diagonal of the causal schedule (key block = query block), as Hoare triples over
    whole staging memrefs. The body loads its two table words, which at grid point `i` are entry `i 1` of each table;
    on the diagonal the masked block enters the carried state (normaliser, then accumulator, then maximum are stored,
    each computed from the state as it was read) and the quotient of the NEW accumulator by the NEW normaliser is stored
    in the output block. When the key block is also the first, the carried state is reset before that, so the step
    starts from the reset state whatever the scratch held. -/

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt FF) ℕ (UR sig nD τ) ℕ

/-- The query-block word the body loads at grid point `i` is entry `i 1` of the first table. -/
theorem rdQ (i : grid1.Coords) :
    View.readAt (Elt FF) tbQ.view (Rect.unit (s := S10) (k1_off1 i) S1.size (k1_off1_inb i)).toLoadRect (tabs 0)
      (Shape.Idx.first (numel1_S1.symm ▸ Nat.one_pos)) = wQ i := by
  revert i; decide +kernel

/-- The key-block word the body loads at grid point `i` is entry `i 1` of the second table. -/
theorem rdK (i : grid1.Coords) :
    View.readAt (Elt FF) tbK.view (Rect.unit (s := S10) (k1_off1 i) S1.size (k1_off1_inb i)).toLoadRect (tabs 1)
      (Shape.Idx.first (numel1_S1.symm ▸ Nat.one_pos)) = wK i := by
  revert i; decide +kernel

/-- A load through the whole-shape rectangle at zero offsets, of a whole memref held at the contents that read `X`,
    reads `X`. -/
theorem readAt_unread_whole {κ : Kind} {sp : Space} {s : Shape} {e : EltTy} {m : Memref sig κ sp s e} (h : m.IsWhole)
    (X : s.Idx → Elt FF e) {off : Fin s.rank → Nat} (ho : off = fun _ => 0) (inb : ∀ a, off a + s.size a ≤ s.size a) :
    View.readAt (Elt FF) m.view (Rect.unit (s := s) off s.size inb).toLoadRect (h.unread X) = X := by
  rw [View.readAt_eq_ld, h.read_unread, View.ld_unit_zero ho]

/-- A last store through the whole-shape rectangle at zero offsets leaves its payload, whatever the earlier stores and
    the contents before them. -/
theorem read_writes_whole_cons {κ : Kind} {sp : Space} {s : Shape} {e : EltTy} (v : View sig κ sp s e) (f : v.ty.Contents (Elt FF))
    {off : Fin s.rank → Nat} (ho : off = fun _ => 0) (inb : ∀ a, off a + s.size a ≤ s.size a) (w : s.Idx → Elt FF e)
    (L : List (View.Piece (Elt FF) s e)) :
    v.read (Elt FF) (v.writes (Elt FF) f ((⟨Rect.unit (s := s) off s.size inb, w⟩ : View.Piece (Elt FF) s e) :: L)) = w := by
  rw [View.read_writes_eq_canon _ _ _ (fun y => ⟨_, List.mem_cons_self, View.mem_set_unit_zero ho inb y⟩),
    View.canon_cons_unit_zero ho]

/-- A load through that rectangle after such a store reads the payload. -/
theorem readCov_whole_cons {κ : Kind} {sp : Space} {s : Shape} {e : EltTy} (v : View sig κ sp s e)
    {off : Fin s.rank → Nat} (ho : off = fun _ => 0) (inb : ∀ a, off a + s.size a ≤ s.size a) (w : s.Idx → Elt FF e)
    (L : List (View.Piece (Elt FF) s e)) :
    v.readCov ((⟨Rect.unit (s := s) off s.size inb, w⟩ : View.Piece (Elt FF) s e) :: L) (Rect.unit (s := s) off s.size inb).toLoadRect = w := by
  rw [View.readCov_eq_canon_ld _ _ _ (fun y => ⟨_, List.mem_cons_self, View.mem_set_unit_zero ho inb y⟩),
    View.canon_cons_unit_zero ho, View.ld_unit_zero ho]

theorem z3 : (![0, 0, 0] : Fin 3 → Nat) = fun _ => 0 := by decide
theorem z2 : (![0, 0] : Fin 2 → Nat) = fun _ => 0 := by decide

set_option sl_exec.pinEarly false in
set_option maxHeartbeats 1000000 in
/-- The diagonal step that is not the first of its row: from the carried state `S` the body leaves `S.diag` of the
    step's words and blocks in the scratch buffers and its quotient in the output block; the inputs and the tables are
    as they were. -/
theorem body_diag (c : Dev nD) (E : Set ℕ) (i : grid1.Coords)
    (arg4 arg5 arg6 : Memref sig .tc .vmem S1x512x1024 .bf16) (h4 : arg4.IsWhole) (h5 : arg5.IsWhole) (h6 : arg6.IsWhole)
    (arg7 : Memref sig .tc .vmem S1x512x1024 .f32) (h7 : arg7.IsWhole)
    (x4 x5 x6 : Vec FF S1x512x1024 .bf16) (d7 : Vec FF S1x512x1024 .f32) (S : St) (qt : PosShare TreeShare)
    (hf : ¬ isFirst (wK i)) (hb : ¬ isBelow (wQ i) (wK i)) (hd : isDiag (wQ i) (wK i)) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare d7
        ∗ owns (c : Thread nD τ) scM fullShare S.m ∗ owns (c : Thread nD τ) scL fullShare S.l ∗ owns (c : Thread nD τ) scA fullShare S.a
        ∗ (((c : Thread nD τ).loc main_c) ↦{qt} tabs 0) ∗ (((c : Thread nD τ).loc main_c_0) ↦{qt} tabs 1)
        ∗ (iprop(owns (c : Thread nD τ) arg4 fullShare x4 ∗ owns (c : Thread nD τ) arg5 fullShare x5 ∗ owns (c : Thread nD τ) arg6 fullShare x6
              ∗ owns (c : Thread nD τ) arg7 fullShare (S.diag (wQ i) (wK i) x4 x5 x6).out
              ∗ owns (c : Thread nD τ) scM fullShare (S.diag (wQ i) (wK i) x4 x5 x6).m ∗ owns (c : Thread nD τ) scL fullShare (S.diag (wQ i) (wK i) x4 x5 x6).l ∗ owns (c : Thread nD τ) scA fullShare (S.diag (wQ i) (wK i) x4 x5 x6).a
              ∗ (((c : Thread nD τ).loc main_c) ↦{qt} tabs 0) ∗ (((c : Thread nD τ).loc main_c_0) ↦{qt} tabs 1)) -∗ K ⟨⟩))
      ⊢ wp frame (wpE (defs₀ (F := FF)) Variants.none c none) E
          (cc1_kernel (F := FF) i tbQ (Memref.isWhole_whole _) tbK (Memref.isWhole_whole _) arg4 h4 arg5 h5 arg6 h6 arg7 h7 scM (Memref.isWhole_whole _) scL (Memref.isWhole_whole _) scA (Memref.isWhole_whole _)) K := by
  have eQ : (((c : Thread nD τ).loc main_c) ↦{qt} tabs 0 : sProp 𝕄) = (tbQ.view.loc (c : Thread nD τ) ↦{qt} tabs 0) := rfl
  have eK : (((c : Thread nD τ).loc main_c_0) ↦{qt} tabs 1 : sProp 𝕄) = (tbK.view.loc (c : Thread nD τ) ↦{qt} tabs 1) := rfl
  rw [eQ, eK]; clear eQ eK
  unfold owns
  rw [cc1_kernel_eq_skeleton]; unfold cc1_kernel_skel
  iintro ⟨⟨%f4, %hf4, H4⟩, ⟨%f5, %hf5, H5⟩, ⟨%f6, %hf6, H6⟩, ⟨%f7, %hf7, H7⟩, ⟨%fm, %hfm, HM⟩, ⟨%fl, %hfl, HL⟩, ⟨%fa, %hfa, HA⟩, HTQ, HTK, Hk⟩
  obtain rfl := h4.eq_unread hf4; obtain rfl := h5.eq_unread hf5; obtain rfl := h6.eq_unread hf6; obtain rfl := h7.eq_unread hf7
  obtain rfl := (Memref.isWhole_whole _).eq_unread hfm; obtain rfl := (Memref.isWhole_whole _).eq_unread hfl; obtain rfl := (Memref.isWhole_whole _).eq_unread hfa
  clear hf4 hf5 hf6 hf7 hfm hfl hfa
  rw [← rdK i] at hf; rw [← rdQ i, ← rdK i] at hb hd
  sl_exec (disch := first | sl_exact hf | sl_exact hb | sl_exact hd)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    rw [read_writes_whole_cons _ _ z3]
    unfold body_diag.sl.v63 body_diag.sl.v64 body_diag.sl.HA_1 body_diag.sl.HL_1
    rw [readCov_whole_cons _ z2, readCov_whole_cons _ z2]
    unfold body_diag.sl.r_2 body_diag.sl.r_4 body_diag.sl.r_5 body_diag.sl.r_6 body_diag.sl.v51 body_diag.sl.v34 body_diag.sl.v43 body_diag.sl.r body_diag.sl.r_1
    rw [rdQ, rdK, readAt_unread_whole h4 x4 z3, readAt_unread_whole h5 x5 z3, readAt_unread_whole h6 x6 z3,
      readAt_unread_whole _ S.m z2, readAt_unread_whole _ S.l z2, readAt_unread_whole _ S.a z2]
    rfl
  isplitl [HM]
  · iexists _; isplitr; swap; · iexact HM
    ipureintro
    rw [read_writes_whole_cons _ _ z2]
    unfold body_diag.sl.r_3 body_diag.sl.v34 body_diag.sl.r body_diag.sl.r_1
    rw [rdQ, rdK, readAt_unread_whole h4 x4 z3, readAt_unread_whole h5 x5 z3, readAt_unread_whole _ S.m z2]
    rfl
  isplitl [HL]
  · iexists _; isplitr; swap; · iexact HL
    ipureintro
    unfold body_diag.sl.HL_1
    rw [read_writes_whole_cons _ _ z2]
    unfold body_diag.sl.r_6 body_diag.sl.v34 body_diag.sl.v43 body_diag.sl.r body_diag.sl.r_1
    rw [rdQ, rdK, readAt_unread_whole h4 x4 z3, readAt_unread_whole h5 x5 z3, readAt_unread_whole _ S.m z2,
      readAt_unread_whole _ S.l z2]
    rfl
  isplitl [HA]
  · iexists _; isplitr; swap; · iexact HA
    ipureintro
    unfold body_diag.sl.HA_1
    rw [read_writes_whole_cons _ _ z2]
    unfold body_diag.sl.r_2 body_diag.sl.r_4 body_diag.sl.r_5 body_diag.sl.v51 body_diag.sl.v34 body_diag.sl.r body_diag.sl.r_1
    rw [rdQ, rdK, readAt_unread_whole h4 x4 z3, readAt_unread_whole h5 x5 z3, readAt_unread_whole h6 x6 z3,
      readAt_unread_whole _ S.m z2, readAt_unread_whole _ S.a z2]
    rfl
  isplitl [HTQ]; · iexact HTQ
  iexact HTK

set_option sl_exec.pinEarly false in
set_option maxHeartbeats 1000000 in
/-- The diagonal step that is also the first of its row (query block 0): the carried state is reset first, so whatever
    the scratch buffers held the body leaves `St.reset.diag` of the step's words and blocks in them and its quotient in
    the output block. -/
theorem body_diag_first (c : Dev nD) (E : Set ℕ) (i : grid1.Coords)
    (arg4 arg5 arg6 : Memref sig .tc .vmem S1x512x1024 .bf16) (h4 : arg4.IsWhole) (h5 : arg5.IsWhole) (h6 : arg6.IsWhole)
    (arg7 : Memref sig .tc .vmem S1x512x1024 .f32) (h7 : arg7.IsWhole)
    (x4 x5 x6 : Vec FF S1x512x1024 .bf16) (d7 : Vec FF S1x512x1024 .f32) (S : St) (qt : PosShare TreeShare)
    (hf : isFirst (wK i)) (hb : ¬ isBelow (wQ i) (wK i)) (hd : isDiag (wQ i) (wK i)) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare d7
        ∗ owns (c : Thread nD τ) scM fullShare S.m ∗ owns (c : Thread nD τ) scL fullShare S.l ∗ owns (c : Thread nD τ) scA fullShare S.a
        ∗ (((c : Thread nD τ).loc main_c) ↦{qt} tabs 0) ∗ (((c : Thread nD τ).loc main_c_0) ↦{qt} tabs 1)
        ∗ (iprop(owns (c : Thread nD τ) arg4 fullShare x4 ∗ owns (c : Thread nD τ) arg5 fullShare x5 ∗ owns (c : Thread nD τ) arg6 fullShare x6
              ∗ owns (c : Thread nD τ) arg7 fullShare (St.reset.diag (wQ i) (wK i) x4 x5 x6).out
              ∗ owns (c : Thread nD τ) scM fullShare (St.reset.diag (wQ i) (wK i) x4 x5 x6).m ∗ owns (c : Thread nD τ) scL fullShare (St.reset.diag (wQ i) (wK i) x4 x5 x6).l ∗ owns (c : Thread nD τ) scA fullShare (St.reset.diag (wQ i) (wK i) x4 x5 x6).a
              ∗ (((c : Thread nD τ).loc main_c) ↦{qt} tabs 0) ∗ (((c : Thread nD τ).loc main_c_0) ↦{qt} tabs 1)) -∗ K ⟨⟩))
      ⊢ wp frame (wpE (defs₀ (F := FF)) Variants.none c none) E
          (cc1_kernel (F := FF) i tbQ (Memref.isWhole_whole _) tbK (Memref.isWhole_whole _) arg4 h4 arg5 h5 arg6 h6 arg7 h7 scM (Memref.isWhole_whole _) scL (Memref.isWhole_whole _) scA (Memref.isWhole_whole _)) K := by
  have eQ : (((c : Thread nD τ).loc main_c) ↦{qt} tabs 0 : sProp 𝕄) = (tbQ.view.loc (c : Thread nD τ) ↦{qt} tabs 0) := rfl
  have eK : (((c : Thread nD τ).loc main_c_0) ↦{qt} tabs 1 : sProp 𝕄) = (tbK.view.loc (c : Thread nD τ) ↦{qt} tabs 1) := rfl
  rw [eQ, eK]; clear eQ eK
  unfold owns
  rw [cc1_kernel_eq_skeleton]; unfold cc1_kernel_skel
  iintro ⟨⟨%f4, %hf4, H4⟩, ⟨%f5, %hf5, H5⟩, ⟨%f6, %hf6, H6⟩, ⟨%f7, %hf7, H7⟩, ⟨%fm, %hfm, HM⟩, ⟨%fl, %hfl, HL⟩, ⟨%fa, %hfa, HA⟩, HTQ, HTK, Hk⟩
  obtain rfl := h4.eq_unread hf4; obtain rfl := h5.eq_unread hf5; obtain rfl := h6.eq_unread hf6; obtain rfl := h7.eq_unread hf7
  obtain rfl := (Memref.isWhole_whole _).eq_unread hfm; obtain rfl := (Memref.isWhole_whole _).eq_unread hfl; obtain rfl := (Memref.isWhole_whole _).eq_unread hfa
  clear hf4 hf5 hf6 hf7 hfm hfl hfa
  rw [← rdK i] at hf; rw [← rdQ i, ← rdK i] at hb hd
  sl_exec (disch := first | sl_exact hf | sl_exact hb | sl_exact hd)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    rw [read_writes_whole_cons _ _ z3]
    unfold body_diag_first.sl.v63 body_diag_first.sl.v64 body_diag_first.sl.HA_2 body_diag_first.sl.HL_2
    rw [readCov_whole_cons _ z2, readCov_whole_cons _ z2]
    unfold body_diag_first.sl.r_2 body_diag_first.sl.r_4 body_diag_first.sl.r_5 body_diag_first.sl.r_6 body_diag_first.sl.v51 body_diag_first.sl.v34 body_diag_first.sl.v43 body_diag_first.sl.HA_1 body_diag_first.sl.HL_1 body_diag_first.sl.HM_1 body_diag_first.sl.r body_diag_first.sl.r_1
    rw [rdQ, rdK, readAt_unread_whole h4 x4 z3, readAt_unread_whole h5 x5 z3, readAt_unread_whole h6 x6 z3,
      readCov_whole_cons _ z2, readCov_whole_cons _ z2, readCov_whole_cons _ z2]
    rfl
  isplitl [HM]
  · iexists _; isplitr; swap; · iexact HM
    ipureintro
    rw [read_writes_whole_cons _ _ z2]
    unfold body_diag_first.sl.r_3 body_diag_first.sl.v34 body_diag_first.sl.HM_1 body_diag_first.sl.r body_diag_first.sl.r_1
    rw [rdQ, rdK, readAt_unread_whole h4 x4 z3, readAt_unread_whole h5 x5 z3, readCov_whole_cons _ z2]
    rfl
  isplitl [HL]
  · iexists _; isplitr; swap; · iexact HL
    ipureintro
    unfold body_diag_first.sl.HL_2
    rw [read_writes_whole_cons _ _ z2]
    unfold body_diag_first.sl.r_6 body_diag_first.sl.v34 body_diag_first.sl.v43 body_diag_first.sl.HM_1 body_diag_first.sl.HL_1 body_diag_first.sl.r body_diag_first.sl.r_1
    rw [rdQ, rdK, readAt_unread_whole h4 x4 z3, readAt_unread_whole h5 x5 z3, readCov_whole_cons _ z2,
      readCov_whole_cons _ z2]
    rfl
  isplitl [HA]
  · iexists _; isplitr; swap; · iexact HA
    ipureintro
    unfold body_diag_first.sl.HA_2
    rw [read_writes_whole_cons _ _ z2]
    unfold body_diag_first.sl.r_2 body_diag_first.sl.r_4 body_diag_first.sl.r_5 body_diag_first.sl.v51 body_diag_first.sl.v34 body_diag_first.sl.HM_1 body_diag_first.sl.HA_1 body_diag_first.sl.r body_diag_first.sl.r_1
    rw [rdQ, rdK, readAt_unread_whole h4 x4 z3, readAt_unread_whole h5 x5 z3, readAt_unread_whole h6 x6 z3,
      readCov_whole_cons _ z2, readCov_whole_cons _ z2]
    rfl
  isplitl [HTQ]; · iexact HTQ
  iexact HTK

end Cert.KernelIdeal.H

end
-- ==== Proof.KI.R1Obl.lean ====
import proofs.«417288_j44684839747926_3_alg».proof.Proof.KI.R1Sched
import proofs.«417288_j44684839747926_3_alg».proof.Proof.KI.R1BodyB
import proofs.«417288_j44684839747926_3_alg».proof.Proof.KI.R1BodyD

/-! The attention call's body obligation: at every step, from the invariant and each window's staging buffer at what it
    then holds, the body runs to the invariant at the next step and each buffer at what the step leaves. The step's two
    table words tell which of the body's four triples applies — the diagonal step or one strictly below it, at the first
    key block or a later one —; the step function's case equation names what that triple leaves in the scratch buffers
    and the output block; the decided idle and write-back tables of the output window reduce the post. -/

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt FF) ℕ (UR sig nD τ) ℕ

variable (V : (c : Dev nD) → (b : Ref sig .tc) → Buf (Elt FF) ((c : Thread nD τ).loc b))

/-! ## The body at a step, as the pipeline calls it -/

/-- Each window's current staging memref at step t, and its wholeness. -/
abbrev ms0 (t : Fin cfgT.N) : Memref sig .tc .vmem S1x512x1024 .bf16 := spec1_0.stage (cfgT.slots t 0)
abbrev hs0 (t : Fin cfgT.N) : (ms0 t).IsWhole := hstage1_0 ((cfgT.slots t 0).cast nbuf1_0)
abbrev ms1 (t : Fin cfgT.N) : Memref sig .tc .vmem S1x512x1024 .bf16 := spec1_1.stage (cfgT.slots t 1)
abbrev hs1 (t : Fin cfgT.N) : (ms1 t).IsWhole := hstage1_1 ((cfgT.slots t 1).cast nbuf1_1)
abbrev ms2 (t : Fin cfgT.N) : Memref sig .tc .vmem S1x512x1024 .bf16 := spec1_2.stage (cfgT.slots t 2)
abbrev hs2 (t : Fin cfgT.N) : (ms2 t).IsWhole := hstage1_2 ((cfgT.slots t 2).cast nbuf1_2)
abbrev ms3 (t : Fin cfgT.N) : Memref sig .tc .vmem S1x512x1024 .f32 := spec1_3.stage (cfgT.slots t 3)
abbrev hs3 (t : Fin cfgT.N) : (ms3 t).IsWhole := hstage1_3 ((cfgT.slots t 3).cast nbuf1_3)

/-- The body at step t on its staging memrefs, the two tables and the three scratch buffers. -/
abbrev bodyAt1 (t : Fin cfgT.N) : Prog (TpuEff nD τ sig (Elt FF) Λ₀ .tc) PUnit :=
  cc1_kernel (F := FF) (crd t) tbQ (Memref.isWhole_whole _) tbK (Memref.isWhole_whole _) (ms0 t) (hs0 t) (ms1 t) (hs1 t) (ms2 t) (hs2 t) (ms3 t) (hs3 t)
    scM (Memref.isWhole_whole _) scL (Memref.isWhole_whole _) scA (Memref.isWhole_whole _)

/-! ## The body obligation -/

set_option maxHeartbeats 4000000 in
/-- THE BODY OBLIGATION at step t: the step's two table words tell the case (the diagonal step or one strictly below
    it; the first key block or a later one); the inputs hold their blocks, the output buffer anything, the scratch
    buffers what the step before left (anything, where the step resets them); the case's triple applies; the step
    function's case equation names what it leaves, and the decided idle and write-back tables reduce the post. -/
theorem sound_body1 (c : Dev nD) (t : Fin cfgT.N) :
    iprop((dat1 V c).Φ t.castSucc ∗ (dat1 V c).owesAt () t.castSucc
        ∗ (∃ d, owns (c : Thread nD τ) (ms0 t) fullShare ((dat1 V c).before 0 t d))
        ∗ (∃ d, owns (c : Thread nD τ) (ms1 t) fullShare ((dat1 V c).before 1 t d))
        ∗ (∃ d, owns (c : Thread nD τ) (ms2 t) fullShare ((dat1 V c).before 2 t d))
        ∗ (∃ d, owns (c : Thread nD τ) (ms3 t) fullShare ((dat1 V c).before 3 t d)))
      ⊢ wp frame (wpE (defs₀ (F := FF)) Variants.none c none) Set.univ (bodyAt1 t) fun _ =>
          iprop((dat1 V c).Φ t.succ ∗ (dat1 V c).owesAt () t.succ
            ∗ bigSep Finset.univ fun w : Fin cfgT.W =>
                match cfgT.idle w (cfgT.grid.coords t) with
                | true =>
                  match (cfgT.win w).flush t with
                  | false => iprop(∃ d, owns (c : Thread nD τ) ((cfgT.win w).stage (cfgT.slots t w)) fullShare ((dat1 V c).before w t d))
                  | true => owns (c : Thread nD τ) ((cfgT.win w).stage (cfgT.slots t w)) fullShare ((dat1 V c).after w t)
                | false => owns (c : Thread nD τ) ((cfgT.win w).stage (cfgT.slots t w)) fullShare ((dat1 V c).after w t)) := by
  rw [bigSep_W1]
  by_cases hd : isDiag (wQ (crd t)) (wK (crd t))
  · -- THE DIAGONAL STEP: the output window is live and written back
    have hb : ¬ isBelow (wQ (crd t)) (wK (crd t)) := (diag_iff_not_below t).mp hd
    obtain ⟨i3, f3⟩ := sched_diag t hd
    by_cases hf : isFirst (wK (crd t))
    · -- its key block is the first: the carried state is reset, whatever it was
      rewrite [i3]
      simp only [before1_0, before1_1, before1_2, before1_3', after1_0, after1_1, after1_2, after1_3]
      rewrite [show (dat1 V c).Φ t.succ = Phi1 V c t.succ from rfl, show (dat1 V c).Φ t.castSucc = Phi1 V c t.castSucc from rfl,
        show (dat1 V c).owesAt () t.succ = (dat1 V c).owesAt () t.castSucc from rfl]
      unfold Phi1
      simp only [Fin.val_castSucc, Fin.val_succ, Nat.add_sub_cancel, traj_eq V c t, step1_diag_first V c t _ hf hd]
      unfold carried
      iintro ⟨⟨⟨%S, -, HM, HL, HA⟩, ⟨HT0, HT1⟩, HI, HR⟩, Ho, ⟨%d0, H0⟩, ⟨%d1, H1⟩, ⟨%d2, H2⟩, ⟨%d3, H3⟩⟩
      iapply (body_diag_first c Set.univ (crd t) (ms0 t) (ms1 t) (ms2 t) (hs0 t) (hs1 t) (hs2 t) (ms3 t) (hs3 t) _ _ _ d3 S fullShare hf hb hd _)
      isplitl [H0]; · iexact H0
      isplitl [H1]; · iexact H1
      isplitl [H2]; · iexact H2
      isplitl [H3]; · iexact H3
      isplitl [HM]; · iexact HM
      isplitl [HL]; · iexact HL
      isplitl [HA]; · iexact HA
      isplitl [HT0]; · iexact HT0
      isplitl [HT1]; · iexact HT1
      iintro ⟨H0, H1, H2, H3, HM, HL, HA, HT0, HT1⟩
      isplitl [HM HL HA HT0 HT1 HI HR]
      · isplitl [HM HL HA]
        · iexists _; isplitr; swap
          · isplitl [HM]; · iexact HM
            isplitl [HL]; · iexact HL
            iexact HA
          · ipureintro; intro _; rfl
        isplitl [HT0 HT1]
        · isplitl [HT0]; · iexact HT0
          iexact HT1
        isplitl [HI]; · iexact HI
        iexact HR
      isplitl [Ho]; · iexact Ho
      isplitl [H0]; · iexact H0
      isplitl [H1]; · iexact H1
      isplitl [H2]; · iexact H2
      iexact H3
    · -- a later key block: the carried state is what the step before left
      have h0 := pos_of_not_first t hf
      rewrite [i3]
      simp only [before1_0, before1_1, before1_2, before1_3', after1_0, after1_1, after1_2, after1_3]
      rewrite [show (dat1 V c).Φ t.succ = Phi1 V c t.succ from rfl, show (dat1 V c).Φ t.castSucc = Phi1 V c t.castSucc from rfl,
        show (dat1 V c).owesAt () t.succ = (dat1 V c).owesAt () t.castSucc from rfl]
      unfold Phi1
      simp only [Fin.val_castSucc, Fin.val_succ, Nat.add_sub_cancel, traj_eq V c t, if_neg h0, step1_diag V c t _ hf hd]
      simp only [exists_held h0]
      unfold carried
      iintro ⟨⟨⟨HM, HL, HA⟩, ⟨HT0, HT1⟩, HI, HR⟩, Ho, ⟨%d0, H0⟩, ⟨%d1, H1⟩, ⟨%d2, H2⟩, ⟨%d3, H3⟩⟩
      iapply (body_diag c Set.univ (crd t) (ms0 t) (ms1 t) (ms2 t) (hs0 t) (hs1 t) (hs2 t) (ms3 t) (hs3 t) _ _ _ d3 _ fullShare hf hb hd _)
      isplitl [H0]; · iexact H0
      isplitl [H1]; · iexact H1
      isplitl [H2]; · iexact H2
      isplitl [H3]; · iexact H3
      isplitl [HM]; · iexact HM
      isplitl [HL]; · iexact HL
      isplitl [HA]; · iexact HA
      isplitl [HT0]; · iexact HT0
      isplitl [HT1]; · iexact HT1
      iintro ⟨H0, H1, H2, H3, HM, HL, HA, HT0, HT1⟩
      isplitl [HM HL HA HT0 HT1 HI HR]
      · isplitl [HM HL HA]
        · iexists _; isplitr; swap
          · isplitl [HM]; · iexact HM
            isplitl [HL]; · iexact HL
            iexact HA
          · ipureintro; intro _; rfl
        isplitl [HT0 HT1]
        · isplitl [HT0]; · iexact HT0
          iexact HT1
        isplitl [HI]; · iexact HI
        iexact HR
      isplitl [Ho]; · iexact Ho
      isplitl [H0]; · iexact H0
      isplitl [H1]; · iexact H1
      isplitl [H2]; · iexact H2
      iexact H3
  · -- A STEP STRICTLY BELOW THE DIAGONAL: the output window is idle and kept
    have hb : isBelow (wQ (crd t)) (wK (crd t)) := Classical.not_not.mp fun h => hd ((diag_iff_not_below t).mpr h)
    obtain ⟨i3, f3⟩ := sched_below t hd
    by_cases hf : isFirst (wK (crd t))
    · -- its key block is the first: the carried state is reset, whatever it was
      rewrite [i3]
      simp only [f3, before1_0, before1_1, before1_2, before1_3', after1_0, after1_1, after1_2]
      rewrite [show (dat1 V c).Φ t.succ = Phi1 V c t.succ from rfl, show (dat1 V c).Φ t.castSucc = Phi1 V c t.castSucc from rfl,
        show (dat1 V c).owesAt () t.succ = (dat1 V c).owesAt () t.castSucc from rfl]
      unfold Phi1
      simp only [Fin.val_castSucc, Fin.val_succ, Nat.add_sub_cancel, traj_eq V c t, step1_below_first V c t _ hf hd]
      unfold carried
      iintro ⟨⟨⟨%S, -, HM, HL, HA⟩, ⟨HT0, HT1⟩, HI, HR⟩, Ho, ⟨%d0, H0⟩, ⟨%d1, H1⟩, ⟨%d2, H2⟩, ⟨%d3, H3⟩⟩
      iapply (body_below_first c Set.univ (crd t) (ms0 t) (ms1 t) (ms2 t) (hs0 t) (hs1 t) (hs2 t) (ms3 t) (hs3 t) _ _ _ d3 S fullShare hf hb hd _)
      isplitl [H0]; · iexact H0
      isplitl [H1]; · iexact H1
      isplitl [H2]; · iexact H2
      isplitl [H3]; · iexact H3
      isplitl [HM]; · iexact HM
      isplitl [HL]; · iexact HL
      isplitl [HA]; · iexact HA
      isplitl [HT0]; · iexact HT0
      isplitl [HT1]; · iexact HT1
      iintro ⟨H0, H1, H2, H3, HM, HL, HA, HT0, HT1⟩
      isplitl [HM HL HA HT0 HT1 HI HR]
      · isplitl [HM HL HA]
        · iexists _; isplitr; swap
          · isplitl [HM]; · iexact HM
            isplitl [HL]; · iexact HL
            iexact HA
          · ipureintro; intro _; rfl
        isplitl [HT0 HT1]
        · isplitl [HT0]; · iexact HT0
          iexact HT1
        isplitl [HI]; · iexact HI
        iexact HR
      isplitl [Ho]; · iexact Ho
      isplitl [H0]; · iexact H0
      isplitl [H1]; · iexact H1
      isplitl [H2]; · iexact H2
      iexists d3; iexact H3
    · -- a later key block: the carried state is what the step before left
      have h0 := pos_of_not_first t hf
      rewrite [i3]
      simp only [f3, before1_0, before1_1, before1_2, before1_3', after1_0, after1_1, after1_2]
      rewrite [show (dat1 V c).Φ t.succ = Phi1 V c t.succ from rfl, show (dat1 V c).Φ t.castSucc = Phi1 V c t.castSucc from rfl,
        show (dat1 V c).owesAt () t.succ = (dat1 V c).owesAt () t.castSucc from rfl]
      unfold Phi1
      simp only [Fin.val_castSucc, Fin.val_succ, Nat.add_sub_cancel, traj_eq V c t, if_neg h0, step1_below V c t _ hf hd]
      simp only [exists_held h0]
      unfold carried
      iintro ⟨⟨⟨HM, HL, HA⟩, ⟨HT0, HT1⟩, HI, HR⟩, Ho, ⟨%d0, H0⟩, ⟨%d1, H1⟩, ⟨%d2, H2⟩, ⟨%d3, H3⟩⟩
      iapply (body_below c Set.univ (crd t) (ms0 t) (ms1 t) (ms2 t) (hs0 t) (hs1 t) (hs2 t) (ms3 t) (hs3 t) _ _ _ d3 _ fullShare hf hb hd _)
      isplitl [H0]; · iexact H0
      isplitl [H1]; · iexact H1
      isplitl [H2]; · iexact H2
      isplitl [H3]; · iexact H3
      isplitl [HM]; · iexact HM
      isplitl [HL]; · iexact HL
      isplitl [HA]; · iexact HA
      isplitl [HT0]; · iexact HT0
      isplitl [HT1]; · iexact HT1
      iintro ⟨H0, H1, H2, H3, HM, HL, HA, HT0, HT1⟩
      isplitl [HM HL HA HT0 HT1 HI HR]
      · isplitl [HM HL HA]
        · iexists _; isplitr; swap
          · isplitl [HM]; · iexact HM
            isplitl [HL]; · iexact HL
            iexact HA
          · ipureintro; intro _; rfl
        isplitl [HT0 HT1]
        · isplitl [HT0]; · iexact HT0
          iexact HT1
        isplitl [HI]; · iexact HI
        iexact HR
      isplitl [Ho]; · iexact Ho
      isplitl [H0]; · iexact H0
      isplitl [H1]; · iexact H1
      isplitl [H2]; · iexact H2
      iexists d3; iexact H3

/-- The library's body obligation of the attention call, at every step. -/
theorem body_obligation1 (c : Dev nD) : Pipeline.BodyObligation (dat1 V c) (defs₀ (F := FF)) Variants.none () Set.univ := fun t => by
  rw [bigSep_W1]
  exact sound_body1 V c t

end Cert.KernelIdeal.H

end
-- ==== Proof.KI.Fin.lean ====
import proofs.«417288_j44684839747926_3_alg».proof.Proof.KI.Main
import proofs.«417288_j44684839747926_3_alg».proof.Proof.KI.Seg1
import proofs.«417288_j44684839747926_3_alg».proof.Proof.KI.R1Obl

/-! The program's run with both calls in place: it terminates, nothing faulting; the result array ends at what the
    attention call's write-backs leave and each argument array as launched. -/

noncomputable section

namespace Cert.KernelIdeal.H

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt FF) ℕ (UR sig nD τ) ℕ

variable (m : (ℓ : Loc nD τ sig) → Buf (Elt FF) ℓ) (ρ : Dev nD → PrngReg)

theorem run_final :
    θ_run defs (onTc (τ := τ) (main (F := FF))) ⟨m, fun _ => 0, ρ⟩ (fun r => ∀ c : Dev nD,
      r.2.mem ((c.tc : Thread nD τ).loc main_v5) = (dat1 (V3 m) c).arrAt 3 cfgT.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main m ρ (reg1 m (body_obligation1 (V3 m))) (fun _ => .rfl) (fun c => by
    show iprop(StableHlo.held (c : Thread nD τ) (Pipeline.ucRefs τ sig) (W4 m c) ∗ R c) ⊢ _
    iintro ⟨Hh, ⟨Hp, HO⟩⟩
    isplitl [Hh Hp]
    · isplitl [Hh]; · iexact Hh
      iexact Hp
    iexact HO)

end Cert.KernelIdeal.H

end
-- ==== Proof.Spec.lean ====
import Mathlib.Analysis.SpecialFunctions.Exp
import Mathlib.Data.Finset.Lattice.Fold
import Mathlib.Algebra.BigOperators.Group.Finset.Basic
import Mathlib.Algebra.BigOperators.Field

/-! The function both programs compute over the reals: single-head causal attention. For batch `b`, position `i` and
    output column `e`: the projections q = x·Wq, k = x·Wk, v = x·Wv; the scores s j = (q i · k j) / 32 for the positions
    j ≤ i; the softmax weights exp (s j − max s) / Σ exp (s j' − max s) over those positions; and their weighted sum of
    the value rows. -/

noncomputable section

namespace Cert.Spec

open Finset

/-- A projection: row `s` of batch `b` of `x` times column `e` of `W`. -/
def proj (x : Fin 8 → Fin 2048 → Fin 1024 → ℝ) (W : Fin 1024 → Fin 1024 → ℝ) (b : Fin 8) (s : Fin 2048) (e : Fin 1024) : ℝ :=
  ∑ d : Fin 1024, x b s d * W d e

/-- The scaled score of query position `i` against key position `j`. -/
def score (q k : Fin 8 → Fin 2048 → Fin 1024 → ℝ) (b : Fin 8) (i j : Fin 2048) : ℝ :=
  (∑ e : Fin 1024, q b i e * k b j e) / 32

/-- The key positions a query position sees: those not after it. -/
def causal (i : Fin 2048) : Finset (Fin 2048) := univ.filter fun j => j ≤ i

theorem causal_nonempty (i : Fin 2048) : (causal i).Nonempty := ⟨i, by simp [causal]⟩

/-- The largest visible score of a row. -/
def rowMax (q k : Fin 8 → Fin 2048 → Fin 1024 → ℝ) (b : Fin 8) (i : Fin 2048) : ℝ :=
  (causal i).sup' (causal_nonempty i) (score q k b i)

/-- The unnormalised softmax weight. -/
def wgt (q k : Fin 8 → Fin 2048 → Fin 1024 → ℝ) (b : Fin 8) (i j : Fin 2048) : ℝ :=
  Real.exp (score q k b i j - rowMax q k b i)

/-- Causal attention of the projections. -/
def attn (x : Fin 8 → Fin 2048 → Fin 1024 → ℝ) (Wq Wk Wv : Fin 1024 → Fin 1024 → ℝ) (b : Fin 8) (i : Fin 2048) (e : Fin 1024) : ℝ :=
  ∑ j ∈ causal i, (wgt (proj x Wq) (proj x Wk) b i j / ∑ j' ∈ causal i, wgt (proj x Wq) (proj x Wk) b i j') * proj x Wv b j e

end Cert.Spec

end
-- ==== Proof.SpecQKV.lean ====
import proofs.«417288_j44684839747926_3_alg».proof.Proof.Spec

/-! Causal attention as a function of the three projected arrays, and the attention of an input as that of its
    projections. -/

noncomputable section

namespace Cert.Spec

open Finset

/-- Causal attention of query, key and value arrays. -/
def attnOf (q k v : Fin 8 → Fin 2048 → Fin 1024 → ℝ) (b : Fin 8) (i : Fin 2048) (e : Fin 1024) : ℝ :=
  ∑ j ∈ causal i, (wgt q k b i j / ∑ j' ∈ causal i, wgt q k b i j') * v b j e

theorem attn_eq (x : Fin 8 → Fin 2048 → Fin 1024 → ℝ) (Wq Wk Wv : Fin 1024 → Fin 1024 → ℝ) :
    attn x Wq Wk Wv = attnOf (proj x Wq) (proj x Wk) (proj x Wv) := rfl

end Cert.Spec

end
-- ==== Proof.KI.Val1Defs.lean ====
import proofs.«417288_j44684839747926_3_alg».proof.Proof.KI.R1Dat
import proofs.«417288_j44684839747926_3_alg».proof.Proof.SpecQKV
import Idealize.ShloMosaic.Lib.ValueIdx

/-! The fused projection array read as three real arrays: queries in columns 0–1023, keys in 1024–2047, values in
    2048–3071. -/

noncomputable section

namespace Cert.KernelIdeal.H

open Idealize.ShloMosaic Idealize.ShloMosaic.ValueIdx
open Cert.KernelIdeal

/-- Column block `w` of the fused array, real parts. -/
def qkvRe (X : S8x2048x3072.Idx → EReal) (w : Fin 3) : Fin 8 → Fin 2048 → Fin 1024 → ℝ :=
  fun b s e => (X (ix3 b s ⟨1024 * w.val + e.val, by have := w.isLt; have := e.isLt; omega⟩)).toReal

/-- Every entry of the fused array is a real number. -/
def FinQKV (X : S8x2048x3072.Idx → EReal) : Prop := ∀ i, ∃ r : ℝ, X i = (r : EReal)

theorem FinQKV.eq {X : S8x2048x3072.Idx → EReal} (h : FinQKV X) (w : Fin 3) (b : Fin 8) (s : Fin 2048) (e : Fin 1024) :
    X (ix3 b s ⟨1024 * w.val + e.val, by have := w.isLt; have := e.isLt; omega⟩) = ((qkvRe X w b s e : ℝ) : EReal) := by
  obtain ⟨r, hr⟩ := h (ix3 b s ⟨1024 * w.val + e.val, by have := w.isLt; have := e.isLt; omega⟩); unfold qkvRe; rw [hr]; rfl

/-- What the attention call computes from a finite fused array. -/
def attnQKV (X : S8x2048x3072.Idx → EReal) : S8x2048x1024.Idx → EReal :=
  fun i => ((Cert.Spec.attnOf (qkvRe X 0) (qkvRe X 1) (qkvRe X 2) (i 0) (i 1) (i 2) : ℝ) : EReal)

end Cert.KernelIdeal.H

end
-- ==== Proof.LibOnlineSoftmax.lean ====
import Mathlib.Analysis.SpecialFunctions.Exp
import Mathlib.Data.Finset.Lattice.Fold
import Mathlib.Algebra.BigOperators.Group.Finset.Basic
import Mathlib.Algebra.BigOperators.Field
import Mathlib.Algebra.Order.BigOperators.Group.Finset

/-!
# The running-maximum softmax recurrence

A row of scores is processed block by block.  The state after some blocks is a
triple `(m, l, acc)`: the maximum `m` of the scores seen so far, the
normaliser `l = ∑ exp (score - m)` and the weighted accumulator
`acc = ∑ exp (score - m) * value`, both sums over everything seen so far.
When a further block arrives the maximum moves from `m` to `m' = max m (block max)`,
the old sums are multiplied by `exp (m - m')` and the block's own terms, taken
relative to `m'`, are added.

The one identity behind the recurrence is
`exp (a - b) * exp (c - a) = exp (c - b)`:
multiplying a sum of `exp (score - a)` by `exp (a - b)` re-bases it to `b`.
From it, by induction on the number of blocks, the state after blocks `0..n` is

* `m`   = the maximum of all scores in blocks `0..n` (an upper bound that is attained),
* `l`   = `∑_{t ≤ n} ∑_{j ∈ A t} exp (s t j - m)`,
* `acc` = `∑_{t ≤ n} ∑_{j ∈ A t} exp (s t j - m) * v t j`,

so `acc / l` is the softmax-weighted sum of the values, computed in one shot.
-/

namespace Cert.OnlineSoftmax

noncomputable section

variable {B : ℕ}

/-- running state: row maximum m, normaliser l, weighted accumulator acc -/
structure St where
  (m : ℝ) (l : ℝ) (acc : ℝ)

/-- first block: active columns A (nonempty), scores s, values v -/
def first (A : Finset (Fin B)) (hA : A.Nonempty) (s v : Fin B → ℝ) : St :=
  ⟨A.sup' hA s, ∑ j ∈ A, Real.exp (s j - A.sup' hA s),
    ∑ j ∈ A, Real.exp (s j - A.sup' hA s) * v j⟩

/-- a further block: rescale by exp (m_old - m_new) and add the block's terms -/
def next (S : St) (A : Finset (Fin B)) (hA : A.Nonempty) (s v : Fin B → ℝ) : St :=
  ⟨max S.m (A.sup' hA s),
   Real.exp (S.m - max S.m (A.sup' hA s)) * S.l
     + ∑ j ∈ A, Real.exp (s j - max S.m (A.sup' hA s)),
   Real.exp (S.m - max S.m (A.sup' hA s)) * S.acc
     + ∑ j ∈ A, Real.exp (s j - max S.m (A.sup' hA s)) * v j⟩

/-- blocks 0..n in order -/
def run (A : ℕ → Finset (Fin B)) (hA : ∀ t, (A t).Nonempty) (s v : ℕ → Fin B → ℝ) : ℕ → St
  | 0 => first (A 0) (hA 0) (s 0) (v 0)
  | n + 1 => next (run A hA s v n) (A (n + 1)) (hA (n + 1)) (s (n + 1)) (v (n + 1))

/-! ### Unfolding equations -/

section unfold

variable (A : ℕ → Finset (Fin B)) (hA : ∀ t, (A t).Nonempty) (s v : ℕ → Fin B → ℝ)

/-- after block 0 alone the maximum is the block's maximum -/
theorem run_zero_m : (run A hA s v 0).m = (A 0).sup' (hA 0) (s 0) := rfl

/-- after block 0 alone the normaliser is the block's sum of `exp (score - block max)` -/
theorem run_zero_l :
    (run A hA s v 0).l = ∑ j ∈ A 0, Real.exp (s 0 j - (A 0).sup' (hA 0) (s 0)) := rfl

/-- after block 0 alone the accumulator is the block's sum of `exp (score - block max) * value` -/
theorem run_zero_acc :
    (run A hA s v 0).acc
      = ∑ j ∈ A 0, Real.exp (s 0 j - (A 0).sup' (hA 0) (s 0)) * v 0 j := rfl

/-- the new maximum is the larger of the old one and block `n + 1`'s maximum -/
theorem run_succ_m (n : ℕ) :
    (run A hA s v (n + 1)).m
      = max (run A hA s v n).m ((A (n + 1)).sup' (hA (n + 1)) (s (n + 1))) := rfl

/-- the new normaliser: the old one re-based to the new maximum, plus block `n + 1`'s terms -/
theorem run_succ_l (n : ℕ) :
    (run A hA s v (n + 1)).l
      = Real.exp ((run A hA s v n).m - (run A hA s v (n + 1)).m) * (run A hA s v n).l
        + ∑ j ∈ A (n + 1), Real.exp (s (n + 1) j - (run A hA s v (n + 1)).m) := rfl

/-- the new accumulator: the old one re-based to the new maximum, plus block `n + 1`'s terms -/
theorem run_succ_acc (n : ℕ) :
    (run A hA s v (n + 1)).acc
      = Real.exp ((run A hA s v n).m - (run A hA s v (n + 1)).m) * (run A hA s v n).acc
        + ∑ j ∈ A (n + 1),
            Real.exp (s (n + 1) j - (run A hA s v (n + 1)).m) * v (n + 1) j := rfl

end unfold

/-! ### Re-basing a sum of exponentials -/

/-- the key identity: `exp (a - b) * exp (c - a) = exp (c - b)` -/
theorem exp_sub_mul_exp_sub (a b c : ℝ) :
    Real.exp (a - b) * Real.exp (c - a) = Real.exp (c - b) := by
  rw [← Real.exp_add]
  congr 1
  ring

/-- multiplying a weighted double sum of `exp (s - a)` by `exp (a - b)` re-bases it to `b` -/
theorem rebase_weighted (T : Finset ℕ) (A : ℕ → Finset (Fin B)) (s w : ℕ → Fin B → ℝ)
    (a b : ℝ) :
    Real.exp (a - b) * ∑ t ∈ T, ∑ j ∈ A t, Real.exp (s t j - a) * w t j
      = ∑ t ∈ T, ∑ j ∈ A t, Real.exp (s t j - b) * w t j := by
  rw [Finset.mul_sum]
  refine Finset.sum_congr rfl fun t _ => ?_
  rw [Finset.mul_sum]
  refine Finset.sum_congr rfl fun j _ => ?_
  rw [← mul_assoc, exp_sub_mul_exp_sub]

/-- multiplying a double sum of `exp (s - a)` by `exp (a - b)` re-bases it to `b` -/
theorem rebase (T : Finset ℕ) (A : ℕ → Finset (Fin B)) (s : ℕ → Fin B → ℝ) (a b : ℝ) :
    Real.exp (a - b) * ∑ t ∈ T, ∑ j ∈ A t, Real.exp (s t j - a)
      = ∑ t ∈ T, ∑ j ∈ A t, Real.exp (s t j - b) := by
  rw [Finset.mul_sum]
  refine Finset.sum_congr rfl fun t _ => ?_
  rw [Finset.mul_sum]
  refine Finset.sum_congr rfl fun j _ => ?_
  rw [exp_sub_mul_exp_sub]

/-! ### The state after blocks `0..n` -/

/-- the running maximum bounds every score of every block seen so far -/
theorem run_m_ge (A : ℕ → Finset (Fin B)) (hA : ∀ t, (A t).Nonempty) (s v : ℕ → Fin B → ℝ)
    (n t : ℕ) (ht : t ≤ n) (j : Fin B) (hj : j ∈ A t) : s t j ≤ (run A hA s v n).m := by
  induction n with
  | zero =>
    obtain rfl : t = 0 := Nat.le_zero.mp ht
    rw [run_zero_m]
    exact Finset.le_sup' (s 0) hj
  | succ n ih =>
    rw [run_succ_m]
    rcases Nat.lt_or_ge n t with h | h
    · obtain rfl : t = n + 1 := le_antisymm ht h
      exact le_trans (Finset.le_sup' (s (n + 1)) hj) (le_max_right _ _)
    · exact le_trans (ih h) (le_max_left _ _)

/-- the running maximum is one of the scores seen so far -/
theorem run_m_attained (A : ℕ → Finset (Fin B)) (hA : ∀ t, (A t).Nonempty)
    (s v : ℕ → Fin B → ℝ) (n : ℕ) :
    ∃ t ≤ n, ∃ j ∈ A t, (run A hA s v n).m = s t j := by
  induction n with
  | zero =>
    obtain ⟨j, hj, h⟩ := Finset.exists_mem_eq_sup' (hA 0) (s 0)
    exact ⟨0, le_refl 0, j, hj, by rw [run_zero_m, h]⟩
  | succ n ih =>
    rw [run_succ_m]
    rcases le_total ((A (n + 1)).sup' (hA (n + 1)) (s (n + 1))) (run A hA s v n).m with h | h
    · obtain ⟨t, ht, j, hj, e⟩ := ih
      exact ⟨t, Nat.le_succ_of_le ht, j, hj, by rw [max_eq_left h, e]⟩
    · obtain ⟨j, hj, e⟩ := Finset.exists_mem_eq_sup' (hA (n + 1)) (s (n + 1))
      exact ⟨n + 1, le_refl _, j, hj, by rw [max_eq_right h, e]⟩

/-- the normaliser is the sum of `exp (score - running max)` over everything seen so far -/
theorem run_l (A : ℕ → Finset (Fin B)) (hA : ∀ t, (A t).Nonempty) (s v : ℕ → Fin B → ℝ)
    (n : ℕ) :
    (run A hA s v n).l
      = ∑ t ∈ Finset.range (n + 1), ∑ j ∈ A t, Real.exp (s t j - (run A hA s v n).m) := by
  induction n with
  | zero => rw [Finset.sum_range_one, run_zero_l, run_zero_m]
  | succ n ih =>
    rw [Finset.sum_range_succ _ (n + 1), run_succ_l, ih, rebase]

/-- the accumulator is the sum of `exp (score - running max) * value` over everything seen
so far -/
theorem run_acc (A : ℕ → Finset (Fin B)) (hA : ∀ t, (A t).Nonempty) (s v : ℕ → Fin B → ℝ)
    (n : ℕ) :
    (run A hA s v n).acc
      = ∑ t ∈ Finset.range (n + 1), ∑ j ∈ A t,
          Real.exp (s t j - (run A hA s v n).m) * v t j := by
  induction n with
  | zero => rw [Finset.sum_range_one, run_zero_acc, run_zero_m]
  | succ n ih =>
    rw [Finset.sum_range_succ _ (n + 1), run_succ_acc, ih, rebase_weighted]

/-- the normaliser is positive: a nonempty sum of exponentials -/
theorem run_l_pos (A : ℕ → Finset (Fin B)) (hA : ∀ t, (A t).Nonempty) (s v : ℕ → Fin B → ℝ)
    (n : ℕ) : 0 < (run A hA s v n).l := by
  rw [run_l]
  exact Finset.sum_pos
    (fun t _ => Finset.sum_pos (fun j _ => Real.exp_pos _) (hA t))
    Finset.nonempty_range_add_one

/-- the recurrence's quotient is the softmax-weighted sum -/
theorem run_quotient (A : ℕ → Finset (Fin B)) (hA : ∀ t, (A t).Nonempty)
    (s v : ℕ → Fin B → ℝ) (n : ℕ) :
    (run A hA s v n).acc / (run A hA s v n).l
      = ∑ t ∈ Finset.range (n + 1), ∑ j ∈ A t,
          (Real.exp (s t j - (run A hA s v n).m)
            / (∑ t' ∈ Finset.range (n + 1), ∑ j' ∈ A t',
                Real.exp (s t' j' - (run A hA s v n).m))) * v t j := by
  rw [← run_l A hA s v n, run_acc A hA s v n, Finset.sum_div]
  refine Finset.sum_congr rfl fun t _ => ?_
  rw [Finset.sum_div]
  refine Finset.sum_congr rfl fun j _ => ?_
  rw [div_mul_eq_mul_div]

end

end Cert.OnlineSoftmax
-- ==== Proof.LibOnlineSoftmaxE.lean ====
import proofs.«417288_j44684839747926_3_alg».proof.Proof.LibOnlineSoftmax
import Idealize.ShloMosaic.PureOps.Ideal

/-!
# The running-maximum softmax recurrence on extended reals

The same block step, computed in `[-∞, +∞]`: a masked score is `⊥ = -∞`, the
exponential of `⊥` is `0`, and the recurrence starts from maximum `⊥`,
normaliser `0` and accumulator `0`.

If a block's extended scores are the real scores `s j` on the active columns `A`
(nonempty) and `⊥` elsewhere, and its values are real, then

* the block's maximum, a fold of `max` from `⊥` over all columns, is the real
  maximum of `s` over `A`;
* a masked column contributes `exp ⊥ = 0` to the normaliser and
  `0 * v j = 0` to the accumulator, an active column `exp (s j - M)` resp.
  `exp (s j - M) * v j`, so both sums over all columns are the real sums over `A`;
* from the start state `(⊥, 0, 0)` the old maximum drops out of the `max`
  and the rescaled old sums are `_ * 0 = 0`: the step gives the real first block;
* from a real state the rescaling factor is `exp (m - max m M)`, real, and the
  step gives the real next block.

So every state of the extended-real recurrence is the coercion of the real state.
-/

namespace Cert.OnlineSoftmax

open Idealize.ShloMosaic

noncomputable section

variable {B : ℕ}

/-- one block's step on extended reals: sE the block's scores (⊥ where masked), vE its values -/
def stepE (m l acc : EReal) (sE vE : Fin B → EReal) : EReal × EReal × EReal :=
  (max m (Finset.univ.fold max ⊥ sE),
   Ideal.exp (m - max m (Finset.univ.fold max ⊥ sE)) * l
     + ∑ j, Ideal.exp (sE j - max m (Finset.univ.fold max ⊥ sE)),
   Ideal.exp (m - max m (Finset.univ.fold max ⊥ sE)) * acc
     + ∑ j, Ideal.exp (sE j - max m (Finset.univ.fold max ⊥ sE)) * vE j)

/-! ### Coercion facts -/

/-- the coercion `ℝ → EReal` commutes with finite sums -/
theorem coe_sum {ι : Type*} (t : Finset ι) (f : ι → ℝ) :
    ((∑ i ∈ t, f i : ℝ) : EReal) = ∑ i ∈ t, (f i : EReal) := by
  induction t using Finset.cons_induction with
  | empty => rw [Finset.sum_empty, Finset.sum_empty, EReal.coe_zero]
  | cons a t ha ih => rw [Finset.sum_cons, Finset.sum_cons, EReal.coe_add, ih]

/-- the coercion `ℝ → EReal` commutes with `max` -/
theorem coe_max (a b : ℝ) : ((max a b : ℝ) : EReal) = max (a : EReal) (b : EReal) :=
  EReal.coe_strictMono.monotone.map_max

/-- the extended quotient of two reals with nonzero denominator is the real quotient -/
theorem div_coe_coe (a l : ℝ) (hl : l ≠ 0) :
    Ideal.div (a : EReal) (l : EReal) = ((a / l : ℝ) : EReal) := by
  rw [Ideal.div_coe hl, ← EReal.coe_mul, mul_one_div]

/-- the exponential of a difference of two reals -/
theorem exp_coe_sub_coe (a b : ℝ) :
    Ideal.exp ((a : EReal) - (b : EReal)) = ((Real.exp (a - b) : ℝ) : EReal) := by
  rw [← EReal.coe_sub, Ideal.exp_coe]

/-- `exp (-∞ - b) = 0` -/
theorem exp_bot_sub (b : EReal) : Ideal.exp (⊥ - b) = 0 := by
  rw [EReal.bot_sub, Ideal.exp_bot]

/-! ### One masked block -/

/-- the fold of `max` from `⊥` over a masked row is the real maximum over the active columns -/
theorem fold_max_bot (A : Finset (Fin B)) (hA : A.Nonempty) (s : Fin B → ℝ) :
    Finset.univ.fold max ⊥ (fun j => if j ∈ A then ((s j : ℝ) : EReal) else ⊥)
      = ((A.sup' hA s : ℝ) : EReal) := by
  apply le_antisymm
  · rw [Finset.fold_max_le]
    refine ⟨bot_le, fun j _ => ?_⟩
    by_cases hj : j ∈ A
    · rw [if_pos hj, EReal.coe_le_coe_iff]
      exact Finset.le_sup' s hj
    · rw [if_neg hj]
      exact bot_le
  · rw [Finset.le_fold_max]
    obtain ⟨j, hj, e⟩ := Finset.exists_mem_eq_sup' hA s
    exact Or.inr ⟨j, Finset.mem_univ j, by rw [if_pos hj, e]⟩

section block

variable (A : Finset (Fin B)) (s v : Fin B → ℝ) (sE vE : Fin B → EReal)
  (hs : ∀ j, sE j = if j ∈ A then ((s j : ℝ) : EReal) else ⊥)
  (hv : ∀ j, vE j = ((v j : ℝ) : EReal))

include hs in
/-- a column's normaliser term relative to a real maximum `M`: `exp (s j - M)` if active, else `0` -/
theorem term_l (M : ℝ) (j : Fin B) :
    Ideal.exp (sE j - (M : EReal))
      = if j ∈ A then ((Real.exp (s j - M) : ℝ) : EReal) else 0 := by
  rw [hs j]
  by_cases hj : j ∈ A
  · rw [if_pos hj, if_pos hj, exp_coe_sub_coe]
  · rw [if_neg hj, if_neg hj, exp_bot_sub]

include hs hv in
/-- a column's accumulator term relative to a real maximum `M`: `exp (s j - M) * v j` if active,
else `0 * v j = 0` -/
theorem term_acc (M : ℝ) (j : Fin B) :
    Ideal.exp (sE j - (M : EReal)) * vE j
      = if j ∈ A then ((Real.exp (s j - M) * v j : ℝ) : EReal) else 0 := by
  rw [term_l A s sE hs M j, hv j]
  by_cases hj : j ∈ A
  · rw [if_pos hj, if_pos hj, EReal.coe_mul]
  · rw [if_neg hj, if_neg hj, zero_mul]

include hs in
/-- the block's normaliser sum over all columns is the real sum over the active ones -/
theorem sum_l (M : ℝ) :
    ∑ j, Ideal.exp (sE j - (M : EReal)) = ((∑ j ∈ A, Real.exp (s j - M) : ℝ) : EReal) := by
  rw [coe_sum, Finset.sum_congr rfl fun j _ => term_l A s sE hs M j, Finset.sum_ite_mem,
    Finset.univ_inter]

include hs hv in
/-- the block's accumulator sum over all columns is the real sum over the active ones -/
theorem sum_acc (M : ℝ) :
    ∑ j, Ideal.exp (sE j - (M : EReal)) * vE j
      = ((∑ j ∈ A, Real.exp (s j - M) * v j : ℝ) : EReal) := by
  rw [coe_sum, Finset.sum_congr rfl fun j _ => term_acc A s v sE vE hs hv M j,
    Finset.sum_ite_mem, Finset.univ_inter]

include hs in
/-- the block's extended maximum is the real maximum over the active columns -/
theorem fold_sE (hA : A.Nonempty) :
    Finset.univ.fold max ⊥ sE = ((A.sup' hA s : ℝ) : EReal) := by
  rw [show sE = fun j => if j ∈ A then ((s j : ℝ) : EReal) else ⊥ from funext hs]
  exact fold_max_bot A hA s

end block

/-! ### The step is the coercion of the real step -/

/-- from the start state `(⊥, 0, 0)` the extended step is the real first block -/
theorem stepE_first (A : Finset (Fin B)) (hA : A.Nonempty) (s v : Fin B → ℝ)
    (sE vE : Fin B → EReal)
    (hs : ∀ j, sE j = if j ∈ A then ((s j : ℝ) : EReal) else ⊥)
    (hv : ∀ j, vE j = ((v j : ℝ) : EReal)) :
    stepE ⊥ 0 0 sE vE
      = (((first A hA s v).m : EReal), ((first A hA s v).l : EReal),
          ((first A hA s v).acc : EReal)) := by
  unfold stepE
  rw [fold_sE A s sE hs hA, max_eq_right bot_le, sum_l A s sE hs, sum_acc A s v sE vE hs hv,
    mul_zero, zero_add, zero_add]
  rfl

/-- from a real state the extended step is the real next block -/
theorem stepE_next (S : St) (A : Finset (Fin B)) (hA : A.Nonempty) (s v : Fin B → ℝ)
    (sE vE : Fin B → EReal)
    (hs : ∀ j, sE j = if j ∈ A then ((s j : ℝ) : EReal) else ⊥)
    (hv : ∀ j, vE j = ((v j : ℝ) : EReal)) :
    stepE (S.m : EReal) (S.l : EReal) (S.acc : EReal) sE vE
      = (((next S A hA s v).m : EReal), ((next S A hA s v).l : EReal),
          ((next S A hA s v).acc : EReal)) := by
  unfold stepE
  rw [fold_sE A s sE hs hA, ← coe_max, sum_l A s sE hs, sum_acc A s v sE vE hs hv,
    exp_coe_sub_coe, ← EReal.coe_mul, ← EReal.coe_mul, ← EReal.coe_add, ← EReal.coe_add]
  rfl

end

end Cert.OnlineSoftmax
-- ==== Proof.KI.Val1Rows.lean ====
import proofs.«417288_j44684839747926_3_alg».proof.Proof.KI.R1Defs
import proofs.«417288_j44684839747926_3_alg».proof.Proof.LibOnlineSoftmaxE
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

/-! The attention body's step functions, read row by row on the extended reals.

    A step holds a block of 512 query rows q, 512 key rows k and 512 value rows v, each of 1024 entries, and the
    carried state of each query row r: a running maximum m r, a normaliser l r and an accumulator row a r. The score
    of row r against key row j is s r j = (∑ d, q r d * k j d) * 2⁻⁵. A step below the diagonal takes
      m' = max m (max over j of s r j),  l' = exp (m - m') * l + ∑ j, exp (s r j - m'),
      a' e = exp (m - m') * a e + ∑ j, exp (s r j - m') * v j e;
    the diagonal step does the same with s r j replaced by −∞ for j > r; the first step starts from (−∞, 0, 0); and
    the stored output is a' e / l'. Each of these is the one-block step of the running-maximum softmax. -/

noncomputable section

namespace Cert.KernelIdeal.H

open Idealize.ShloMosaic Idealize.ShloMosaic.TcCoe Idealize.SL.Sem
open Idealize.ShloMosaic.ValueIdx Cert.OnlineSoftmax
open Cert.KernelIdeal Cert.KernelIdeal.Gen

/-- row r of the query block against column j of the key block, scaled by 2⁻⁵ -/
def blkScore (q k : Vec FF S1x512x1024 .bf16) (r j : Fin 512) : EReal :=
  (∑ d : Fin 1024, q (ix3 0 r d) * k (ix3 0 j d)) * Ideal.ofBits .f32 0x3D000000#32

/-! ## Two layout operations on a column of 512 entries -/

/-- A vector of a entries cast to a column reads, at row i, the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its rows reads, at (i, c), the column at row i. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The scores: the query block against the transposed key block -/

theorem lhs_qk_0 (i : S512x512.Idx) (c : dot_S512x1024_S1024x512_S512x512_1_0_0_1_n_n.contr.Idx) :
    (dot_S512x1024_S1024x512_S512x512_1_0_0_1_n_n.lhsIdx i c 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_qk_1 (i : S512x512.Idx) (c : dot_S512x1024_S1024x512_S512x512_1_0_0_1_n_n.contr.Idx) :
    (dot_S512x1024_S1024x512_S512x512_1_0_0_1_n_n.lhsIdx i c 1).val = (c ⟨0, by decide⟩).val :=
  dot_S512x1024_S1024x512_S512x512_1_0_0_1_n_n.lhsIdx_val_of_single rfl i c
theorem rhs_qk_0 (i : S512x512.Idx) (c : dot_S512x1024_S1024x512_S512x512_1_0_0_1_n_n.contr.Idx) :
    (dot_S512x1024_S1024x512_S512x512_1_0_0_1_n_n.rhsIdx i c 0).val = (c ⟨0, by decide⟩).val :=
  dot_S512x1024_S1024x512_S512x512_1_0_0_1_n_n.rhsIdx_val_of_single rfl i c
theorem rhs_qk_1 (i : S512x512.Idx) (c : dot_S512x1024_S1024x512_S512x512_1_0_0_1_n_n.contr.Idx) :
    (dot_S512x1024_S1024x512_S512x512_1_0_0_1_n_n.rhsIdx i c 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The product of the query block and the transposed key block at (r, j): the inner product of query row r and key
    row j. -/
theorem qk_apply (q k : Vec FF S1x512x1024 .bf16) (r j : Fin 512) :
    (matmul dot_S512x1024_S1024x512_S512x512_1_0_0_1_n_n none
        (shapeCast S512x1024 q shapeCasts_S1x512x1024_S512x1024)
        (transpose S1024x512 [1, 0] (shapeCast S512x1024 k shapeCasts_S1x512x1024_S512x1024) transposes_S512x1024_p1_0_S1024x512)
        (constant (F := FF) S512x512 .f32 0x00000000#32) (ix2 r j) : EReal)
      = ∑ d : Fin 1024, (q (ix3 0 r d) : EReal) * (k (ix3 0 j d) : EReal) := by
  simp only [matmul]
  rw [Ideal.matmul_constant_zero_apply, ← Equiv.sum_comp (contrEquiv1 dot_S512x1024_S1024x512_S512x512_1_0_0_1_n_n 1024 rfl rfl).symm]
  refine Finset.sum_congr rfl fun d _ => ?_
  have hd := contrEquiv1_symm_val dot_S512x1024_S1024x512_S512x512_1_0_0_1_n_n 1024 rfl rfl d
  have el : dot_S512x1024_S1024x512_S512x512_1_0_0_1_n_n.lhsIdx (ix2 r j) ((contrEquiv1 dot_S512x1024_S1024x512_S512x512_1_0_0_1_n_n 1024 rfl rfl).symm d) = ix2 r d := funext fun a => Fin.ext (by
    match a with
    | ⟨0, _⟩ => exact lhs_qk_0 _ _
    | ⟨1, _⟩ => exact (lhs_qk_1 _ _).trans hd)
  have er : dot_S512x1024_S1024x512_S512x512_1_0_0_1_n_n.rhsIdx (ix2 r j) ((contrEquiv1 dot_S512x1024_S1024x512_S512x512_1_0_0_1_n_n 1024 rfl rfl).symm d) = ix2 d j := funext fun a => Fin.ext (by
    match a with
    | ⟨0, _⟩ => exact (rhs_qk_0 _ _).trans hd
    | ⟨1, _⟩ => exact rhs_qk_1 _ _)
  rw [el, er, shapeCast_1ab_ab_apply, transpose_ix2_apply, shapeCast_1ab_ab_apply]

/-- The block of scores at (r, j). -/
theorem pay9_apply (q k : Vec FF S1x512x1024 .bf16) (r j : Fin 512) : k1_pay9 q k (ix2 r j) = blkScore q k r j := by
  unfold k1_pay9 blkScore
  rw [mulf_apply, qk_apply]
  rfl

/-! ## A row's maximum and a row's sum -/

/-- The pattern of −∞ denotes −∞. -/
theorem ofBits_neg_inf : FloatOps.ofBits (F := Ideal) .f32 0xFF800000#32 = ⊥ := by
  simp [Ideal.ofBits, Ideal.ieee]

/-- The index a reduction along the columns inserts: row r, column j. -/
theorem lift_row (r : Fin 512) (j : Fin 512) : reduces_S512x512_S512.lift (ValueIdx.ix1 r) j = ix2 r j :=
  funext fun a => Fin.ext (by match a with | ⟨0, _⟩ => rfl | ⟨1, _⟩ => rfl)

/-- The maximum along the columns at row r: the fold of max from −∞ over the row. -/
theorem rowMax_apply (src : FVec FF S512x512 .f32) (r : Fin 512) :
    multiReduction .maximumf [1] S512 src 0xFF800000#32 reduces_S512x512_S512 (.inl rfl) rfl (ValueIdx.ix1 r)
      = Finset.univ.fold max ⊥ (fun j : Fin 512 => src (ix2 r j)) := by
  refine (Ideal.multiReduction_maximumf_single src _ reduces_S512x512_S512 _ _ (ValueIdx.ix1 r)).trans ?_
  rw [ofBits_neg_inf]
  exact congrArg (Finset.univ.fold max ⊥) (funext fun j => congrArg src (lift_row r j))

/-- The sum along the columns at row r: the sum over the row. -/
theorem rowSum_apply (src : FVec FF S512x512 .f32) (r : Fin 512) :
    multiReduction .add [1] S512 src 0x00000000#32 reduces_S512x512_S512 (.inl rfl) rfl (ValueIdx.ix1 r)
      = ∑ j : Fin 512, src (ix2 r j) := by
  refine (Ideal.multiReduction_add_single src _ reduces_S512x512_S512 _ _ (ValueIdx.ix1 r)).trans ?_
  exact Finset.sum_congr rfl fun j _ => congrArg src (lift_row r j)

/-! ## The weights against the value block -/

theorem lhs_pv_0 (i : S512x1024.Idx) (c : dot_S512x512_S512x1024_S512x1024_1_0_0_1_n_n.contr.Idx) :
    (dot_S512x512_S512x1024_S512x1024_1_0_0_1_n_n.lhsIdx i c 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_pv_1 (i : S512x1024.Idx) (c : dot_S512x512_S512x1024_S512x1024_1_0_0_1_n_n.contr.Idx) :
    (dot_S512x512_S512x1024_S512x1024_1_0_0_1_n_n.lhsIdx i c 1).val = (c ⟨0, by decide⟩).val :=
  dot_S512x512_S512x1024_S512x1024_1_0_0_1_n_n.lhsIdx_val_of_single rfl i c
theorem rhs_pv_0 (i : S512x1024.Idx) (c : dot_S512x512_S512x1024_S512x1024_1_0_0_1_n_n.contr.Idx) :
    (dot_S512x512_S512x1024_S512x1024_1_0_0_1_n_n.rhsIdx i c 0).val = (c ⟨0, by decide⟩).val :=
  dot_S512x512_S512x1024_S512x1024_1_0_0_1_n_n.rhsIdx_val_of_single rfl i c
theorem rhs_pv_1 (i : S512x1024.Idx) (c : dot_S512x512_S512x1024_S512x1024_1_0_0_1_n_n.contr.Idx) :
    (dot_S512x512_S512x1024_S512x1024_1_0_0_1_n_n.rhsIdx i c 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The product of a block of weights p and a 512 x 1024 block w at (r, e): the sum over the 512 columns. -/
theorem pw_apply (p : FVec FF S512x512 .bf16) (w : FVec FF S512x1024 .bf16) (r : Fin 512) (e : Fin 1024) :
    (matmul dot_S512x512_S512x1024_S512x1024_1_0_0_1_n_n none p w (constant (F := FF) S512x1024 .f32 0x00000000#32) (ix2 r e) : EReal)
      = ∑ j : Fin 512, (p (ix2 r j) : EReal) * (w (ix2 j e) : EReal) := by
  simp only [matmul]
  rw [Ideal.matmul_constant_zero_apply, ← Equiv.sum_comp (contrEquiv1 dot_S512x512_S512x1024_S512x1024_1_0_0_1_n_n 512 rfl rfl).symm]
  refine Finset.sum_congr rfl fun j _ => ?_
  have hj := contrEquiv1_symm_val dot_S512x512_S512x1024_S512x1024_1_0_0_1_n_n 512 rfl rfl j
  have el : dot_S512x512_S512x1024_S512x1024_1_0_0_1_n_n.lhsIdx (ix2 r e) ((contrEquiv1 dot_S512x512_S512x1024_S512x1024_1_0_0_1_n_n 512 rfl rfl).symm j) = ix2 r j := funext fun a => Fin.ext (by
    match a with
    | ⟨0, _⟩ => exact lhs_pv_0 _ _
    | ⟨1, _⟩ => exact (lhs_pv_1 _ _).trans hj)
  have er : dot_S512x512_S512x1024_S512x1024_1_0_0_1_n_n.rhsIdx (ix2 r e) ((contrEquiv1 dot_S512x512_S512x1024_S512x1024_1_0_0_1_n_n 512 rfl rfl).symm j) = ix2 j e := funext fun a => Fin.ext (by
    match a with
    | ⟨0, _⟩ => exact (rhs_pv_0 _ _).trans hj
    | ⟨1, _⟩ => exact rhs_pv_1 _ _)
  rw [el, er]

/-- The same with the block the value block v viewed without its unit axis. -/
theorem pv_apply (p : FVec FF S512x512 .bf16) (v : Vec FF S1x512x1024 .bf16) (r : Fin 512) (e : Fin 1024) :
    (matmul dot_S512x512_S512x1024_S512x1024_1_0_0_1_n_n none p (shapeCast S512x1024 v shapeCasts_S1x512x1024_S512x1024)
        (constant (F := FF) S512x1024 .f32 0x00000000#32) (ix2 r e) : EReal)
      = ∑ j : Fin 512, (p (ix2 r j) : EReal) * (v (ix3 0 j e) : EReal) := by
  rw [pw_apply]
  exact Finset.sum_congr rfl fun j _ => by rw [shapeCast_1ab_ab_apply]

/-! ## A step below the diagonal, row by row -/

/-- The new maximum of row r. -/
theorem pay10_apply (q k : Vec FF S1x512x1024 .bf16) (m : Vec FF S512x1 .f32) (r : Fin 512) :
    (k1_pay10 q k m (ix2 r 0) : EReal) = max (m (ix2 r 0)) (Finset.univ.fold max ⊥ (fun j => blkScore q k r j)) := by
  unfold k1_pay10
  rw [maximumf_apply, shapeCast_a_a1_apply, rowMax_apply]
  exact congrArg (max (m (ix2 r 0))) (congrArg (Finset.univ.fold max ⊥) (funext fun j => pay9_apply q k r j))

/-- The factor the old sums of row r are rescaled by. -/
theorem pay11_apply (q k : Vec FF S1x512x1024 .bf16) (m : Vec FF S512x1 .f32) (r : Fin 512) :
    (k1_pay11 q k m (ix2 r 0) : EReal) = Ideal.exp (m (ix2 r 0) - k1_pay10 q k m (ix2 r 0)) := rfl

/-- The weight of column j in row r. -/
theorem pay12_apply (q k : Vec FF S1x512x1024 .bf16) (m : Vec FF S512x1 .f32) (r j : Fin 512) :
    (k1_pay12 q k m (ix2 r j) : EReal) = Ideal.exp (blkScore q k r j - k1_pay10 q k m (ix2 r 0)) := by
  unfold k1_pay12
  show Ideal.exp (k1_pay9 q k (ix2 r j) - broadcastTo S512x512 (k1_pay10 q k m) broadcasts_S512x1_S512x512 (ix2 r j)) = _
  rw [pay9_apply, broadcastTo_a1_ab_apply]

/-- The new normaliser of row r. -/
theorem pay13_apply (q k : Vec FF S1x512x1024 .bf16) (m l : Vec FF S512x1 .f32) (r : Fin 512) :
    (k1_pay13 q k m l (ix2 r 0) : EReal)
      = Ideal.exp (m (ix2 r 0) - k1_pay10 q k m (ix2 r 0)) * l (ix2 r 0)
        + ∑ j : Fin 512, Ideal.exp (blkScore q k r j - k1_pay10 q k m (ix2 r 0)) := by
  unfold k1_pay13
  rw [shapeCast_self, addf_apply, mulf_apply, shapeCast_a_a1_apply, rowSum_apply, pay11_apply]
  exact congrArg (_ + ·) (Finset.sum_congr rfl fun j _ => pay12_apply q k m r j)

/-- The new accumulator of row r at entry e. -/
theorem pay14_apply (q k v : Vec FF S1x512x1024 .bf16) (m : Vec FF S512x1 .f32) (a : Vec FF S512x1024 .f32) (r : Fin 512) (e : Fin 1024) :
    (k1_pay14 q k v m a (ix2 r e) : EReal)
      = Ideal.exp (m (ix2 r 0) - k1_pay10 q k m (ix2 r 0)) * a (ix2 r e)
        + ∑ j : Fin 512, Ideal.exp (blkScore q k r j - k1_pay10 q k m (ix2 r 0)) * v (ix3 0 j e) := by
  unfold k1_pay14
  rw [addf_apply, mulf_apply, broadcastTo_a1_ab_apply, pay11_apply, pv_apply]
  exact congrArg (_ + ·) (Finset.sum_congr rfl fun j _ => by rw [truncf_apply, pay12_apply])

/-- A step below the diagonal is, in each row and at each entry, the one-block step of the running-maximum softmax
    on the row's scores and the value block's column. -/
theorem upd_row (q k v : Vec FF S1x512x1024 .bf16) (S : St) (r : Fin 512) (e : Fin 1024) :
    ((S.upd q k v).m (ix2 r 0), (S.upd q k v).l (ix2 r 0), (S.upd q k v).a (ix2 r e))
      = stepE (S.m (ix2 r 0)) (S.l (ix2 r 0)) (S.a (ix2 r e)) (fun j => blkScore q k r j) (fun j => v (ix3 0 j e)) := by
  have hm : (S.upd q k v).m (ix2 r 0) = max (S.m (ix2 r 0)) (Finset.univ.fold max ⊥ (fun j => blkScore q k r j)) := by
    show k1_pay5 (k1_pay10 q k S.m) (ix2 r 0) = _
    unfold k1_pay5
    rw [shapeCast_self, pay10_apply]
  have hl : (S.upd q k v).l (ix2 r 0) = _ := pay13_apply q k S.m S.l r
  have ha : (S.upd q k v).a (ix2 r e) = k1_pay14 q k v S.m S.a (ix2 r e) := by
    show k1_pay4 (k1_pay14 q k v S.m S.a) (ix2 r e) = _
    unfold k1_pay4
    rw [shapeCast_self]
  rw [pay14_apply] at ha
  rw [pay10_apply] at hl ha
  unfold stepE
  exact Prod.ext hm (Prod.ext hl ha)

/-! ## The causal mask's word arithmetic -/

/-- A coordinate below 512 plus 512 times a block index below 4, as 32-bit words, does not wrap. -/
theorem toNat_off (w : BitVec 32) (hw : w.toNat < 4) (x : Fin 512) :
    (BitVec.ofNat 32 x.val + w * 512#32).toNat = x.val + w.toNat * 512 := by
  have hx := x.isLt
  simp only [BitVec.toNat_add, BitVec.toNat_mul, BitVec.toNat_ofNat]
  omega

/-- So the signed comparison of two such words is the comparison of the coordinates. -/
theorem sle_off (w : BitVec 32) (hw : w.toNat < 4) (r j : Fin 512) :
    (BitVec.ofNat 32 j.val + w * 512#32).sle (BitVec.ofNat 32 r.val + w * 512#32) = decide (j ≤ r) := by
  have hj := toNat_off w hw j
  have hr := toNat_off w hw r
  have hjl := j.isLt
  have hrl := r.isLt
  rw [BitVec.sle_eq_decide, BitVec.toInt_eq_toNat_of_lt (by rw [hj]; omega), BitVec.toInt_eq_toNat_of_lt (by rw [hr]; omega), hj, hr]
  apply decide_eq_decide.mpr
  rw [Fin.le_def]
  omega

/-- The mask bit at (r, j) on the diagonal block w: set iff j ≤ r. -/
theorem mask_word (w : BitVec 32) (hw : w.toNat < 4) (r j : Fin 512) :
    IntOp.cmpi .sge (IntOp.addi (BitVec.ofNat 32 r.val) (Scalar.muli w 512#32)) (IntOp.addi (BitVec.ofNat 32 j.val) (Scalar.muli w 512#32))
      = BitVec.ofBool (decide (j ≤ r)) := by
  show BitVec.ofBool ((BitVec.ofNat 32 j.val + w * 512#32).sle (BitVec.ofNat 32 r.val + w * 512#32)) = _
  rw [sle_off w hw r j]

/-- A selection on that bit is the conditional on j ≤ r. -/
theorem select_mask {α : Type} (r j : Fin 512) (A B : α) :
    Scalar.select (BitVec.ofBool (decide (j ≤ r))) A B = if j ≤ r then A else B := by
  unfold Scalar.select
  by_cases h : j ≤ r
  · rw [if_pos h, decide_eq_true h]; rfl
  · rw [if_neg h, decide_eq_false h]; rfl

/-! ## The diagonal step, row by row -/

/-- The value the certificate's table gives the masked score: −∞. -/
theorem neg_big_eq : Named.named (F := Ideal) κ "neg_big" (φ := .f32) 0xFF333332#32 = ⊥ :=
  IdealRules.named_const.ideal_named_scalar _ _ _ _ rfl

/-- The mask at (r, j) on the diagonal block w: row coordinate plus 512 w against column coordinate plus 512 w. -/
theorem mask_apply (w : BitVec 32) (hw : w.toNat < 4) (r j : Fin 512) :
    cmpi .sge (addi (iota .tc S512x512 32 [0] iota_S512x512_d0_w32) (broadcast S512x512 (Scalar.muli w 512#32)))
        (addi (iota .tc S512x512 32 [1] iota_S512x512_d1_w32) (broadcast S512x512 (Scalar.muli w 512#32))) (ix2 r j)
      = BitVec.ofBool (decide (j ≤ r)) := by
  show IntOp.cmpi .sge (IntOp.addi (iota .tc S512x512 32 [0] iota_S512x512_d0_w32 (ix2 r j)) (Scalar.muli w 512#32))
      (IntOp.addi (iota .tc S512x512 32 [1] iota_S512x512_d1_w32 (ix2 r j)) (Scalar.muli w 512#32)) = _
  rw [iota_single_apply, iota_single_apply]
  exact mask_word w hw r j

/-- The scaled product of the query block and the transposed key block at (r, j). -/
theorem sc_apply (q k : Vec FF S1x512x1024 .bf16) (r j : Fin 512) :
    (mulf (matmul dot_S512x1024_S1024x512_S512x512_1_0_0_1_n_n none
        (shapeCast S512x1024 q shapeCasts_S1x512x1024_S512x1024)
        (transpose S1024x512 [1, 0] (shapeCast S512x1024 k shapeCasts_S1x512x1024_S512x1024) transposes_S512x1024_p1_0_S1024x512)
        (constant (F := FF) S512x512 .f32 0x00000000#32))
      (broadcast S512x512 (Scalar.ofBits (F := FF) .f32 0x3D000000#32)) (ix2 r j) : EReal) = blkScore q k r j := by
  unfold blkScore
  rw [mulf_apply, qk_apply]
  rfl

/-- The block of masked scores at (r, j). -/
theorem pay16_apply (w : BitVec 32) (hw : w.toNat < 4) (q k : Vec FF S1x512x1024 .bf16) (r j : Fin 512) :
    (k1_pay16 w w q k (ix2 r j) : EReal) = if j ≤ r then blkScore q k r j else ⊥ := by
  unfold k1_pay16
  rw [select_apply]
  refine (congrArg₂ (fun c (a : EReal) => Scalar.select c a (Named.named (F := Ideal) κ "neg_big" (φ := .f32) 0xFF333332#32))
    (mask_apply w hw r j) (sc_apply q k r j)).trans ?_
  rw [select_mask, neg_big_eq]

/-- The new maximum of row r. -/
theorem pay17_apply (w : BitVec 32) (hw : w.toNat < 4) (q k : Vec FF S1x512x1024 .bf16) (m : Vec FF S512x1 .f32) (r : Fin 512) :
    (k1_pay17 w w q k m (ix2 r 0) : EReal)
      = max (m (ix2 r 0)) (Finset.univ.fold max ⊥ (fun j => if j ≤ r then blkScore q k r j else ⊥)) := by
  unfold k1_pay17
  rw [maximumf_apply, shapeCast_a_a1_apply, rowMax_apply]
  exact congrArg (max (m (ix2 r 0))) (congrArg (Finset.univ.fold max ⊥) (funext fun j => pay16_apply w hw q k r j))

theorem pay18_apply (w : BitVec 32) (q k : Vec FF S1x512x1024 .bf16) (m : Vec FF S512x1 .f32) (r : Fin 512) :
    (k1_pay18 w w q k m (ix2 r 0) : EReal) = Ideal.exp (m (ix2 r 0) - k1_pay17 w w q k m (ix2 r 0)) := rfl

theorem pay19_apply (w : BitVec 32) (hw : w.toNat < 4) (q k : Vec FF S1x512x1024 .bf16) (m : Vec FF S512x1 .f32) (r j : Fin 512) :
    (k1_pay19 w w q k m (ix2 r j) : EReal)
      = Ideal.exp ((if j ≤ r then blkScore q k r j else ⊥) - k1_pay17 w w q k m (ix2 r 0)) := by
  unfold k1_pay19
  show Ideal.exp (k1_pay16 w w q k (ix2 r j) - broadcastTo S512x512 (k1_pay17 w w q k m) broadcasts_S512x1_S512x512 (ix2 r j)) = _
  rw [pay16_apply w hw, broadcastTo_a1_ab_apply]

theorem pay20_apply (w : BitVec 32) (hw : w.toNat < 4) (q k : Vec FF S1x512x1024 .bf16) (m l : Vec FF S512x1 .f32) (r : Fin 512) :
    (k1_pay20 w w q k m l (ix2 r 0) : EReal)
      = Ideal.exp (m (ix2 r 0) - k1_pay17 w w q k m (ix2 r 0)) * l (ix2 r 0)
        + ∑ j : Fin 512, Ideal.exp ((if j ≤ r then blkScore q k r j else ⊥) - k1_pay17 w w q k m (ix2 r 0)) := by
  unfold k1_pay20
  rw [shapeCast_self, addf_apply, mulf_apply, shapeCast_a_a1_apply, rowSum_apply, pay18_apply]
  exact congrArg (_ + ·) (Finset.sum_congr rfl fun j _ => pay19_apply w hw q k m r j)

/-- The accumulator's update from a rescaling column α, a block of weights p and the value block. -/
theorem pay6_apply (v : Vec FF S1x512x1024 .bf16) (α : FVec FF S512x1 .f32) (p : FVec FF S512x512 .f32) (a : Vec FF S512x1024 .f32)
    (r : Fin 512) (e : Fin 1024) :
    (k1_pay6 (k1_pay15 v) α p a (ix2 r e) : EReal) = α (ix2 r 0) * a (ix2 r e) + ∑ j : Fin 512, p (ix2 r j) * v (ix3 0 j e) := by
  unfold k1_pay6 k1_pay15
  rw [shapeCast_self, addf_apply, mulf_apply, broadcastTo_a1_ab_apply, pv_apply]
  rfl

/-- The diagonal step is, in each row and at each entry, the one-block step of the running-maximum softmax on the
    row's scores with the columns past the row's own masked to −∞. -/
theorem diag_row (w : BitVec 32) (hw : w.toNat < 4) (q k v : Vec FF S1x512x1024 .bf16) (S : St) (r : Fin 512) (e : Fin 1024) :
    ((S.diag w w q k v).m (ix2 r 0), (S.diag w w q k v).l (ix2 r 0), (S.diag w w q k v).a (ix2 r e))
      = stepE (S.m (ix2 r 0)) (S.l (ix2 r 0)) (S.a (ix2 r e)) (fun j => if j ≤ r then blkScore q k r j else ⊥) (fun j => v (ix3 0 j e)) := by
  have hm : (S.diag w w q k v).m (ix2 r 0) = k1_pay17 w w q k S.m (ix2 r 0) := by
    show k1_pay7 (k1_pay17 w w q k S.m) (ix2 r 0) = _
    unfold k1_pay7
    rw [shapeCast_self]
  have hl : (S.diag w w q k v).l (ix2 r 0) = k1_pay20 w w q k S.m S.l (ix2 r 0) := rfl
  have ha : (S.diag w w q k v).a (ix2 r e)
      = k1_pay18 w w q k S.m (ix2 r 0) * S.a (ix2 r e) + ∑ j : Fin 512, k1_pay19 w w q k S.m (ix2 r j) * v (ix3 0 j e) :=
    pay6_apply v _ _ S.a r e
  rw [pay20_apply w hw] at hl
  rw [pay18_apply, Finset.sum_congr rfl fun j _ => by rw [pay19_apply w hw]] at ha
  rw [pay17_apply w hw] at hm hl ha
  unfold stepE
  exact Prod.ext hm (Prod.ext hl ha)

/-! ## The start state and the stored quotient -/

theorem reset_m (i : S512x1.Idx) : (St.reset.m i : EReal) = ⊥ := by
  show k1_pay1 (F := FF) i = ⊥
  unfold k1_pay1
  rw [shapeCast_self]
  exact ofBits_neg_inf

theorem reset_l (i : S512x1.Idx) : (St.reset.l i : EReal) = 0 := by
  show k1_pay2 (F := FF) i = 0
  unfold k1_pay2
  rw [shapeCast_self]
  exact Ideal.ofBits_zero_f32

theorem reset_a (i : S512x1024.Idx) : (St.reset.a i : EReal) = 0 := by
  show k1_pay3 (F := FF) i = 0
  unfold k1_pay3
  rw [shapeCast_self]
  exact Ideal.ofBits_zero_f32

/-- The stored output at row r and entry e: the accumulator over the normaliser. -/
theorem out_row (S : St) (r : Fin 512) (e : Fin 1024) :
    (S.out (ix3 0 r e) : EReal) = Ideal.div (S.a (ix2 r e)) (S.l (ix2 r 0)) := by
  show k1_pay8 S.a S.l (ix3 0 r e) = _
  unfold k1_pay8
  rw [shapeCast_ab_1ab_apply, divf_apply, broadcastTo_a1_ab_apply]

end Cert.KernelIdeal.H

end
-- ==== Proof.LibCausalBlocks.lean ====
import proofs.«417288_j44684839747926_3_alg».proof.Proof.LibOnlineSoftmax
import proofs.«417288_j44684839747926_3_alg».proof.Proof.SpecQKV

/-!
# Causal attention's row, block by block

The sequence of 2048 positions is cut into 4 blocks of 512.  Row `r` of query block `Q`
is the query position `i = 512 Q + r`; it sees the key positions `p ≤ i`, that is every
column of the key blocks `0, …, Q - 1` and the columns `j ≤ r` of the diagonal block `Q`.

Writing a key position as `p = 512 t + j` (block `t = p / 512`, column `j = p % 512`)
is a bijection between the pairs `(t, j)` with `t ≤ Q` and `j` visible in block `t`, and the
positions `p ≤ i`.  Hence a sum over the blocks `0..Q` and their visible columns is the
sum over the visible positions, the greatest score over the blocks is the row's greatest
visible score, and the quotient `acc / l` of the running-maximum recurrence over the key
blocks `0..Q`, which is the softmax-weighted sum over the pairs `(t, j)`, is causal
attention's value at `i`.
-/

noncomputable section

namespace Cert.Spec

open Cert.OnlineSoftmax

/-- key position of column j of key block kvb (the block index clipped to the four blocks) -/
def keyPos (kvb : ℕ) (j : Fin 512) : Fin 2048 := ⟨512 * (min kvb 3) + j.val, by omega⟩

/-- query position of row r of query block Q -/
def qPos (Q : Fin 4) (r : Fin 512) : Fin 2048 := ⟨512 * Q.val + r.val, by omega⟩

/-- the key columns of block kvb that row r of query block Q sees: all of a block before the
diagonal one, the columns not after r of the diagonal block -/
def actv (Q : Fin 4) (r : Fin 512) (kvb : ℕ) : Finset (Fin 512) :=
  if kvb < Q.val then Finset.univ else Finset.univ.filter (fun j => j ≤ r)

/-- a column is visible iff its block is before the diagonal one or the column is not after `r` -/
theorem mem_actv (Q : Fin 4) (r : Fin 512) (kvb : ℕ) (j : Fin 512) :
    j ∈ actv Q r kvb ↔ kvb < Q.val ∨ j ≤ r := by
  unfold actv
  by_cases h : kvb < Q.val
  · rw [if_pos h]
    exact ⟨fun _ => Or.inl h, fun _ => Finset.mem_univ j⟩
  · rw [if_neg h, Finset.mem_filter]
    exact ⟨fun hj => Or.inr hj.2, fun hj => ⟨Finset.mem_univ j, hj.resolve_left h⟩⟩

/-- column 0 is visible in every block -/
theorem actv_nonempty (Q : Fin 4) (r : Fin 512) (kvb : ℕ) : (actv Q r kvb).Nonempty :=
  ⟨⟨0, by omega⟩, (mem_actv Q r kvb _).2 (Or.inr (Nat.zero_le r.val))⟩

/-- the scores of row `r` of query block `Q` against key block `kvb` -/
def blkS (q k : Fin 8 → Fin 2048 → Fin 1024 → ℝ) (b : Fin 8) (Q : Fin 4) (r : Fin 512)
    (kvb : ℕ) (j : Fin 512) : ℝ := score q k b (qPos Q r) (keyPos kvb j)

/-- column `e` of the value rows of key block `kvb` -/
def blkV (v : Fin 8 → Fin 2048 → Fin 1024 → ℝ) (b : Fin 8) (e : Fin 1024) (kvb : ℕ)
    (j : Fin 512) : ℝ := v b (keyPos kvb j) e

/-! ### Positions and (block, column) pairs -/

/-- the block of a position: `p / 512` -/
def blkOf (p : Fin 2048) : ℕ := p.val / 512

/-- the column of a position within its block: `p % 512` -/
def colOf (p : Fin 2048) : Fin 512 := ⟨p.val % 512, by omega⟩

/-- `p = 512 (p / 512) + p % 512` -/
theorem keyPos_blkOf_colOf (p : Fin 2048) : keyPos (blkOf p) (colOf p) = p := by
  apply Fin.ext
  show 512 * (min (p.val / 512) 3) + p.val % 512 = p.val
  omega

/-- `(512 t + j) / 512 = t` for a block `t ≤ 3` -/
theorem blkOf_keyPos (t : ℕ) (ht : t ≤ 3) (j : Fin 512) : blkOf (keyPos t j) = t := by
  show (512 * (min t 3) + j.val) / 512 = t
  omega

/-- `(512 t + j) % 512 = j` -/
theorem colOf_keyPos (t : ℕ) (j : Fin 512) : colOf (keyPos t j) = j := by
  apply Fin.ext
  show (512 * (min t 3) + j.val) % 512 = j.val
  omega

/-- a visible column of a block `t ≤ Q` is a visible position -/
theorem keyPos_mem_causal (Q : Fin 4) (r : Fin 512) (t : ℕ) (j : Fin 512) (ht : t ≤ Q.val)
    (hj : j ∈ actv Q r t) : keyPos t j ∈ causal (qPos Q r) := by
  rw [mem_actv] at hj
  unfold causal
  rw [Finset.mem_filter]
  refine ⟨Finset.mem_univ _, ?_⟩
  show 512 * (min t 3) + j.val ≤ 512 * Q.val + r.val
  rcases hj with h | h
  · omega
  · have h' : j.val ≤ r.val := h
    omega

/-- a visible position is `≤ 512 Q + r` -/
theorem le_of_mem_causal (Q : Fin 4) (r : Fin 512) (p : Fin 2048) (hp : p ∈ causal (qPos Q r)) :
    p.val ≤ 512 * Q.val + r.val := by
  unfold causal at hp
  rw [Finset.mem_filter] at hp
  exact hp.2

/-- a visible position lies in a block `≤ Q` -/
theorem blkOf_le (Q : Fin 4) (r : Fin 512) (p : Fin 2048) (hp : p ∈ causal (qPos Q r)) :
    blkOf p ≤ Q.val := by
  have h := le_of_mem_causal Q r p hp
  show p.val / 512 ≤ Q.val
  omega

/-- a visible position's column is visible in its block -/
theorem colOf_mem_actv (Q : Fin 4) (r : Fin 512) (p : Fin 2048) (hp : p ∈ causal (qPos Q r)) :
    colOf p ∈ actv Q r (blkOf p) := by
  have h := le_of_mem_causal Q r p hp
  rw [mem_actv]
  by_cases hlt : p.val / 512 < Q.val
  · exact Or.inl hlt
  · refine Or.inr ?_
    show p.val % 512 ≤ r.val
    omega

/-- a sum over the blocks `0..Q` and their visible columns is the sum over the visible positions -/
theorem sum_blocks (Q : Fin 4) (r : Fin 512) (f : Fin 2048 → ℝ) :
    ∑ t ∈ Finset.range (Q.val + 1), ∑ j ∈ actv Q r t, f (keyPos t j)
      = ∑ p ∈ causal (qPos Q r), f p := by
  rw [Finset.sum_sigma']
  refine Finset.sum_nbij' (fun x => keyPos x.1 x.2) (fun p => ⟨blkOf p, colOf p⟩) ?_ ?_ ?_ ?_ ?_
  · rintro ⟨t, j⟩ hx
    rw [Finset.mem_sigma, Finset.mem_range] at hx
    exact keyPos_mem_causal Q r t j (Nat.lt_succ_iff.mp hx.1) hx.2
  · intro p hp
    rw [Finset.mem_sigma, Finset.mem_range]
    exact ⟨Nat.lt_succ_of_le (blkOf_le Q r p hp), colOf_mem_actv Q r p hp⟩
  · rintro ⟨t, j⟩ hx
    rw [Finset.mem_sigma, Finset.mem_range] at hx
    have ht : t ≤ 3 := by
      have h1 : t < Q.val + 1 := hx.1
      omega
    show (⟨blkOf (keyPos t j), colOf (keyPos t j)⟩ : (_ : ℕ) × Fin 512) = ⟨t, j⟩
    rw [blkOf_keyPos t ht j, colOf_keyPos t j]
  · intro p _
    exact keyPos_blkOf_colOf p
  · rintro ⟨t, j⟩ _
    rfl

/-! ### The recurrence over the key blocks `0..Q` -/

/-- the recurrence's maximum is the row's greatest visible score -/
theorem run_m_eq_rowMax (q k v : Fin 8 → Fin 2048 → Fin 1024 → ℝ) (b : Fin 8) (Q : Fin 4)
    (r : Fin 512) (e : Fin 1024) :
    (run (actv Q r) (actv_nonempty Q r) (blkS q k b Q r) (blkV v b e) Q.val).m
      = rowMax q k b (qPos Q r) := by
  apply le_antisymm
  · obtain ⟨t, ht, j, hj, h⟩ :=
      run_m_attained (actv Q r) (actv_nonempty Q r) (blkS q k b Q r) (blkV v b e) Q.val
    rw [h]
    exact Finset.le_sup' (score q k b (qPos Q r)) (keyPos_mem_causal Q r t j ht hj)
  · refine Finset.sup'_le _ _ fun p hp => ?_
    have h := run_m_ge (actv Q r) (actv_nonempty Q r) (blkS q k b Q r) (blkV v b e) Q.val
      (blkOf p) (blkOf_le Q r p hp) (colOf p) (colOf_mem_actv Q r p hp)
    unfold blkS at h
    rw [keyPos_blkOf_colOf] at h
    exact h

/-- the recurrence over the key blocks `0..Q` computes causal attention's row -/
theorem attn_row_blocks (q k v : Fin 8 → Fin 2048 → Fin 1024 → ℝ) (b : Fin 8) (Q : Fin 4)
    (r : Fin 512) (e : Fin 1024) :
    (run (actv Q r) (actv_nonempty Q r) (blkS q k b Q r) (blkV v b e) Q.val).acc
        / (run (actv Q r) (actv_nonempty Q r) (blkS q k b Q r) (blkV v b e) Q.val).l
      = attnOf q k v b (qPos Q r) e := by
  rw [run_quotient, run_m_eq_rowMax]
  have hD : (∑ t' ∈ Finset.range (Q.val + 1), ∑ j' ∈ actv Q r t',
        Real.exp (blkS q k b Q r t' j' - rowMax q k b (qPos Q r)))
      = ∑ p' ∈ causal (qPos Q r), wgt q k b (qPos Q r) p' :=
    sum_blocks Q r (fun p => wgt q k b (qPos Q r) p)
  rw [hD]
  exact sum_blocks Q r (fun p =>
    wgt q k b (qPos Q r) p / (∑ p' ∈ causal (qPos Q r), wgt q k b (qPos Q r) p') * v b p e)

end Cert.Spec

end
-- ==== Proof.KI.Val1.lean ====
import proofs.«417288_j44684839747926_3_alg».proof.Proof.KI.R1Sched
import proofs.«417288_j44684839747926_3_alg».proof.Proof.KI.Val1Defs
import proofs.«417288_j44684839747926_3_alg».proof.Proof.KI.Val1Rows
import proofs.«417288_j44684839747926_3_alg».proof.Proof.LibOnlineSoftmaxE
import proofs.«417288_j44684839747926_3_alg».proof.Proof.LibCausalBlocks
import Idealize.ShloMosaic.Lib.Pipeline.Value
import Idealize.ShloMosaic.Lib.ValueIdx
import Idealize.ShloMosaic.PureOps.Ideal.Laws

/-! What the attention call leaves in its output array, index by index.

    The fused array is 8 x 2048 x 3072: queries in columns 0-1023, keys in 1024-2047, values in 2048-3071; the output
    array is 8 x 2048 x 1024. A batch's ten steps visit the pairs (query block, key block) of the lower triangle row by
    row. Row r of the carried state is, at every step, the state of the running-maximum softmax recurrence over the key
    blocks visited so far for the step's query block: the first key block starts it from (−∞, 0, 0), every further one
    continues it, and the diagonal one enters with the columns past the row masked. So at a diagonal step the stored
    quotient of accumulator and normaliser is causal attention's value at the row's position, the diagonal steps'
    blocks tile the output array, and the array ends holding causal attention of the three column blocks. -/

noncomputable section

namespace Cert.KernelIdeal.H

open Idealize.ShloMosaic Idealize.ShloMosaic.TcCoe Idealize.SL.Sem
open Idealize.ShloMosaic.Pipeline (Dat)
open Idealize.ShloMosaic.ValueIdx
open Cert.KernelIdeal Cert.KernelIdeal.Gen
open Cert.Spec (qPos keyPos actv actv_nonempty mem_actv blkS blkV attn_row_blocks attnOf score)

/-! ## The scale -/

/-- The scale word is one thirty-second. -/
theorem scale_eq : (Ideal.ofBits .f32 0x3D000000#32 : EReal) = (((1 : ℝ) / 32 : ℝ) : EReal) := by
  simp [Ideal.ofBits, Ideal.ieee]
  rw [← EReal.coe_mul]
  congr 1
  norm_num

/-! ## One block's scores and one step, over the reals -/

/-- A block score whose query row and key row are real is the real scaled score. -/
theorem blkScore_coe (qb kb : Vec FF S1x512x1024 .bf16) (q k : Fin 8 → Fin 2048 → Fin 1024 → ℝ) (b : Fin 8) (i p : Fin 2048)
    (r j : Fin 512)
    (hq : ∀ d : Fin 1024, (qb (ix3 0 r d) : EReal) = ((q b i d : ℝ) : EReal))
    (hk : ∀ d : Fin 1024, (kb (ix3 0 j d) : EReal) = ((k b p d : ℝ) : EReal)) :
    blkScore qb kb r j = ((score q k b i p : ℝ) : EReal) := by
  unfold blkScore score
  rw [scale_eq, show ((∑ e : Fin 1024, q b i e * k b p e) / 32 : ℝ) = (∑ e : Fin 1024, q b i e * k b p e) * (1 / 32) from div_eq_mul_one_div _ _,
    EReal.coe_mul, Cert.OnlineSoftmax.coe_sum]
  congr 1
  refine Finset.sum_congr rfl fun d _ => ?_
  rw [hq d, hk d, EReal.coe_mul]

/-- The state `S` holds, at row `r` and column `e`, the real recurrence state `R`. -/
def Holds (S : St) (r : Fin 512) (e : Fin 1024) (R : Cert.OnlineSoftmax.St) : Prop :=
  (S.m (ix2 r 0), S.l (ix2 r 0), S.a (ix2 r e)) = ((R.m : EReal), (R.l : EReal), (R.acc : EReal))

section step

variable (qb kb vb : Vec FF S1x512x1024 .bf16) (r : Fin 512) (e : Fin 1024)
  (A : Finset (Fin 512)) (hA : A.Nonempty) (s v : Fin 512 → ℝ)

/-- A plain update from the reset state is the recurrence's first block. -/
theorem upd_first
    (hs : ∀ j, blkScore qb kb r j = if j ∈ A then ((s j : ℝ) : EReal) else ⊥)
    (hv : ∀ j, (vb (ix3 0 j e) : EReal) = ((v j : ℝ) : EReal)) :
    Holds (St.reset.upd qb kb vb) r e (Cert.OnlineSoftmax.first A hA s v) := by
  unfold Holds
  rw [upd_row, reset_m, reset_l, reset_a]
  exact Cert.OnlineSoftmax.stepE_first A hA s v _ _ hs hv

/-- A plain update from a state holding `R` is the recurrence's next block. -/
theorem upd_next (S : St) (R : Cert.OnlineSoftmax.St) (h : Holds S r e R)
    (hs : ∀ j, blkScore qb kb r j = if j ∈ A then ((s j : ℝ) : EReal) else ⊥)
    (hv : ∀ j, (vb (ix3 0 j e) : EReal) = ((v j : ℝ) : EReal)) :
    Holds (S.upd qb kb vb) r e (Cert.OnlineSoftmax.next R A hA s v) := by
  unfold Holds at h ⊢
  obtain ⟨hm, h2⟩ := Prod.mk.inj h
  obtain ⟨hl, ha⟩ := Prod.mk.inj h2
  rw [upd_row, hm, hl, ha]
  exact Cert.OnlineSoftmax.stepE_next R A hA s v _ _ hs hv

/-- A masked update from the reset state is the recurrence's first block. -/
theorem diag_first (w1 w3 : BitVec 32) (hw : w3 = w1) (hw4 : w1.toNat < 4)
    (hs : ∀ j, (if j ≤ r then blkScore qb kb r j else ⊥) = if j ∈ A then ((s j : ℝ) : EReal) else ⊥)
    (hv : ∀ j, (vb (ix3 0 j e) : EReal) = ((v j : ℝ) : EReal)) :
    Holds (St.reset.diag w1 w3 qb kb vb) r e (Cert.OnlineSoftmax.first A hA s v) := by
  subst hw
  unfold Holds
  rw [diag_row w3 hw4, reset_m, reset_l, reset_a]
  exact Cert.OnlineSoftmax.stepE_first A hA s v _ _ hs hv

/-- A masked update from a state holding `R` is the recurrence's next block. -/
theorem diag_next (w1 w3 : BitVec 32) (hw : w3 = w1) (hw4 : w1.toNat < 4) (S : St) (R : Cert.OnlineSoftmax.St) (h : Holds S r e R)
    (hs : ∀ j, (if j ≤ r then blkScore qb kb r j else ⊥) = if j ∈ A then ((s j : ℝ) : EReal) else ⊥)
    (hv : ∀ j, (vb (ix3 0 j e) : EReal) = ((v j : ℝ) : EReal)) :
    Holds (S.diag w1 w3 qb kb vb) r e (Cert.OnlineSoftmax.next R A hA s v) := by
  subst hw
  unfold Holds at h ⊢
  obtain ⟨hm, h2⟩ := Prod.mk.inj h
  obtain ⟨hl, ha⟩ := Prod.mk.inj h2
  rw [diag_row w3 hw4, hm, hl, ha]
  exact Cert.OnlineSoftmax.stepE_next R A hA s v _ _ hs hv

end step

/-- The stored quotient of a state holding `R` with a nonzero normaliser is the real quotient. -/
theorem out_holds (S : St) (r : Fin 512) (e : Fin 1024) (R : Cert.OnlineSoftmax.St) (h : Holds S r e R) (hl0 : R.l ≠ 0) :
    (S.out (ix3 0 r e) : EReal) = ((R.acc / R.l : ℝ) : EReal) := by
  unfold Holds at h
  obtain ⟨hm, h2⟩ := Prod.mk.inj h
  obtain ⟨hl, ha⟩ := Prod.mk.inj h2
  rw [out_row, ha, hl]
  exact Cert.OnlineSoftmax.div_coe_coe _ _ hl0

/-- The real recurrence of row `r` of query block `Q` of batch `b`, column `e`, over the key blocks `0..K`. -/
def Rrow (q k v : Fin 8 → Fin 2048 → Fin 1024 → ℝ) (b : Fin 8) (Q : Fin 4) (r : Fin 512) (e : Fin 1024) (K : ℕ) :
    Cert.OnlineSoftmax.St :=
  Cert.OnlineSoftmax.run (actv Q r) (actv_nonempty Q r) (blkS q k b Q r) (blkV v b e) K

/-! ## The schedule's numbers, decided over the eighty points -/

/-- The block indices of the four windows: batch, query or key block, column block. -/
theorem idx_facts1 : ∀ t : Fin cfgT.N,
    (cfgT.win 0).index t (0 : Fin 3) = (crd t 0).val ∧ (cfgT.win 0).index t (1 : Fin 3) = (wQ (crd t)).toNat ∧ (cfgT.win 0).index t (2 : Fin 3) = 0
    ∧ (cfgT.win 1).index t (0 : Fin 3) = (crd t 0).val ∧ (cfgT.win 1).index t (1 : Fin 3) = (wK (crd t)).toNat ∧ (cfgT.win 1).index t (2 : Fin 3) = 1
    ∧ (cfgT.win 2).index t (0 : Fin 3) = (crd t 0).val ∧ (cfgT.win 2).index t (1 : Fin 3) = (wK (crd t)).toNat ∧ (cfgT.win 2).index t (2 : Fin 3) = 2
    ∧ (cfgT.win 3).index t (0 : Fin 3) = (crd t 0).val ∧ (cfgT.win 3).index t (1 : Fin 3) = (wQ (crd t)).toNat ∧ (cfgT.win 3).index t (2 : Fin 3) = 0 := by
  decide +kernel

/-- At every step: the query block is one of four, the key block is not after it, the first key block is block 0, the
    diagonal step is the one whose key block is the query block, and there the two table words agree. -/
theorem num_facts : ∀ t : Fin cfgT.N,
    (wQ (crd t)).toNat < 4 ∧ (wK (crd t)).toNat ≤ (wQ (crd t)).toNat
    ∧ (isFirst (wK (crd t)) ↔ (wK (crd t)).toNat = 0)
    ∧ (isDiag (wQ (crd t)) (wK (crd t)) ↔ (wK (crd t)).toNat = (wQ (crd t)).toNat)
    ∧ (isDiag (wQ (crd t)) (wK (crd t)) → wK (crd t) = wQ (crd t)) := by
  decide +kernel

/-- A step whose key block is not the first follows the step of the same batch and query block at the key block before. -/
theorem pred_facts : ∀ s t : Fin cfgT.N, s.val + 1 = t.val → ¬ isFirst (wK (crd t)) →
    (crd t 0).val = (crd s 0).val ∧ (wQ (crd t)).toNat = (wQ (crd s)).toNat ∧ (wK (crd t)).toNat = (wK (crd s)).toNat + 1 := by
  decide +kernel

/-- Every batch and query block has its diagonal step, which writes the output block back. -/
theorem diag_point : ∀ (b : Fin 8) (Q : Fin 4), ∃ t : Fin cfgT.N, (cfgT.win 3).flush t = true
    ∧ (cfgT.win 3).index t (0 : Fin 3) = b.val ∧ (cfgT.win 3).index t (1 : Fin 3) = Q.val ∧ (cfgT.win 3).index t (2 : Fin 3) = 0 := by
  decide +kernel

/-- The batch, the query block and the key block of a step. -/
def bT (t : Fin cfgT.N) : Fin 8 := ⟨(crd t 0).val, (crd t 0).isLt⟩
def QT (t : Fin cfgT.N) : Fin 4 := ⟨(wQ (crd t)).toNat, (num_facts t).1⟩
def KT (t : Fin cfgT.N) : ℕ := (wK (crd t)).toNat

variable (V : (c : Dev nD) → (b : Ref sig .tc) → Buf (Elt FF) ((c : Thread nD τ).loc b))

/-! ## The blocks a step reads -/

/-- The query block of a step, entry by entry. -/
theorem iblk1_q (c : Dev nD) (t : Fin cfgT.N) (r : Fin 512) (d : Fin 1024) :
    (iblk1 V c 0 t (ix3 0 r d) : EReal)
      = V c main_v4 (ix3 (bT t) (qPos (QT t) r) ⟨1024 * (0 : Fin 3).val + d.val, by have := d.isLt; show 1024 * 0 + d.val < 3072; omega⟩) := by
  obtain ⟨e0, e1, e2, -⟩ := idx_facts1 t
  show V c main_v4 (((cfgT.win 0).blk t).view.emb (ix3 0 r d)) = _
  refine congrArg (V c main_v4) ?_
  funext a; apply Fin.ext
  match a with
  | ⟨0, _⟩ => show (cfgT.win 0).index t (0 : Fin 3) * 1 + 1 * 0 = (crd t 0).val; omega
  | ⟨1, _⟩ => show (cfgT.win 0).index t (1 : Fin 3) * 512 + 1 * r.val = 512 * (wQ (crd t)).toNat + r.val; omega
  | ⟨2, _⟩ => show (cfgT.win 0).index t (2 : Fin 3) * 1024 + 1 * d.val = 1024 * 0 + d.val; omega

/-- The key block of a step, entry by entry. -/
theorem iblk1_k (c : Dev nD) (t : Fin cfgT.N) (j : Fin 512) (d : Fin 1024) :
    (iblk1 V c 1 t (ix3 0 j d) : EReal)
      = V c main_v4 (ix3 (bT t) (keyPos (KT t) j) ⟨1024 * (1 : Fin 3).val + d.val, by have := d.isLt; show 1024 * 1 + d.val < 3072; omega⟩) := by
  obtain ⟨-, -, -, e0, e1, e2, -⟩ := idx_facts1 t
  obtain ⟨h4, hle, -⟩ := num_facts t
  show V c main_v4 (((cfgT.win 1).blk t).view.emb (ix3 0 j d)) = _
  refine congrArg (V c main_v4) ?_
  funext a; apply Fin.ext
  match a with
  | ⟨0, _⟩ => show (cfgT.win 1).index t (0 : Fin 3) * 1 + 1 * 0 = (crd t 0).val; omega
  | ⟨1, _⟩ => show (cfgT.win 1).index t (1 : Fin 3) * 512 + 1 * j.val = 512 * (min (wK (crd t)).toNat 3) + j.val; omega
  | ⟨2, _⟩ => show (cfgT.win 1).index t (2 : Fin 3) * 1024 + 1 * d.val = 1024 * 1 + d.val; omega

/-- The value block of a step, entry by entry. -/
theorem iblk1_v (c : Dev nD) (t : Fin cfgT.N) (j : Fin 512) (d : Fin 1024) :
    (iblk1 V c 2 t (ix3 0 j d) : EReal)
      = V c main_v4 (ix3 (bT t) (keyPos (KT t) j) ⟨1024 * (2 : Fin 3).val + d.val, by have := d.isLt; show 1024 * 2 + d.val < 3072; omega⟩) := by
  obtain ⟨-, -, -, -, -, -, e0, e1, e2, -⟩ := idx_facts1 t
  obtain ⟨h4, hle, -⟩ := num_facts t
  show V c main_v4 (((cfgT.win 2).blk t).view.emb (ix3 0 j d)) = _
  refine congrArg (V c main_v4) ?_
  funext a; apply Fin.ext
  match a with
  | ⟨0, _⟩ => show (cfgT.win 2).index t (0 : Fin 3) * 1 + 1 * 0 = (crd t 0).val; omega
  | ⟨1, _⟩ => show (cfgT.win 2).index t (1 : Fin 3) * 512 + 1 * j.val = 512 * (min (wK (crd t)).toNat 3) + j.val; omega
  | ⟨2, _⟩ => show (cfgT.win 2).index t (2 : Fin 3) * 1024 + 1 * d.val = 1024 * 2 + d.val; omega

/-- The three real arrays the fused array holds. -/
abbrev qRe (c : Dev nD) : Fin 8 → Fin 2048 → Fin 1024 → ℝ := qkvRe (V c main_v4) 0
abbrev kRe (c : Dev nD) : Fin 8 → Fin 2048 → Fin 1024 → ℝ := qkvRe (V c main_v4) 1
abbrev vRe (c : Dev nD) : Fin 8 → Fin 2048 → Fin 1024 → ℝ := qkvRe (V c main_v4) 2

theorem q_real (c : Dev nD) (hfin : FinQKV (V c main_v4)) (t : Fin cfgT.N) (r : Fin 512) (d : Fin 1024) :
    (iblk1 V c 0 t (ix3 0 r d) : EReal) = ((qRe V c (bT t) (qPos (QT t) r) d : ℝ) : EReal) :=
  (iblk1_q V c t r d).trans (hfin.eq 0 (bT t) (qPos (QT t) r) d)

theorem k_real (c : Dev nD) (hfin : FinQKV (V c main_v4)) (t : Fin cfgT.N) (j : Fin 512) (d : Fin 1024) :
    (iblk1 V c 1 t (ix3 0 j d) : EReal) = ((kRe V c (bT t) (keyPos (KT t) j) d : ℝ) : EReal) :=
  (iblk1_k V c t j d).trans (hfin.eq 1 (bT t) (keyPos (KT t) j) d)

theorem v_real (c : Dev nD) (hfin : FinQKV (V c main_v4)) (t : Fin cfgT.N) (j : Fin 512) (e : Fin 1024) :
    (iblk1 V c 2 t (ix3 0 j e) : EReal) = ((blkV (vRe V c) (bT t) e (KT t) j : ℝ) : EReal) :=
  (iblk1_v V c t j e).trans (hfin.eq 2 (bT t) (keyPos (KT t) j) e)

/-! ## The carried state, step by step -/

/-- The real recurrence of row `r`, column `e` after step `t`: the key blocks up to the step's, of the step's batch and
    query block. -/
def Rt (c : Dev nD) (t : Fin cfgT.N) (r : Fin 512) (e : Fin 1024) : Cert.OnlineSoftmax.St :=
  Rrow (qRe V c) (kRe V c) (vRe V c) (bT t) (QT t) r e (KT t)

/-- Below the diagonal every column of the key block is visible, at its real score. -/
theorem hs_below (c : Dev nD) (hfin : FinQKV (V c main_v4)) (t : Fin cfgT.N) (hK : KT t < (QT t).val) (r : Fin 512) (j : Fin 512) :
    blkScore (iblk1 V c 0 t) (iblk1 V c 1 t) r j
      = if j ∈ actv (QT t) r (KT t) then ((blkS (qRe V c) (kRe V c) (bT t) (QT t) r (KT t) j : ℝ) : EReal) else ⊥ := by
  rw [if_pos ((mem_actv (QT t) r (KT t) j).2 (Or.inl hK))]
  exact blkScore_coe (iblk1 V c 0 t) (iblk1 V c 1 t) (qRe V c) (kRe V c) (bT t) (qPos (QT t) r) (keyPos (KT t) j) r j
    (fun d => q_real V c hfin t r d) (fun d => k_real V c hfin t j d)

/-- On the diagonal the columns not after the row are visible, at their real scores; the others are masked. -/
theorem hs_diag (c : Dev nD) (hfin : FinQKV (V c main_v4)) (t : Fin cfgT.N) (hK : KT t = (QT t).val) (r : Fin 512) (j : Fin 512) :
    (if j ≤ r then blkScore (iblk1 V c 0 t) (iblk1 V c 1 t) r j else ⊥)
      = if j ∈ actv (QT t) r (KT t) then ((blkS (qRe V c) (kRe V c) (bT t) (QT t) r (KT t) j : ℝ) : EReal) else ⊥ := by
  have hm : j ∈ actv (QT t) r (KT t) ↔ j ≤ r := by
    rw [mem_actv]
    exact ⟨fun h => h.resolve_left (by omega), Or.inr⟩
  by_cases hj : j ≤ r
  · rw [if_pos hj, if_pos (hm.2 hj)]
    exact blkScore_coe (iblk1 V c 0 t) (iblk1 V c 1 t) (qRe V c) (kRe V c) (bT t) (qPos (QT t) r) (keyPos (KT t) j) r j
      (fun d => q_real V c hfin t r d) (fun d => k_real V c hfin t j d)
  · rw [if_neg hj, if_neg (fun h => hj (hm.1 h))]

/-- ONE STEP: if the state before a step that continues a row of blocks holds the recurrence of the step before, the
    state after holds the recurrence of the step. -/
theorem step_holds (c : Dev nD) (hfin : FinQKV (V c main_v4)) (t : Fin cfgT.N) (p : St × Vec FF S1x512x1024 .f32)
    (r : Fin 512) (e : Fin 1024)
    (hp : ¬ isFirst (wK (crd t)) → ∃ s : Fin cfgT.N, s.val + 1 = t.val ∧ Holds p.1 r e (Rt V c s r e)) :
    Holds (step1 V c t p).1 r e (Rt V c t r e) := by
  obtain ⟨hQ4, hKQ, hfirst, hdiag, hweq⟩ := num_facts t
  by_cases hf : isFirst (wK (crd t))
  · have hK0 : KT t = 0 := hfirst.1 hf
    have hR : Rt V c t r e = Cert.OnlineSoftmax.first (actv (QT t) r (KT t)) (actv_nonempty (QT t) r (KT t))
        (blkS (qRe V c) (kRe V c) (bT t) (QT t) r (KT t)) (blkV (vRe V c) (bT t) e (KT t)) := by
      unfold Rt; rw [hK0]; rfl
    rw [hR]
    by_cases hd : isDiag (wQ (crd t)) (wK (crd t))
    · rw [step1_diag_first V c t p hf hd]
      dsimp only
      exact diag_first (iblk1 V c 0 t) (iblk1 V c 1 t) (iblk1 V c 2 t) r e (actv (QT t) r (KT t)) (actv_nonempty (QT t) r (KT t))
        (blkS (qRe V c) (kRe V c) (bT t) (QT t) r (KT t)) (blkV (vRe V c) (bT t) e (KT t)) (wQ (crd t)) (wK (crd t)) (hweq hd) hQ4
        (hs_diag V c hfin t (hdiag.1 hd) r) (fun j => v_real V c hfin t j e)
    · rw [step1_below_first V c t p hf hd]
      dsimp only
      exact upd_first (iblk1 V c 0 t) (iblk1 V c 1 t) (iblk1 V c 2 t) r e (actv (QT t) r (KT t)) (actv_nonempty (QT t) r (KT t))
        (blkS (qRe V c) (kRe V c) (bT t) (QT t) r (KT t)) (blkV (vRe V c) (bT t) e (KT t))
        (hs_below V c hfin t (lt_of_le_of_ne hKQ (fun h => hd (hdiag.2 h))) r) (fun j => v_real V c hfin t j e)
  · obtain ⟨s, hst, hH⟩ := hp hf
    obtain ⟨pb, pQ, pK⟩ := pred_facts s t hst hf
    have hb : bT t = bT s := Fin.ext pb
    have hQ : QT t = QT s := Fin.ext pQ
    have hK : KT t = KT s + 1 := pK
    have hR : Rt V c t r e = Cert.OnlineSoftmax.next (Rt V c s r e) (actv (QT t) r (KT t)) (actv_nonempty (QT t) r (KT t))
        (blkS (qRe V c) (kRe V c) (bT t) (QT t) r (KT t)) (blkV (vRe V c) (bT t) e (KT t)) := by
      unfold Rt; rw [hK, hb, hQ]; rfl
    rw [hR]
    by_cases hd : isDiag (wQ (crd t)) (wK (crd t))
    · rw [step1_diag V c t p hf hd]
      dsimp only
      exact diag_next (iblk1 V c 0 t) (iblk1 V c 1 t) (iblk1 V c 2 t) r e (actv (QT t) r (KT t)) (actv_nonempty (QT t) r (KT t))
        (blkS (qRe V c) (kRe V c) (bT t) (QT t) r (KT t)) (blkV (vRe V c) (bT t) e (KT t)) (wQ (crd t)) (wK (crd t)) (hweq hd) hQ4
        p.1 (Rt V c s r e) hH (hs_diag V c hfin t (hdiag.1 hd) r) (fun j => v_real V c hfin t j e)
    · rw [step1_below V c t p hf hd]
      dsimp only
      exact upd_next (iblk1 V c 0 t) (iblk1 V c 1 t) (iblk1 V c 2 t) r e (actv (QT t) r (KT t)) (actv_nonempty (QT t) r (KT t))
        (blkS (qRe V c) (kRe V c) (bT t) (QT t) r (KT t)) (blkV (vRe V c) (bT t) e (KT t))
        p.1 (Rt V c s r e) hH (hs_below V c hfin t (lt_of_le_of_ne hKQ (fun h => hd (hdiag.2 h))) r) (fun j => v_real V c hfin t j e)

/-- THE CARRIED STATE after every step holds the step's recurrence: by induction on the step. -/
theorem traj_holds (c : Dev nD) (hfin : FinQKV (V c main_v4)) :
    ∀ (n : ℕ) (h : n < cfgT.N) (r : Fin 512) (e : Fin 1024), Holds (traj V c n).1 r e (Rt V c ⟨n, h⟩ r e)
  | 0, h, r, e =>
    step_holds V c hfin ⟨0, h⟩ (St.junk, fun _ => 0) r e (fun hf => absurd rfl (pos_of_not_first ⟨0, h⟩ hf))
  | n + 1, h, r, e => by
    rw [traj_succ V c n h]
    exact step_holds V c hfin ⟨n + 1, h⟩ (traj V c n) r e
      (fun _ => ⟨⟨n, Nat.lt_of_succ_lt h⟩, rfl, traj_holds c hfin n (Nat.lt_of_succ_lt h) r e⟩)

/-! ## From the blocks to the array -/

/-- At a diagonal step the output block holds the stored quotient of the carried state the step leaves. -/
theorem traj_snd_diag (c : Dev nD) (t : Fin cfgT.N) (hd : isDiag (wQ (crd t)) (wK (crd t))) :
    (traj V c t.val).2 = (traj V c t.val).1.out := by
  rw [traj_eq V c t]
  unfold step1
  rw [if_pos hd]

/-- Two contents of a block of 512 rows agree if they agree at every row and column. -/
theorem blk_ext {α : Type} (f g : S1x512x1024.Idx → α) (h : ∀ (r : Fin 512) (e : Fin 1024), f (ix3 0 r e) = g (ix3 0 r e)) : f = g := by
  funext j
  have h0 : j 0 = (0 : Fin 1) := Subsingleton.elim (α := Fin 1) _ _
  have hj : j = ix3 0 (j 1) (j 2) := (eq_ix3 j).trans (by rw [h0]; rfl)
  rw [hj]
  exact h _ _

/-- What a diagonal step writes back is its block of causal attention of the three real arrays. -/
theorem flushed1_eq (c : Dev nD) (hfin : FinQKV (V c main_v4)) (t : Fin cfgT.N) (hf : (cfgT.win 3).flush t = true) :
    (dat1 V c).flushed 3 t = ((cfgT.win 3).blk t).view.read (Elt FF) (attnQKV (V c main_v4)) := by
  have hd : isDiag (wQ (crd t)) (wK (crd t)) := by rw [flush3] at hf; exact of_decide_eq_true hf
  obtain ⟨hQ4, hKQ, hfirst, hdiag, hweq⟩ := num_facts t
  obtain ⟨-, -, -, -, -, -, -, -, -, e0, e1, e2⟩ := idx_facts1 t
  show (cfgT.win 3).cut (cfgT.grid.coords t) ((dat1 V c).after 3 t) = _
  rw [after1_3, traj_snd_diag V c t hd]
  refine blk_ext _ _ fun r e => ?_
  have hemb : ((cfgT.win 3).blk t).view.emb (ix3 0 r e) = ix3 (bT t) (qPos (QT t) r) e := by
    funext a; apply Fin.ext
    match a with
    | ⟨0, _⟩ => show (cfgT.win 3).index t (0 : Fin 3) * 1 + 1 * 0 = (crd t 0).val; omega
    | ⟨1, _⟩ => show (cfgT.win 3).index t (1 : Fin 3) * 512 + 1 * r.val = 512 * (wQ (crd t)).toNat + r.val; omega
    | ⟨2, _⟩ => show (cfgT.win 3).index t (2 : Fin 3) * 1024 + 1 * e.val = e.val; omega
  show ((traj V c t.val).1.out (ix3 0 r e) : EReal) = attnQKV (V c main_v4) (((cfgT.win 3).blk t).view.emb (ix3 0 r e))
  rw [hemb, out_holds (traj V c t.val).1 r e (Rt V c t r e) (traj_holds V c hfin t.val t.isLt r e)
    (Cert.OnlineSoftmax.run_l_pos _ _ _ _ _).ne']
  show ((_ : ℝ) : EReal) = ((attnOf (qRe V c) (kRe V c) (vRe V c) (bT t) (qPos (QT t) r) e : ℝ) : EReal)
  refine congrArg _ ?_
  have hK : KT t = (QT t).val := hdiag.1 hd
  unfold Rt
  rw [hK]
  exact attn_row_blocks (qRe V c) (kRe V c) (vRe V c) (bT t) (QT t) r e

/-- An index of the output array is in a step's block iff each coordinate is in the block's range on its axis. -/
theorem mem_blk1 (t : Fin cfgT.N) (i : S8x2048x1024.Idx) :
    i ∈ ((cfgT.win 3).blk t).view.set ↔ ∀ a : Fin 3, (cfgT.win 3).index t a * S1x512x1024.size a ≤ (i a).val
      ∧ (i a).val < (cfgT.win 3).index t a * S1x512x1024.size a + S1x512x1024.size a := by
  show i ∈ ((View.whole main_v5).slice ((cfgT.win 3).rect t)).set ↔ _
  rw [View.set_slice_whole, Rect.mem_set_unit]
  exact Iff.rfl

/-- Every index of the output array is in the block of a diagonal step: row `s` of batch `b` in that of query block
    `s / 512` of batch `b`. -/
theorem cover1 (i : S8x2048x1024.Idx) : ∃ t : Fin cfgT.N, (cfgT.win 3).flush t = true ∧ i ∈ ((cfgT.win 3).blk t).view.set := by
  have hi0 : (i 0).val < 8 := (i 0).isLt
  have hi1 : (i 1).val < 2048 := (i 1).isLt
  have hi2 : (i 2).val < 1024 := (i 2).isLt
  obtain ⟨t, hf, e0, e1, e2⟩ := diag_point ⟨(i 0).val, hi0⟩ ⟨(i 1).val / 512, by omega⟩
  have e0' : (cfgT.win 3).index t (0 : Fin 3) = (i 0).val := e0
  have e1' : (cfgT.win 3).index t (1 : Fin 3) = (i 1).val / 512 := e1
  refine ⟨t, hf, ?_⟩
  rw [mem_blk1]
  intro a
  match a with
  | ⟨0, _⟩ => show (cfgT.win 3).index t (0 : Fin 3) * 1 ≤ (i 0).val ∧ (i 0).val < (cfgT.win 3).index t (0 : Fin 3) * 1 + 1; omega
  | ⟨1, _⟩ => show (cfgT.win 3).index t (1 : Fin 3) * 512 ≤ (i 1).val ∧ (i 1).val < (cfgT.win 3).index t (1 : Fin 3) * 512 + 512; omega
  | ⟨2, _⟩ => show (cfgT.win 3).index t (2 : Fin 3) * 1024 ≤ (i 2).val ∧ (i 2).val < (cfgT.win 3).index t (2 : Fin 3) * 1024 + 1024; omega

/-- The output array after the attention call: causal attention of the query, key and value column blocks of the fused
    array as the call finds it. -/
theorem final1 (c : Dev nD) (hfin : FinQKV (V c main_v4)) : (dat1 V c).arrAt 3 cfgT.N = attnQKV (V c main_v4) :=
  (dat1 V c).arrAt_eq_of_cover 3 (attnQKV (V c main_v4)) (fun t hf => flushed1_eq V c hfin t hf) cover1

end Cert.KernelIdeal.H

end
-- ==== Proof.KI.Val0.lean ====
import proofs.«417288_j44684839747926_3_alg».proof.Proof.KI.R0
import Idealize.ShloMosaic.Lib.Pipeline.Value
import Idealize.ShloMosaic.Lib.ValueIdx
import Idealize.ShloMosaic.PureOps.Ideal.Laws

/-! What the projection call leaves in its output array, index by index.

    The output array is 16384 x 3072; the activation array x is 16384 x 1024 and the weight array w is
    1024 x 3072. The call's 32 points write back 32 blocks of 512 rows each, which tile the rows, and the block
    written at point t is, at row p and column q of the block, the sum over d of x (512 t + p, d) * w (d, q):
    at the extended reals a change of number format changes nothing, and a product accumulated from zero is the sum
    of products. So the array ends holding (r, q) ↦ ∑ d, x (r, d) * w (d, q). -/

noncomputable section

namespace Cert.KernelIdeal.H

open Idealize.ShloMosaic Idealize.ShloMosaic.TcCoe Idealize.SL.Sem
open Idealize.ShloMosaic.Pipeline (Dat)
open Idealize.ShloMosaic.ValueIdx
open Cert.KernelIdeal Cert.KernelIdeal.Gen

/-! ## The product's operand indices, axis by axis -/

theorem lhs_proj_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_proj_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_proj_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_proj_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-! ## The body's stored value at an index -/

/-- The stored block at row p and column q: the sum over the 1024 inner positions of the products. -/
theorem pay_apply (x0 : Vec FF S512x1024 .f32) (x1 : Vec FF S1024x3072 .bf16) (p : Fin 512) (q : Fin 3072) :
    (k0_pay1 x0 x1 (ix2 p q) : EReal) = ∑ d : Fin 1024, (x0 (ix2 p d) : EReal) * (x1 (ix2 d q) : EReal) := by
  unfold k0_pay1
  rw [truncf_apply, shapeCast_self, shapeCast_self]
  simp only [matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q := funext fun a => Fin.ext (by
    match a with
    | ⟨0, _⟩ => exact (rhs_proj_0 _ _).trans hk
    | ⟨1, _⟩ => exact rhs_proj_1 _ _)
  rw [el, er]
  rfl

variable (V : (c : Dev nD) → (b : Ref sig .tc) → Buf (Elt FF) ((c : Thread nD τ).loc b))

/-- The product of a block of 512 rows and the weights, entry by entry. -/
abbrev blkProd (x0 : S512x1024.Idx → EReal) (x1 : S1024x3072.Idx → EReal) : S512x3072.Idx → EReal :=
  fun j => ∑ d : Fin 1024, x0 (ix2 (j 0) d) * x1 (ix2 d (j 1))

/-- The stored block as a function of its index. -/
theorem pay_fun (x0 : Vec FF S512x1024 .f32) (x1 : Vec FF S1024x3072 .bf16) : k0_pay1 x0 x1 = blkProd x0 x1 := by
  funext j
  obtain ⟨p, q, rfl⟩ : ∃ (p : Fin 512) (q : Fin 3072), j = ix2 p q := ⟨j 0, j 1, eq_ix2 j⟩
  exact pay_apply x0 x1 p q

/-! ## From the blocks to the array -/

theorem hz0 : (![0, 0] : Fin 2 → Nat) = fun _ => 0 := funext fun a => by fin_cases a <;> rfl

/-- The product of an array of 16384 rows and the weight array, entry by entry. -/
abbrev prodOf (X : S16384x1024.Idx → EReal) (W : S1024x3072.Idx → EReal) : S16384x3072.Idx → EReal :=
  fun i => ∑ d : Fin 1024, X (ix2 (i 0) d) * W (ix2 d (i 1))

/-- The block indices over the grid: at point t the activation block and the output block are both the t-th
    block of rows and the only block of columns, and the weight block is the whole array. -/
theorem idx_facts0 : ∀ t : Fin cfg0.N, win0_2.index t (0 : Fin 2) = t.val
    ∧ win0_2.index t (1 : Fin 2) = 0
    ∧ win0_0.index t (0 : Fin 2) = t.val
    ∧ win0_0.index t (1 : Fin 2) = 0
    ∧ win0_1.index t (0 : Fin 2) = 0
    ∧ win0_1.index t (1 : Fin 2) = 0 :=
  (by decide +kernel : ∀ t : Fin grid0.N, _)

/-- What point t writes back is block t of the product of the two arrays as the call finds them. -/
theorem flushed0_eq (c : Dev nD) (t : Fin cfg0.N) :
    (dat0 V c).flushed 2 t = ((cfg0.win 2).blk t).view.read (Elt FF) (prodOf (V c main_v2) (V c main_v1)) := by
  show (cfg0.win 2).cut (grid0.coords t) ((dat0 V c).after 2 t) = _
  rw [after0_2]
  unfold out0_2
  rw [View.canon_unit_zero hz0]
  simp only [View.ld_unit_zero (S := S512x1024) hz0, View.ld_unit_zero (S := S1024x3072) hz0]
  rw [pay_fun]
  obtain ⟨e0, e1, e2, e3, e4, e5⟩ := idx_facts0 t
  funext j
  show blkProd (iblk0 V c 0 t) (iblk0 V c 1 t) j = prodOf (V c main_v2) (V c main_v1) (((cfg0.win 2).blk t).view.emb j)
  refine Finset.sum_congr rfl fun d _ => ?_
  have h0 : ((cfg0.win 0).blk t).view.emb (ix2 (j 0) d) = ix2 ((((cfg0.win 2).blk t).view.emb j) 0) d := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * d.val = d.val; omega
  have h1 : ((cfg0.win 1).blk t).view.emb (ix2 d (j 1)) = ix2 d ((((cfg0.win 2).blk t).view.emb j) 1) := by
    funext a; apply Fin.ext
    match a with
    | ⟨0, _⟩ => show win0_1.index t (0 : Fin 2) * 1024 + 1 * d.val = d.val; omega
    | ⟨1, _⟩ => show win0_1.index t (1 : Fin 2) * 3072 + 1 * (j 1).val = win0_2.index t (1 : Fin 2) * 3072 + 1 * (j 1).val; omega
  have hA : iblk0 V c 0 t (ix2 (j 0) d) = V c main_v2 (ix2 ((((cfg0.win 2).blk t).view.emb j) 0) d) := by
    show V c main_v2 (((cfg0.win 0).blk t).view.emb (ix2 (j 0) d)) = _
    rw [h0]; rfl
  have hB : iblk0 V c 1 t (ix2 d (j 1)) = V c main_v1 (ix2 d ((((cfg0.win 2).blk t).view.emb j) 1)) := by
    show V c main_v1 (((cfg0.win 1).blk t).view.emb (ix2 d (j 1))) = _
    rw [h1]; rfl
  exact congrArg₂ (fun a b : EReal => a * b) hA hB

/-- An index of the output array is in point t's block iff each coordinate is in the block's range on its axis. -/
theorem mem_blk0 (t : Fin cfg0.N) (i : S16384x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v3).slice (win0_2.rect t)).set ↔ _
  rw [View.set_slice_whole, Rect.mem_set_unit]
  exact Iff.rfl

/-- Every index of the output array is in some point's block: row r is in the block of point r / 512. -/
theorem cover0 (i : S16384x3072.Idx) : ∃ t : Fin cfg0.N, (cfg0.win 2).flush t = true ∧ i ∈ ((cfg0.win 2).blk t).view.set := by
  have hi0 : (i 0).val < 16384 := (i 0).isLt
  have hi1 : (i 1).val < 3072 := (i 1).isLt
  have hN : cfg0.N = 32 := N_0
  have ht : (i 0).val / 512 < cfg0.N := by rw [hN]; omega
  obtain ⟨e0, e1, -⟩ := idx_facts0 ⟨(i 0).val / 512, ht⟩
  have e0' : win0_2.index ⟨(i 0).val / 512, ht⟩ (0 : Fin 2) = (i 0).val / 512 := e0
  refine ⟨⟨(i 0).val / 512, ht⟩, flush0_2 _, ?_⟩
  rw [mem_blk0]
  intro a
  match a with
  | ⟨0, _⟩ => show win0_2.index ⟨(i 0).val / 512, ht⟩ (0 : Fin 2) * 512 ≤ (i 0).val ∧ (i 0).val < win0_2.index ⟨(i 0).val / 512, ht⟩ (0 : Fin 2) * 512 + 512; omega
  | ⟨1, _⟩ => show win0_2.index ⟨(i 0).val / 512, ht⟩ (1 : Fin 2) * 3072 ≤ (i 1).val ∧ (i 1).val < win0_2.index ⟨(i 0).val / 512, ht⟩ (1 : Fin 2) * 3072 + 3072; omega

/-- The output array after the call: the product of the activation array and the weight array as the call finds
    them. -/
theorem final0 (c : Dev nD) : (dat0 V c).arrAt 2 cfg0.N = prodOf (V c main_v2) (V c main_v1) :=
  (dat0 V c).arrAt_eq_of_cover 2 (prodOf (V c main_v2) (V c main_v1)) (fun t _ => flushed0_eq V c t) cover0

/-- The same, at any two functions the entry contents of the two input arrays are known to be. -/
theorem final0_of (c : Dev nD) (X : S16384x1024.Idx → EReal) (W : S1024x3072.Idx → EReal)
    (hX : V c main_v2 = X) (hW : V c main_v1 = W) : (dat0 V c).arrAt 2 cfg0.N = prodOf X W := by
  subst hX; subst hW; exact final0 V c

end Cert.KernelIdeal.H

end
-- ==== Proof.SpecE.lean ====
import proofs.«417288_j44684839747926_3_alg».proof.Proof.Spec
import Idealize.ShloMosaic.PureOps.Ideal
import Idealize.ShloMosaic.Lib.ValueIdx

/-! Causal attention as a function of extended-real arrays: the real attention of the arrays' real parts. On finite
    arrays (every entry a real) this is what both programs compute, index by index. -/

noncomputable section

namespace Cert.Spec

open Idealize.ShloMosaic Idealize.ShloMosaic.ValueIdx

abbrev SX : Shape := ⟨3, ![8, 2048, 1024]⟩
abbrev SW : Shape := ⟨2, ![1024, 1024]⟩

/-- The real parts of an activation array and of a weight matrix. -/
def re3 (X : SX.Idx → EReal) : Fin 8 → Fin 2048 → Fin 1024 → ℝ := fun b s d => (X (ix3 b s d)).toReal
def re2 (W : SW.Idx → EReal) : Fin 1024 → Fin 1024 → ℝ := fun d e => (W (ix2 d e)).toReal

/-- Every entry is a real number. -/
def Fin3 (X : SX.Idx → EReal) : Prop := ∀ i, ∃ r : ℝ, X i = (r : EReal)
def Fin2 (W : SW.Idx → EReal) : Prop := ∀ i, ∃ r : ℝ, W i = (r : EReal)

theorem Fin3.eq {X : SX.Idx → EReal} (h : Fin3 X) (b : Fin 8) (s : Fin 2048) (d : Fin 1024) :
    X (ix3 b s d) = ((re3 X b s d : ℝ) : EReal) := by
  obtain ⟨r, hr⟩ := h (ix3 b s d); unfold re3; rw [hr]; rfl
theorem Fin2.eq {W : SW.Idx → EReal} (h : Fin2 W) (d e : Fin 1024) :
    W (ix2 d e) = ((re2 W d e : ℝ) : EReal) := by
  obtain ⟨r, hr⟩ := h (ix2 d e); unfold re2; rw [hr]; rfl

/-- Causal attention of the arrays, as an array of extended reals. -/
def G (X : SX.Idx → EReal) (Wq Wk Wv : SW.Idx → EReal) : SX.Idx → EReal :=
  fun i => ((attn (re3 X) (re2 Wq) (re2 Wk) (re2 Wv) (i 0) (i 1) (i 2) : ℝ) : EReal)

end Cert.Spec

end
-- ==== Proof.RefScores.lean ====
import proofs.«417288_j44684839747926_3_alg».proof.Proof.Gen.ReferenceIdeal.Read
import proofs.«417288_j44684839747926_3_alg».proof.Proof.SpecE
import Idealize.ShloMosaic.Lib.StableHlo.Predicate

/-! The reference's masked scores and value rows on finite arrays: stage by stage the reference's extended-real terms
    are the real projections, the real scaled scores where the key position is not after the query position, and −∞
    elsewhere. -/

noncomputable section

namespace Cert.RefValue

open Idealize.ShloMosaic Idealize.ShloMosaic.ValueIdx Cert.ReferenceIdeal Cert.ReferenceIdeal.Read Cert.Spec

/-- A finite sum of reals, read in the extended reals, is the sum of the terms read there. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum of products of real entries is the real sum of the products. -/
theorem sum_mul_coe (f g : Fin 1024 → ℝ) : ∑ k : Fin 1024, ((f k : ℝ) : EReal) * ((g k : ℝ) : EReal) = ((∑ k : Fin 1024, f k * g k : ℝ) : EReal) := by
  rw [coe_sum]
  exact Finset.sum_congr rfl fun k _ => (EReal.coe_mul _ _).symm

/-- Row `s` of batch `b` of a finite activation array against column `e` of a finite weight matrix: the real projection. -/
theorem proj_read (x0 : SX.Idx → EReal) (w : SW.Idx → EReal) (h0 : Fin3 x0) (hw : Fin2 w) (b : Fin 8) (s : Fin 2048) (e : Fin 1024)
    (L : Fin 1024 → SX.Idx) (R : Fin 1024 → SW.Idx) (hL : ∀ k, L k = ix3 b s k) (hR : ∀ k, R k = ix2 k e) :
    ∑ k : Fin 1024, x0 (L k) * w (R k) = ((proj (re3 x0) (re2 w) b s e : ℝ) : EReal) := by
  simp only [hL, hR, h0.eq, hw.eq]
  exact sum_mul_coe _ _

/-- The reference's query rows are the real projection by `Wq`. -/
theorem ref_queries (x0 : SX.Idx → EReal) (x1 : SW.Idx → EReal) (h0 : Fin3 x0) (h1 : Fin2 x1) (b : Fin 8) (s : Fin 2048) (e : Fin 1024) :
    val_main_v0 (F := Ideal) x0 x1 (ix3 b s e) = ((proj (re3 x0) (re2 x1) b s e : ℝ) : EReal) := by
  rw [val_main_v0_apply]
  exact proj_read x0 x1 h0 h1 b s e _ _
    (fun k => funext fun a => match a with | ⟨0, _⟩ => rfl | ⟨1, _⟩ => rfl | ⟨2, _⟩ => rfl)
    (fun k => funext fun a => match a with | ⟨0, _⟩ => rfl | ⟨1, _⟩ => rfl)

/-- The reference's key rows are the real projection by `Wk`. -/
theorem ref_keys (x0 : SX.Idx → EReal) (x2 : SW.Idx → EReal) (h0 : Fin3 x0) (h2 : Fin2 x2) (b : Fin 8) (s : Fin 2048) (e : Fin 1024) :
    val_main_v1 (F := Ideal) x0 x2 (ix3 b s e) = ((proj (re3 x0) (re2 x2) b s e : ℝ) : EReal) := by
  rw [val_main_v1_apply]
  exact proj_read x0 x2 h0 h2 b s e _ _
    (fun k => funext fun a => match a with | ⟨0, _⟩ => rfl | ⟨1, _⟩ => rfl | ⟨2, _⟩ => rfl)
    (fun k => funext fun a => match a with | ⟨0, _⟩ => rfl | ⟨1, _⟩ => rfl)

/-- The reference's value rows are the real projection by `Wv`. -/
theorem ref_values (x0 : SX.Idx → EReal) (x3 : SW.Idx → EReal) (h0 : Fin3 x0) (h3 : Fin2 x3) (b : Fin 8) (j : Fin 2048) (e : Fin 1024) :
    val_main_v2 (F := Ideal) x0 x3 (ix3 b j e) = ((proj (re3 x0) (re2 x3) b j e : ℝ) : EReal) := by
  rw [val_main_v2_apply]
  exact proj_read x0 x3 h0 h3 b j e _ _
    (fun k => funext fun a => match a with | ⟨0, _⟩ => rfl | ⟨1, _⟩ => rfl | ⟨2, _⟩ => rfl)
    (fun k => funext fun a => match a with | ⟨0, _⟩ => rfl | ⟨1, _⟩ => rfl)

/-- The word `0x44800000` denotes the real `1024`. -/
theorem ofBits_1024 : Ideal.ofBits .f32 0x44800000#32 = ((1024 : ℝ) : EReal) := by
  simp [Ideal.ofBits, Ideal.ieee, -EReal.coe_mul]; norm_num

/-- The word `0xFF800000` denotes −∞. -/
theorem ofBits_neg_inf : Ideal.ofBits .f32 0xFF800000#32 = ⊥ := by
  simp [Ideal.ofBits, Ideal.ieee]

/-- The square root of `1024` is `32`. -/
theorem sqrt_1024 : Real.sqrt 1024 = 32 := by
  rw [show (1024 : ℝ) = 32 * 32 by norm_num, Real.sqrt_mul_self (by norm_num)]

/-- The scores' divisor, the square root of the constant `1024` broadcast, is `32` everywhere. -/
theorem ref_divisor (i : S8x2048x2048.Idx) : val_main_v5 (F := Ideal) i = ((32 : ℝ) : EReal) := by
  rw [val_main_v5_apply, val_main_v4_apply, val_main_cst_apply, Ideal.hostUnary_sqrt_def, Ideal.ofBits_def, ofBits_1024,
    Ideal.sqrt_coe, if_neg (by norm_num), sqrt_1024]

/-- The reference's scaled scores are the real scaled scores of the projections. -/
theorem ref_scores (x0 : SX.Idx → EReal) (x1 x2 : SW.Idx → EReal) (h0 : Fin3 x0) (h1 : Fin2 x1) (h2 : Fin2 x2)
    (b : Fin 8) (i j : Fin 2048) :
    val_main_v6 (F := Ideal) x0 x1 x2 (ix3 b i j)
      = ((score (proj (re3 x0) (re2 x1)) (proj (re3 x0) (re2 x2)) b i j : ℝ) : EReal) := by
  rw [val_main_v6_apply, ref_divisor, Ideal.hostDivf_def, Ideal.div_coe (by norm_num), val_main_v3_apply]
  have el : ∀ k : Fin 1024, lidx_main_v3 (ix3 b i j) k = ix3 b i k := fun k =>
    funext fun a => match a with | ⟨0, _⟩ => rfl | ⟨1, _⟩ => rfl | ⟨2, _⟩ => rfl
  have er : ∀ k : Fin 1024, ridx_main_v3 (ix3 b i j) k = ix3 b j k := fun k =>
    funext fun a => match a with | ⟨0, _⟩ => rfl | ⟨1, _⟩ => rfl | ⟨2, _⟩ => rfl
  simp only [el, er, ref_queries x0 x1 h0 h1, ref_keys x0 x2 h0 h2]
  rw [sum_mul_coe, ← EReal.coe_mul]
  unfold score
  rw [← div_eq_mul_one_div]

/-- The causal mask's word at row `i`, column `j`: set exactly where the column is not after the row. -/
theorem tril_word (i j : Fin 2048) :
    IntOp.cmpi .sge (IntOp.addi (BitVec.ofNat 32 i.val) 0#32) (BitVec.ofNat 32 j.val) = if j ≤ i then 1#1 else 0#1 := by
  have hi : (IntOp.addi (BitVec.ofNat 32 i.val) 0#32).toNat = i.val := by
    show (BitVec.ofNat 32 i.val + 0#32).toNat = i.val
    rw [BitVec.add_zero, BitVec.toNat_ofNat]; have := i.isLt; omega
  have hj : (BitVec.ofNat 32 j.val).toNat = j.val := by
    rw [BitVec.toNat_ofNat]; have := j.isLt; omega
  have key := StableHlo.Predicate.sge_iff_toNat (a := IntOp.addi (BitVec.ofNat 32 i.val) 0#32) (b := BitVec.ofNat 32 j.val)
    (by rw [hi]; have := i.isLt; omega) (by rw [hj]; have := j.isLt; omega)
  rw [hi, hj] at key
  split_ifs with h
  · exact key.mpr h
  · exact eq_zero_of_ne_one fun h1 => h (key.mp h1)

/-- The mask broadcast over the batch reads the causal word of its row and column. -/
theorem ref_mask (b : Fin 8) (i j : Fin 2048) :
    val_main_call1_v1 (F := Ideal) (ix3 b i j) = if j ≤ i then 1#1 else 0#1 := by
  rw [val_main_call1_v1_apply, val_main_v9_apply, val_main_v8_apply, val_main_call0_v4_apply, val_main_call0_v2_apply,
    val_main_call0_v0_apply, val_main_call0_v1_apply, val_main_call0_c_apply, val_main_call0_v3_apply, val_main_v7_apply,
    val_main_c_apply, val_main_call0_v5_apply, val_main_call0_c_0_apply]
  show Scalar.select (IntOp.cmpi .sge (IntOp.addi (BitVec.ofNat 32 i.val) 0#32) (BitVec.ofNat 32 j.val)) 1#1 0#1 = _
  rw [tril_word]
  split_ifs
  · exact select_one _ _
  · exact select_zero _ _

/-- The reference's masked scores: the real scaled score where the key position is visible, −∞ where it is not. -/
theorem ref_masked_scores (x0 : SX.Idx → EReal) (x1 x2 : SW.Idx → EReal) (h0 : Fin3 x0) (h1 : Fin2 x1) (h2 : Fin2 x2)
    (b : Fin 8) (i j : Fin 2048) :
    val_main_v10 (F := Ideal) x0 x1 x2 (ix3 b i j)
      = if j ≤ i then ((score (proj (re3 x0) (re2 x1)) (proj (re3 x0) (re2 x2)) b i j : ℝ) : EReal) else ⊥ := by
  rw [val_main_v10_apply, ref_mask]
  split_ifs
  · rw [select_one, ref_scores x0 x1 x2 h0 h1 h2]
  · rw [select_zero, val_main_call1_v2_apply, val_main_call1_v0_apply, val_main_cst_0_apply, Ideal.ofBits_def, ofBits_neg_inf]

end Cert.RefValue

end
-- ==== Proof.KI.Glue.lean ====
import proofs.«417288_j44684839747926_3_alg».proof.Proof.KI.Seg0
import proofs.«417288_j44684839747926_3_alg».proof.Proof.KI.Val0
import proofs.«417288_j44684839747926_3_alg».proof.Proof.KI.Val1Defs
import proofs.«417288_j44684839747926_3_alg».proof.Proof.SpecE
import proofs.«417288_j44684839747926_3_alg».proof.Proof.RefScores
import Idealize.ShloMosaic.Lib.Pipeline.Value
import Idealize.ShloMosaic.Lib.ValueIdx

/-! What the host operations and the projection call hand the attention call: the fused array, read as batches, holds
    at batch `b`, row `s` and column `1024 w + e` the product of row `s` of batch `b` of the activations with column `e` of
    the `w`-th weight matrix. On finite arguments its three column blocks are the three real projections. -/

noncomputable section

namespace Cert.KernelIdeal.H

open Idealize.ShloMosaic Idealize.ShloMosaic.TcCoe Idealize.SL.Sem
open Idealize.ShloMosaic.ValueIdx
open Cert.KernelIdeal Cert.KernelIdeal.Gen Cert.Spec

variable (m : (ℓ : Loc nD τ sig) → Buf (Elt FF) ℓ)

/-! ## The arrays at launch and as the two calls find them -/

/-- The activation array at launch. -/
abbrev xA (c : Dev nD) : S8x2048x1024.Idx → EReal := m ((c : Thread nD τ).loc main_arg0)
/-- The three weight matrices at launch, in the order they are laid side by side. -/
abbrev wA (c : Dev nD) : Fin 3 → S1024x1024.Idx → EReal
  | ⟨0, _⟩ => m ((c : Thread nD τ).loc main_arg1)
  | ⟨1, _⟩ => m ((c : Thread nD τ).loc main_arg2)
  | ⟨2, _⟩ => m ((c : Thread nD τ).loc main_arg3)

/-- The projection call's activation operand as the call finds it. -/
abbrev rowsA (c : Dev nD) : S16384x1024.Idx → EReal := V1 m c main_v2
/-- The projection call's weight operand as the call finds it. -/
abbrev wideA (c : Dev nD) : S1024x3072.Idx → EReal := V1 m c main_v1
/-- The fused array as the attention call finds it. -/
abbrev fusedA (c : Dev nD) : S8x2048x3072.Idx → EReal := V3 m c main_v4

/-! ## Each buffer's term -/

/-- The projection call's activation operand: the activation array as 16384 rows. -/
theorem V1_main_v2 (c : Dev nD) :
    rowsA m c = shapeCast S16384x1024 (xA m c) shapeCasts_S8x2048x1024_S16384x1024 := by
  show StableHlo.after (hostOps0 (F := FF)) (W0 m c) (Proc.devRef .tc main_v2) = _
  after_results
  rfl

/-- The projection call's weight operand: the three weight matrices side by side, in the narrow format. -/
theorem V1_main_v1 (c : Dev nD) :
    wideA m c
      = truncf .bf16 (concatenate S1024x3072 1 (List.ofFn fun n : Fin 3 => (⟨S1024x1024, wA m c n⟩ : (s : Shape) × (s.Idx → EReal)))
          concatenates_S1024x1024_S1024x1024_S1024x1024_S1024x3072_d1 : FVec FF S1024x3072 .f32) bitsLt_bf16_f32 := by
  show StableHlo.after (hostOps0 (F := FF)) (W0 m c) (Proc.devRef .tc main_v1) = _
  after_results
  rfl

/-- The attention call's operand: the projection call's product array as batches. -/
theorem V3_main_v4 (c : Dev nD) :
    fusedA m c = shapeCast S8x2048x3072 (prodOf (rowsA m c) (wideA m c)) shapeCasts_S16384x3072_S8x2048x3072 := by
  show StableHlo.after (hostOps1 (F := FF)) (W2 m c) (Proc.devRef .tc main_v4) = _
  after_results
  rw [show W2 m c (Proc.devRef .tc main_v3) = (dat0 (V1 m) c).arrAt 2 cfg0.N from W2_arr m c 2, final0 (V1 m) c]
  rfl

/-! ## The layout operations at an index -/

/-- The activation array as 16384 rows: row `2048 b + s` is row `s` of batch `b`. -/
theorem rows_read (x : S8x2048x1024.Idx → EReal) (h : S8x2048x1024.ShapeCasts S16384x1024) (b : Fin 8) (s : Fin 2048) (d : Fin 1024)
    (r : Fin 16384) (hr : r.val = 2048 * b.val + s.val) :
    shapeCast S16384x1024 x h (ix2 r d) = x (ix3 b s d) :=
  shapeCast_apply x h (ix2 r d) (ix3 b s d) (by
    rw [Shape.rowMajor_val_three, Shape.rowMajor_val_two]
    show (b.val * 2048 + s.val) * 1024 + d.val = r.val * 1024 + d.val
    rw [hr]; ring)

/-- The 16384-row product array as batches: row `s` of batch `b` is row `2048 b + s`. -/
theorem out_read (P : S16384x3072.Idx → EReal) (h : S16384x3072.ShapeCasts S8x2048x3072) (b : Fin 8) (s : Fin 2048) (k : Fin 3072)
    (r : Fin 16384) (hr : r.val = 2048 * b.val + s.val) :
    shapeCast S8x2048x3072 P h (ix3 b s k) = P (ix2 r k) :=
  shapeCast_apply P h (ix3 b s k) (ix2 r k) (by
    rw [Shape.rowMajor_val_three, Shape.rowMajor_val_two]
    show r.val * 3072 + k.val = (b.val * 2048 + s.val) * 3072 + k.val
    rw [hr]; ring)

/-- Three square matrices laid side by side: column `1024 w + e` of the wide matrix is column `e` of matrix `w`. -/
theorem cat_read (W : Fin 3 → S1024x1024.Idx → EReal)
    (h : Shape.Concatenates ((List.ofFn fun n : Fin 3 => (⟨S1024x1024, W n⟩ : (s : Shape) × (s.Idx → EReal))).map (·.1)) S1024x3072 1)
    (d : Fin 1024) (w : Fin 3) (e : Fin 1024) (k : Fin 3072) (hk : k.val = 1024 * w.val + e.val) :
    concatenate S1024x3072 1 (List.ofFn fun n : Fin 3 => (⟨S1024x1024, W n⟩ : (s : Shape) × (s.Idx → EReal))) h (ix2 d k) = W w (ix2 d e) :=
  concatenate_ofFn_apply (t := S1024x3072) (s₁ := S1024x1024) (1 : Fin 2) W h rfl 1024 rfl (ix2 d k) w
    (by show k.val / 1024 = w.val; have := e.isLt; omega) (ix2 d e)
    (by show e.val = k.val % 1024; have := e.isLt; omega)
    (fun a ha => match a with
      | ⟨0, _⟩ => rfl
      | ⟨1, _⟩ => absurd rfl ha)

/-! ## The fused array at an index -/

/-- The fused array at batch `b`, row `s`, column `1024 w + e`: the sum over `d` of the activations at `(b, s, d)` times
    the `w`-th weight matrix at `(d, e)`. -/
theorem fused_read (c : Dev nD) (b : Fin 8) (s : Fin 2048) (w : Fin 3) (e : Fin 1024) (k : Fin 3072)
    (hk : k.val = 1024 * w.val + e.val) :
    fusedA m c (ix3 b s k) = ∑ d : Fin 1024, xA m c (ix3 b s d) * wA m c w (ix2 d e) := by
  have hr : 2048 * b.val + s.val < 16384 := by have := b.isLt; have := s.isLt; omega
  rw [V3_main_v4, out_read _ _ b s k ⟨2048 * b.val + s.val, hr⟩ rfl, V1_main_v2, V1_main_v1]
  refine Finset.sum_congr rfl fun d _ => ?_
  refine congrArg₂ (fun a b : EReal => a * b) ?_ ?_
  · exact rows_read _ _ b s d ⟨2048 * b.val + s.val, hr⟩ rfl
  · exact cat_read (wA m c) concatenates_S1024x1024_S1024x1024_S1024x1024_S1024x3072_d1 d w e k hk

/-- On finite arguments the fused array at batch `b`, row `s`, column `1024 w + e` is the real projection by the `w`-th
    weight matrix. -/
theorem fused_proj (c : Dev nD) (h0 : Fin3 (xA m c)) (hw : ∀ w, Fin2 (wA m c w)) (b : Fin 8) (s : Fin 2048) (w : Fin 3)
    (e : Fin 1024) (k : Fin 3072) (hk : k.val = 1024 * w.val + e.val) :
    fusedA m c (ix3 b s k) = ((proj (re3 (xA m c)) (re2 (wA m c w)) b s e : ℝ) : EReal) := by
  rw [fused_read m c b s w e k hk]
  simp only [h0.eq, (hw w).eq]
  exact Cert.RefValue.sum_mul_coe _ _

/-- The three finiteness hypotheses as one, by column block. -/
theorem fin_w (c : Dev nD) (h1 : Fin2 (m ((c : Thread nD τ).loc main_arg1))) (h2 : Fin2 (m ((c : Thread nD τ).loc main_arg2)))
    (h3 : Fin2 (m ((c : Thread nD τ).loc main_arg3))) : ∀ w, Fin2 (wA m c w)
  | ⟨0, _⟩ => h1
  | ⟨1, _⟩ => h2
  | ⟨2, _⟩ => h3

/-- A column block of the fused array is the real projection by its weight matrix. -/
theorem glue_block (c : Dev nD) (h0 : Fin3 (xA m c)) (hw : ∀ w, Fin2 (wA m c w)) (w : Fin 3) :
    qkvRe (V3 m c main_v4) w = proj (re3 (xA m c)) (re2 (wA m c w)) := by
  funext b s e
  exact (congrArg EReal.toReal (fused_proj m c h0 hw b s w e _ rfl)).trans (EReal.toReal_coe _)

/-! ## What the attention call is handed -/

/-- On finite arguments every entry of the fused array is a real number. -/
theorem glue_fin (c : Dev nD) (h0 : Fin3 (m ((c : Thread nD τ).loc main_arg0))) (h1 : Fin2 (m ((c : Thread nD τ).loc main_arg1)))
    (h2 : Fin2 (m ((c : Thread nD τ).loc main_arg2))) (h3 : Fin2 (m ((c : Thread nD τ).loc main_arg3))) :
    FinQKV (V3 m c main_v4) := by
  intro i
  obtain ⟨b, s, k, rfl⟩ : ∃ (b : Fin 8) (s : Fin 2048) (k : Fin 3072), i = ix3 b s k := ⟨i 0, i 1, i 2, eq_ix3 i⟩
  have hk3 : k.val / 1024 < 3 := by have := k.isLt; omega
  exact ⟨_, fused_proj m c h0 (fin_w m c h1 h2 h3) b s ⟨k.val / 1024, hk3⟩ ⟨k.val % 1024, Nat.mod_lt _ (by norm_num)⟩ k
    (by show k.val = 1024 * (k.val / 1024) + k.val % 1024; omega)⟩

/-- Its first column block is the query projection. -/
theorem glue_q (c : Dev nD) (h0 : Fin3 (m ((c : Thread nD τ).loc main_arg0))) (h1 : Fin2 (m ((c : Thread nD τ).loc main_arg1)))
    (h2 : Fin2 (m ((c : Thread nD τ).loc main_arg2))) (h3 : Fin2 (m ((c : Thread nD τ).loc main_arg3))) :
    qkvRe (V3 m c main_v4) 0 = proj (re3 (m ((c : Thread nD τ).loc main_arg0))) (re2 (m ((c : Thread nD τ).loc main_arg1))) :=
  glue_block m c h0 (fin_w m c h1 h2 h3) 0

/-- Its second column block is the key projection. -/
theorem glue_k (c : Dev nD) (h0 : Fin3 (m ((c : Thread nD τ).loc main_arg0))) (h1 : Fin2 (m ((c : Thread nD τ).loc main_arg1)))
    (h2 : Fin2 (m ((c : Thread nD τ).loc main_arg2))) (h3 : Fin2 (m ((c : Thread nD τ).loc main_arg3))) :
    qkvRe (V3 m c main_v4) 1 = proj (re3 (m ((c : Thread nD τ).loc main_arg0))) (re2 (m ((c : Thread nD τ).loc main_arg2))) :=
  glue_block m c h0 (fin_w m c h1 h2 h3) 1

/-- Its third column block is the value projection. -/
theorem glue_v (c : Dev nD) (h0 : Fin3 (m ((c : Thread nD τ).loc main_arg0))) (h1 : Fin2 (m ((c : Thread nD τ).loc main_arg1)))
    (h2 : Fin2 (m ((c : Thread nD τ).loc main_arg2))) (h3 : Fin2 (m ((c : Thread nD τ).loc main_arg3))) :
    qkvRe (V3 m c main_v4) 2 = proj (re3 (m ((c : Thread nD τ).loc main_arg0))) (re2 (m ((c : Thread nD τ).loc main_arg3))) :=
  glue_block m c h0 (fin_w m c h1 h2 h3) 2

end Cert.KernelIdeal.H

end
-- ==== Proof.KI.Bridge.lean ====
import proofs.«417288_j44684839747926_3_alg».proof.Proof.KI.Fin
import proofs.«417288_j44684839747926_3_alg».proof.Proof.KI.Val1
import proofs.«417288_j44684839747926_3_alg».proof.Proof.KI.Glue

/-! On finite inputs the attention call's output array is causal attention of the inputs: the fused array the first
    call leaves is finite, its three column blocks are the three projections, and the second call computes causal
    attention of them. -/

noncomputable section

namespace Cert.KernelIdeal.H

open Idealize.ShloMosaic Idealize.ShloMosaic.TcCoe Idealize.SL.Sem Cert.KernelIdeal Cert.Spec

variable (m : (ℓ : Loc nD τ sig) → Buf (Elt FF) ℓ)

theorem kernel_value (c : Dev nD)
    (h0 : Fin3 (m ((c : Thread nD τ).loc main_arg0))) (h1 : Fin2 (m ((c : Thread nD τ).loc main_arg1)))
    (h2 : Fin2 (m ((c : Thread nD τ).loc main_arg2))) (h3 : Fin2 (m ((c : Thread nD τ).loc main_arg3))) :
    (dat1 (V3 m) c).arrAt 3 cfgT.N
      = G (m ((c : Thread nD τ).loc main_arg0)) (m ((c : Thread nD τ).loc main_arg1)) (m ((c : Thread nD τ).loc main_arg2)) (m ((c : Thread nD τ).loc main_arg3)) := by
  rw [final1 (V3 m) c (glue_fin m c h0 h1 h2 h3)]
  funext i
  unfold attnQKV G
  rw [glue_q m c h0 h1 h2 h3, glue_k m c h0 h1 h2 h3, glue_v m c h0 h1 h2 h3, attn_eq]

end Cert.KernelIdeal.H

end
-- ==== Proof.RefValue.lean ====
import proofs.«417288_j44684839747926_3_alg».proof.Proof.RefScores

/-! The reference from its masked scores to its result, on finite arrays: the row maximum over every key position is
    the real maximum over the visible ones; the exponentials are the softmax weights at the visible positions and zero
    at the masked ones; their sum is the real normaliser, which is positive; the quotients are the softmax
    probabilities; and their product with the value rows is the causal attention of the arguments' real parts. -/

noncomputable section

namespace Cert.RefValue

open Idealize.ShloMosaic Idealize.ShloMosaic.ValueIdx Cert.ReferenceIdeal Cert.ReferenceIdeal.Read Cert.Spec

/-! ## Laws of the extended reals used below -/

/-- The maximum, from −∞, over every key position of the masked scores of a row is the real maximum over the
    visible positions: the visible set is not empty, and a masked position contributes −∞. -/
theorem fold_max_causal (i : Fin 2048) (f : Fin 2048 → ℝ) :
    (Finset.univ : Finset (Fin 2048)).fold max (⊥ : EReal) (fun j => if j ≤ i then ((f j : ℝ) : EReal) else ⊥)
      = (((causal i).sup' (causal_nonempty i) f : ℝ) : EReal) := by
  have hsup : (Finset.univ : Finset (Fin 2048)).fold max (⊥ : EReal) (fun j => if j ≤ i then ((f j : ℝ) : EReal) else ⊥)
      = Finset.univ.sup (fun j => if j ≤ i then ((f j : ℝ) : EReal) else ⊥) := rfl
  rw [hsup]
  apply le_antisymm
  · refine Finset.sup_le fun j _ => ?_
    split_ifs with hj
    · exact EReal.coe_le_coe_iff.2 (Finset.le_sup' f (by simp [causal, hj]))
    · exact bot_le
  · obtain ⟨j, hj, hje⟩ := Finset.exists_mem_eq_sup' (causal_nonempty i) f
    have hji : j ≤ i := by simpa [causal] using hj
    rw [hje]
    have hle := Finset.le_sup (f := fun j => if j ≤ i then ((f j : ℝ) : EReal) else ⊥) (Finset.mem_univ j)
    rwa [if_pos hji] at hle

/-- A sum over every key position of terms that vanish at the masked positions is the real sum over the visible
    ones. -/
theorem sum_masked (i : Fin 2048) (f : Fin 2048 → ℝ) :
    ∑ j : Fin 2048, (if j ≤ i then ((f j : ℝ) : EReal) else 0) = ((∑ j ∈ causal i, f j : ℝ) : EReal) := by
  rw [coe_sum, causal, Finset.sum_filter]

/-- The normaliser is positive: it is a sum of exponentials over a set that is not empty. -/
theorem norm_pos (q k : Fin 8 → Fin 2048 → Fin 1024 → ℝ) (b : Fin 8) (i : Fin 2048) :
    0 < ∑ j ∈ causal i, wgt q k b i j :=
  Finset.sum_pos (fun _ _ => Real.exp_pos _) (causal_nonempty i)

/-! ## The stages after the masked scores, read at an index -/

/-- A row index with the key coordinate inserted on the reduced axis. -/
theorem lift_eq (h : S8x2048x2048.Reduces [2] S8x2048) (b : Fin 8) (i j : Fin 2048) :
    h.lift (ix2 b i) j = ix3 b i j :=
  funext fun a => Fin.ext (by match a with | ⟨0, _⟩ => rfl | ⟨1, _⟩ => rfl | ⟨2, _⟩ => rfl)

section Stages

variable (x0 : SX.Idx → EReal) (x1 x2 x3 : SW.Idx → EReal) (h0 : Fin3 x0) (h1 : Fin2 x1) (h2 : Fin2 x2) (h3 : Fin2 x3)
include h0 h1 h2

/-- The row maximum of the masked scores is the real maximum of the visible scores. -/
theorem ref_rowmax (b : Fin 8) (i : Fin 2048) :
    val_main_v11 (F := Ideal) x0 x1 x2 (ix2 b i)
      = ((rowMax (proj (re3 x0) (re2 x1)) (proj (re3 x0) (re2 x2)) b i : ℝ) : EReal) := by
  have hr : S8x2048x2048.Reduces [2] S8x2048 := by decide
  unfold val_main_v11
  rw [Host.reduce_eq_fold_single _ _ _ _ hr]
  have hf : (val_main_v10 (F := Ideal) x0 x1 x2 ∘ hr.lift (ix2 b i))
      = fun j : Fin 2048 => if j ≤ i then ((score (proj (re3 x0) (re2 x1)) (proj (re3 x0) (re2 x2)) b i j : ℝ) : EReal) else ⊥ :=
    funext fun j : Fin 2048 =>
      (congrArg (val_main_v10 (F := Ideal) x0 x1 x2) (lift_eq hr b i j)).trans (ref_masked_scores x0 x1 x2 h0 h1 h2 b i j)
  have hi : ∀ i0 : S_.Idx, val_main_cst_1 (F := Ideal) i0 = ⊥ := fun i0 => by
    rw [val_main_cst_1_apply, Ideal.ofBits_def, ofBits_neg_inf]
  rw [hf, hi]
  exact fold_max_causal i _

/-- The broadcast of the row maximum (after the maximum with −∞, which changes nothing) reads the real row maximum at
    every key position. -/
theorem ref_shift (b : Fin 8) (i j : Fin 2048) :
    val_main_v15 (F := Ideal) x0 x1 x2 (ix3 b i j)
      = ((rowMax (proj (re3 x0) (re2 x1)) (proj (re3 x0) (re2 x2)) b i : ℝ) : EReal) := by
  have hidx : idx_main_v14 (idx_main_v15 (ix3 b i j)) = ix2 b i :=
    funext fun a => Fin.ext (by match a with | ⟨0, _⟩ => rfl | ⟨1, _⟩ => rfl)
  rw [val_main_v15_apply, val_main_v14_apply, hidx, val_main_v13_apply, val_main_v12_apply, val_main_cst_2_apply,
    ref_rowmax x0 x1 x2 h0 h1 h2, Ideal.maximumf_def, Ideal.ofBits_def, ofBits_neg_inf, max_bot_left]

/-- The exponentials: the softmax weight at a visible position, zero at a masked one. -/
theorem ref_weights (b : Fin 8) (i j : Fin 2048) :
    val_main_v17 (F := Ideal) x0 x1 x2 (ix3 b i j)
      = if j ≤ i then ((wgt (proj (re3 x0) (re2 x1)) (proj (re3 x0) (re2 x2)) b i j : ℝ) : EReal) else 0 := by
  rw [val_main_v17_apply, val_main_v16_apply, ref_masked_scores x0 x1 x2 h0 h1 h2, ref_shift x0 x1 x2 h0 h1 h2,
    Ideal.hostUnary_exp_def, Ideal.subf_def]
  split_ifs with hji
  · rw [← EReal.coe_sub, Ideal.exp_coe]; rfl
  · rw [EReal.bot_sub, Ideal.exp_bot]

/-- The normaliser: the real sum of the visible weights. -/
theorem ref_norm (b : Fin 8) (i : Fin 2048) :
    val_main_v18 (F := Ideal) x0 x1 x2 (ix2 b i)
      = ((∑ j ∈ causal i, wgt (proj (re3 x0) (re2 x1)) (proj (re3 x0) (re2 x2)) b i j : ℝ) : EReal) := by
  have hterm : ∀ j : Fin 2048, val_main_v17 (F := Ideal) x0 x1 x2 (idx_main_v18 (ix2 b i) j)
      = if j ≤ i then ((wgt (proj (re3 x0) (re2 x1)) (proj (re3 x0) (re2 x2)) b i j : ℝ) : EReal) else 0 := fun j => by
    have hidx : idx_main_v18 (ix2 b i) j = ix3 b i j :=
      funext fun a => Fin.ext (by match a with | ⟨0, _⟩ => rfl | ⟨1, _⟩ => rfl | ⟨2, _⟩ => rfl)
    rw [hidx, ref_weights x0 x1 x2 h0 h1 h2]
  rw [val_main_v18_apply, val_main_cst_3_apply, Ideal.ofBits_def, Ideal.ofBits_zero_f32, zero_add,
    Finset.sum_congr rfl fun j _ => hterm j]
  exact sum_masked i _

/-- The softmax probabilities: the weight over the normaliser at a visible position, zero at a masked one. -/
theorem ref_probs (b : Fin 8) (i j : Fin 2048) :
    val_main_v21 (F := Ideal) x0 x1 x2 (ix3 b i j)
      = if j ≤ i then ((wgt (proj (re3 x0) (re2 x1)) (proj (re3 x0) (re2 x2)) b i j
          / ∑ j' ∈ causal i, wgt (proj (re3 x0) (re2 x1)) (proj (re3 x0) (re2 x2)) b i j' : ℝ) : EReal) else 0 := by
  have hidx : idx_main_v19 (idx_main_v20 (ix3 b i j)) = ix2 b i :=
    funext fun a => Fin.ext (by match a with | ⟨0, _⟩ => rfl | ⟨1, _⟩ => rfl)
  rw [val_main_v21_apply, val_main_v20_apply, val_main_v19_apply, hidx, ref_norm x0 x1 x2 h0 h1 h2,
    ref_weights x0 x1 x2 h0 h1 h2, Ideal.hostDivf_def, Ideal.div_coe (norm_pos _ _ b i).ne']
  split_ifs with hji
  · rw [← EReal.coe_mul, mul_one_div]
  · rw [zero_mul]

end Stages

/-- The reference's result, index by index, is the causal attention of the real parts of its arguments. -/
theorem ref_value (x0 : SX.Idx → EReal) (x1 x2 x3 : SW.Idx → EReal) (h0 : Fin3 x0) (h1 : Fin2 x1) (h2 : Fin2 x2) (h3 : Fin2 x3) :
    val_main_v22 (F := Ideal) x0 x1 x2 x3 = G x0 x1 x2 x3 := by
  funext idx
  obtain ⟨b, i, e, rfl⟩ : ∃ (b : Fin 8) (i : Fin 2048) (e : Fin 1024), idx = ix3 b i e := ⟨idx 0, idx 1, idx 2, eq_ix3 idx⟩
  have hterm : ∀ j : Fin 2048,
      val_main_v21 (F := Ideal) x0 x1 x2 (lidx_main_v22 (ix3 b i e) j) * val_main_v2 (F := Ideal) x0 x3 (ridx_main_v22 (ix3 b i e) j)
        = if j ≤ i then (((wgt (proj (re3 x0) (re2 x1)) (proj (re3 x0) (re2 x2)) b i j
            / ∑ j' ∈ causal i, wgt (proj (re3 x0) (re2 x1)) (proj (re3 x0) (re2 x2)) b i j') * proj (re3 x0) (re2 x3) b j e : ℝ) : EReal)
          else 0 := fun j => by
    have hl : lidx_main_v22 (ix3 b i e) j = ix3 b i j :=
      funext fun a => Fin.ext (by match a with | ⟨0, _⟩ => rfl | ⟨1, _⟩ => rfl | ⟨2, _⟩ => rfl)
    have hr : ridx_main_v22 (ix3 b i e) j = ix3 b j e :=
      funext fun a => Fin.ext (by match a with | ⟨0, _⟩ => rfl | ⟨1, _⟩ => rfl | ⟨2, _⟩ => rfl)
    rw [hl, hr, ref_probs x0 x1 x2 h0 h1 h2, ref_values x0 x3 h0 h3]
    split_ifs with hji
    · rw [← EReal.coe_mul]
    · rw [zero_mul]
  rw [val_main_v22_apply, Finset.sum_congr rfl fun j _ => hterm j, sum_masked]
  rfl

open Idealize.ShloMosaic.TcCoe Idealize.SL.Sem in
/-- The reference run's result term on finite arguments is their causal attention. -/
theorem ref_out (m : (ℓ : Loc nD τ sig) → Buf (Elt Ideal) ℓ) (c : Dev nD)
    (h0 : Fin3 (m ((c.tc : Thread nD τ).loc main_arg0))) (h1 : Fin2 (m ((c.tc : Thread nD τ).loc main_arg1)))
    (h2 : Fin2 (m ((c.tc : Thread nD τ).loc main_arg2))) (h3 : Fin2 (m ((c.tc : Thread nD τ).loc main_arg3))) :
    Cert.ReferenceIdeal.Value.res_out0 (F := Ideal) m c
      = G (m ((c.tc : Thread nD τ).loc main_arg0)) (m ((c.tc : Thread nD τ).loc main_arg1))
          (m ((c.tc : Thread nD τ).loc main_arg2)) (m ((c.tc : Thread nD τ).loc main_arg3)) :=
  (val_main_v22_eq m c).trans (ref_value _ _ _ _ h0 h1 h2 h3)

end Cert.RefValue

end
-- ==== Proof.FinitePre.lean ====
import proofs.«417288_j44684839747926_3_alg».proof.Defs
import proofs.«417288_j44684839747926_3_alg».proof.Proof.Gen.Pre_finite_inputs
import proofs.«417288_j44684839747926_3_alg».proof.Proof.SpecE
import Idealize.ShloMosaic.Lib.ReduceAll

/-! The precondition read back: where the printed predicate `all (|x| < +∞)` of the four argument arrays is all ones,
    every entry of every argument is a real number. -/

noncomputable section

namespace Cert.FinitePre

open Idealize.ShloMosaic Idealize.ShloMosaic.ValueIdx Idealize.ShloMosaic.TcCoe Idealize.SL.Sem Cert.Spec

/-- The scalar shape has one index. -/
instance : Subsingleton Cert.Pre_finite_inputs.S_.Idx := ⟨fun a b => funext fun d => d.elim0⟩

/-- The word `0x7F800000` denotes +∞. -/
theorem ofBits_pos_inf : Ideal.ofBits .f32 0x7F800000#32 = ⊤ := by simp [Ideal.ofBits, Ideal.ieee]

/-- An extended real whose absolute value is below +∞ is a real number: at −∞ and at +∞ the absolute value is +∞. -/
theorem real_of_abs_lt_top (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [ofBits_pos_inf] at h'
  induction x using EReal.rec with
  | bot => simp [Ideal.cmp] at h'
  | coe r => exact ⟨r, rfl⟩
  | top => simp [Ideal.cmp] at h'

/-- One conjunct of the predicate, read at an index: where `all (|x| < +∞)` is one, the entry there is real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi (cmpf .olt (Host.absf x)
        (broadcastInDim s ![] hb (constant Cert.Pre_finite_inputs.S_ .f32 0x7F800000#32))) init hr hu ix0 = 1#1)
    (i : s.Idx) : ∃ r : ℝ, x i = (r : EReal) :=
  real_of_abs_lt_top (x i) (Host.reduce_andi_all _ init hr hu ix0 h i)

/-- Under the precondition every entry of every argument is a real number. -/
theorem fin_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Spec.Fin3 (m ((c.tc : Thread Cert.KernelIdeal.nD Cert.KernelIdeal.τ).loc Cert.KernelIdeal.main_arg0))
      ∧ Cert.Spec.Fin2 (m ((c.tc : Thread Cert.KernelIdeal.nD Cert.KernelIdeal.τ).loc Cert.KernelIdeal.main_arg1))
      ∧ Cert.Spec.Fin2 (m ((c.tc : Thread Cert.KernelIdeal.nD Cert.KernelIdeal.τ).loc Cert.KernelIdeal.main_arg2))
      ∧ Cert.Spec.Fin2 (m ((c.tc : Thread Cert.KernelIdeal.nD Cert.KernelIdeal.τ).loc Cert.KernelIdeal.main_arg3)) := by
  have h1 := congrFun (h c) ix0
  dsimp only [Cert.Pre_finite_inputs.fn, Cert.Pre_finite_inputs.fn_part1] at h1
  obtain ⟨h123, h4⟩ := IntOp.andi_eq_one.1 h1
  obtain ⟨h12, h3⟩ := IntOp.andi_eq_one.1 h123
  obtain ⟨h1', h2⟩ := IntOp.andi_eq_one.1 h12
  exact ⟨fun i => real_of_all _ _ _ _ _ h1' i, fun i => real_of_all _ _ _ _ _ h2 i,
    fun i => real_of_all _ _ _ _ _ h3 i, fun i => real_of_all _ _ _ _ _ h4 i⟩

end Cert.FinitePre

end
-- ==== Proof.lean ====
/- The proof of `Cert.Claim`: a causal single-head attention kernel — a projection call that multiplies the activations
   by the three weight matrices side by side, and a flash-attention call that walks, per batch, the ten (query block, key
   block) pairs of the lower block triangle, carrying a running row maximum, normaliser and accumulator in scratch and
   storing the quotient at each diagonal block — against the plain reference: scores q·kᵀ/√1024 masked to the positions
   not after the query's, a softmax over them, and the weighted sum of the value rows.

   Both idealized programs compute, on finite inputs, the real causal attention of the inputs (`Cert.Spec.G`):
   * the kernel: the fused projection array's three column blocks are the three projections; row by row the running
     recurrence over the key blocks is, by exp (a − b) · exp (c − a) = exp (c − b), the softmax-weighted sum over the visible
     positions (masked scores are −∞, whose exponential is 0; the scale 2⁻⁵ is the reference's division by √1024 = 32);
   * the reference: stage by stage its extended-real terms are the coercions of the real ones.
   The frames are the runs with the result dropped; the one ledger entry names the kernel's finite stand-in for −∞. -/
import proofs.«417288_j44684839747926_3_alg».proof.Defs
import proofs.«417288_j44684839747926_3_alg».proof.Proof.Gen.Kernel
import proofs.«417288_j44684839747926_3_alg».proof.Proof.Gen.KernelIdeal
import proofs.«417288_j44684839747926_3_alg».proof.Proof.Gen.ReferenceIdeal
import proofs.«417288_j44684839747926_3_alg».proof.Proof.Gen.Pre_finite_inputs
import proofs.«417288_j44684839747926_3_alg».proof.Proof.K.Fin
import proofs.«417288_j44684839747926_3_alg».proof.Proof.KI.Bridge
import proofs.«417288_j44684839747926_3_alg».proof.Proof.RefValue
import proofs.«417288_j44684839747926_3_alg».proof.Proof.FinitePre
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2) (Cert.Kernel.H.run_final m ρ)

/-- So does the idealized program. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (Cert.KernelIdeal.H.run_final m ρ)

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ledger's one entry: the certificate's table gives the mask's finite stand-in the value −∞. -/
theorem preserves : Cert.preserves_Kernel_KernelIdeal :=
  IdealRules.named_const.statement Cert.KernelIdeal.κ "neg_big" .f32 0xFF333332#32 ⊥ rfl

/-- On finite inputs both idealized programs end with the real causal attention of the inputs. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hf := fun c => Cert.FinitePre.fin_of_pre m hpre c
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run (Cert.KernelIdeal.defs (F := Ideal)) _ _).mono
      (fun _ h c => ⟨(h c).1.trans (Cert.KernelIdeal.H.kernel_value m c (hf c).1 (hf c).2.1 (hf c).2.2.1 (hf c).2.2.2), (h c).2⟩)
      (Cert.KernelIdeal.H.run_final m ρ)
  · refine (θ_run Cert.ReferenceIdeal.defs _ _).mono (fun _ h c => ⟨(h c).1.trans ?_, (h c).2⟩)
      (Cert.ReferenceIdeal.Value.run (F := Ideal) m' ρ')
    have e := Cert.RefValue.ref_out m' c (by rw [(hagree c).1]; exact (hf c).1) (by rw [(hagree c).2.1]; exact (hf c).2.1)
      (by rw [(hagree c).2.2.1]; exact (hf c).2.2.1) (by rw [(hagree c).2.2.2]; exact (hf c).2.2.2)
    rw [(hagree c).1, (hagree c).2.1, (hagree c).2.2.1, (hagree c).2.2.2] at e
    exact e

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
